-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v178)) (v1 : (c : Dev Cert.KernelIdeal.nD) → Buf (Elt Ideal) ((c.tc : Thread Cert.KernelIdeal.nD Cert.KernelIdeal.τ).loc Cert.KernelIdeal.main_v189)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v178) = v0 c
          ∧ r.2.mem ((c.tc : Thread Cert.KernelIdeal.nD Cert.KernelIdeal.τ).loc Cert.KernelIdeal.main_v189) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v205) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S_ : Shape := ⟨0, ![]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S1x64 : S_.BroadcastsInDim S1x64 (![] : Fin 0 → Fin S1x64.rank)
  dot_S100000x256_S256x64_S100000x64_1_0_0_1_n_n_wf : DotDims.WF S100000x256 S256x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def fn_part13 {F : FTy → Type} [FloatOps F] (main_v137 : IVec S_ 1) (main_v245 : IVec S_ 1) : IVec S_ 1 :=
  let main_v246 : IVec S_ 1 := andi main_v137 main_v245
  main_v246

def fn_part12 {F : FTy → Type} [FloatOps F] (main_arg7 : FVec F S64 .f32) (main_v137 : IVec S_ 1) (main_v223 : FVec F S100000x64 .f32) (main_v227 : FVec F S100000x64 .f32) : IVec S_ 1 :=
  let main_v228 : FVec F S100000x64 .f32 := addf main_v223 main_v227
  let main_v229 : FVec F S1x64 .f32 := broadcastInDim S1x64 ![1] bcast_S64_S1x64_1 main_arg7
  let main_v230 : FVec F S100000x64 .f32 := broadcastInDim S100000x64 ![0, 1] bcast_S1x64_S100000x64_0_1 main_v229
  let main_v231 : FVec F S100000x64 .f32 := addf main_v228 main_v230
  let main_cst_58 : FVec F S_ .f32 := constant S_ .f32 0x00000000#32
  let main_v232 : FVec F S64 .f32 := (fun x v => Host.reduceAdd x v reducesTo_S100000x64_S64_d0 h_S_) main_v231 main_cst_58
  let main_v233 : FVec F S1x64 .f32 := broadcastInDim S1x64 ![1] bcast_S64_S1x64_1 main_v232
  let main_cst_59 : FVec F S_ .f32 := constant S_ .f32 0x47C35000#32
  let main_v234 : FVec F S1x64 .f32 := broadcastInDim S1x64 ![] bcast_S_S1x64 main_cst_59
  let main_v235 : FVec F S1x64 .f32 := Host.divf main_v233 main_v234
  let main_v236 : FVec F S100000x64 .f32 := broadcastInDim S100000x64 ![0, 1] bcast_S1x64_S100000x64_0_1 main_v235
  let main_v237 : FVec F S100000x64 .f32 := subf main_v231 main_v236
  let main_v238 : FVec F S100000x64 .f32 := mulf main_v237 main_v237
  let main_cst_60 : FVec F S_ .f32 := constant S_ .f32 0x00000000#32
  let main_v239 : FVec F S64 .f32 := (fun x v => Host.reduceAdd x v reducesTo_S100000x64_S64_d0 h_S_) main_v238 main_cst_60
  let main_cst_61 : FVec F S_ .f32 := constant S_ .f32 0x47C34F80#32
  let main_v240 : FVec F S64 .f32 := broadcastInDim S64 ![] bcast_S_S64 main_cst_61
  let main_v241 : FVec F S64 .f32 := Host.divf main_v239 main_v240
  let main_v242 : FVec F S64 .f32 := Host.sqrt main_v241
  let main_cst_62 : FVec F S_ .f32 := constant S_ .f32 0x00000000#32
  let main_v243 : FVec F S64 .f32 := broadcastInDim S64 ![] bcast_S_S64 main_cst_62
  let main_v244 : IVec S64 1 := cmpf .ogt main_v242 main_v243
  let main_c_63 : IVec S_ 1 := constantI S_ 1 1#1
  let main_v245 : IVec S_ 1 := (fun x v => Host.reduce IntOp.andi x v reducesTo_S64_S_d0 h_S_) main_v244 main_c_63
  fn_part13 (F := F) main_v137 main_v245

def fn_part11 {F : FTy → Type} [FloatOps F] (main_arg7 : FVec F S64 .f32) (main_v137 : IVec S_ 1) (main_v139 : IVec S1600000 32) (main_v141 : IVec S1600000 32) (main_v188 : FVec F S100000x64 .f32) (main_v195 : FVec F S100000 .f32) (main_v202 : FVec F S1600000 .f32) (main_v204 : IVec S1600000 1) (main_v206 : IVec S1600000 32) : IVec S_ 1 :=
  let main_v207 : IVec S1600000 32 := select main_v204 main_v206 main_v141
  let main_v208 : IVec S1600000x1 32 := broadcastInDim S1600000x1 ![0] bcast_S1600000_S1600000x1_0 main_v207
  let main_v209 : FVec F S1600000 .f32 := (fun x i => Host.gather gather_S100000_S1600000x1_S1600000_n_0_n_n_0_1_1 x i) main_v195 main_v208
  let main_v210 : FVec F S1600000 .f32 := mulf main_v202 main_v209
  let main_c_55 : IVec S_ 32 := constantI S_ 32 0#32
  let main_v211 : IVec S1600000 32 := broadcastInDim S1600000 ![] bcast_S_S1600000 main_c_55
  let main_v212 : IVec S1600000 1 := cmpi .slt main_v139 main_v211
  let main_c_56 : IVec S_ 32 := constantI S_ 32 100000#32
  let main_v213 : IVec S1600000 32 := broadcastInDim S1600000 ![] bcast_S_S1600000 main_c_56
  let main_v214 : IVec S1600000 32 := addi main_v139 main_v213
  let main_v215 : IVec S1600000 32 := select main_v212 main_v214 main_v139
  let main_v216 : IVec S1600000x1 32 := broadcastInDim S1600000x1 ![0] bcast_S1600000_S1600000x1_0 main_v215
  let main_v217 : FVec F S1600000x64 .f32 := (fun x i => Host.gather gather_S100000x64_S1600000x1_S1600000x64_1_0_n_n_0_1_164 x i) main_v188 main_v216
  let main_v218 : FVec F S1600000x1 .f32 := broadcastInDim S1600000x1 ![0] bcast_S1600000_S1600000x1_0 main_v210
  let main_v219 : FVec F S1600000x64 .f32 := broadcastInDim S1600000x64 ![0, 1] bcast_S1600000x1_S1600000x64_0_1 main_v218
  let main_v220 : FVec F S1600000x64 .f32 := mulf main_v217 main_v219
  let main_cst_57 : FVec F S_ .f32 := constant S_ .f32 0x00000000#32
  let main_v221 : FVec F S100000x64 .f32 := broadcastInDim S100000x64 ![] bcast_S_S100000x64 main_cst_57
  let main_v222 : IVec S1600000x1 32 := broadcastInDim S1600000x1 ![0] bcast_S1600000_S1600000x1_0 main_v141
  let main_v223 : FVec F S100000x64 .f32 := (fun x i u => Host.scatterAdd scatter_S100000x64_S1600000x1_S1600000x64_1_0_0_1 x i u) main_v221 main_v222 main_v220
  let main_v224 : FVec F S100000 .f32 := mulf main_v195 main_v195
  let main_v225 : FVec F S100000x1 .f32 := broadcastInDim S100000x1 ![0] bcast_S100000_S100000x1_0 main_v224
  let main_v226 : FVec F S100000x64 .f32 := broadcastInDim S100000x64 ![0, 1] bcast_S100000x1_S100000x64_0_1 main_v225
  let main_v227 : FVec F S100000x64 .f32 := mulf main_v188 main_v226
  fn_part12 (F := F) main_arg7 main_v137 main_v223 main_v227

def fn_part10 {F : FTy → Type} [FloatOps F] (main_arg7 : FVec F S64 .f32) (main_v137 : IVec S_ 1) (main_v139 : IVec S1600000 32) (main_v141 : IVec S1600000 32) (main_v188 : FVec F S100000x64 .f32) (main_cst_48 : FVec F S_ .f32) : IVec S_ 1 :=
  let main_v189 : FVec F S1600000 .f32 := broadcastInDim S1600000 ![] bcast_S_S1600000 main_cst_48
  let main_cst_49 : FVec F S_ .f32 := constant S_ .f32 0x00000000#32
  let main_v190 : FVec F S100000 .f32 := broadcastInDim S100000 ![] bcast_S_S100000 main_cst_49
  let main_v191 : IVec S1600000x1 32 := broadcastInDim S1600000x1 ![0] bcast_S1600000_S1600000x1_0 main_v141
  let main_v192 : FVec F S100000 .f32 := (fun x i u => Host.scatterAdd scatter_S100000_S1600000x1_S1600000_n_0_0_1 x i u) main_v190 main_v191 main_v189
  let main_cst_50 : FVec F S_ .f32 := constant S_ .f32 0x3F800000#32
  let main_v193 : FVec F S100000 .f32 := broadcastInDim S100000 ![] bcast_S_S100000 main_cst_50
  let main_v194 : FVec F S100000 .f32 := addf main_v192 main_v193
  let main_v195 : FVec F S100000 .f32 := Host.rsqrt main_v194
  let main_c_51 : IVec S_ 32 := constantI S_ 32 0#32
  let main_v196 : IVec S1600000 32 := broadcastInDim S1600000 ![] bcast_S_S1600000 main_c_51
  let main_v197 : IVec S1600000 1 := cmpi .slt main_v139 main_v196
  let main_c_52 : IVec S_ 32 := constantI S_ 32 100000#32
  let main_v198 : IVec S1600000 32 := broadcastInDim S1600000 ![] bcast_S_S1600000 main_c_52
  let main_v199 : IVec S1600000 32 := addi main_v139 main_v198
  let main_v200 : IVec S1600000 32 := select main_v197 main_v199 main_v139
  let main_v201 : IVec S1600000x1 32 := broadcastInDim S1600000x1 ![0] bcast_S1600000_S1600000x1_0 main_v200
  let main_v202 : FVec F S1600000 .f32 := (fun x i => Host.gather gather_S100000_S1600000x1_S1600000_n_0_n_n_0_1_1 x i) main_v195 main_v201
  let main_c_53 : IVec S_ 32 := constantI S_ 32 0#32
  let main_v203 : IVec S1600000 32 := broadcastInDim S1600000 ![] bcast_S_S1600000 main_c_53
  let main_v204 : IVec S1600000 1 := cmpi .slt main_v141 main_v203
  let main_c_54 : IVec S_ 32 := constantI S_ 32 100000#32
  let main_v205 : IVec S1600000 32 := broadcastInDim S1600000 ![] bcast_S_S1600000 main_c_54
  let main_v206 : IVec S1600000 32 := addi main_v141 main_v205
  fn_part11 (F := F) main_arg7 main_v137 main_v139 main_v141 main_v188 main_v195 main_v202 main_v204 main_v206

def fn_part9 {F : FTy → Type} [FloatOps F] (main_arg5 : FVec F S64 .f32) (main_arg6 : FVec F S64x64 .f32) (main_arg7 : FVec F S64 .f32) (main_v137 : IVec S_ 1) (main_v139 : IVec S1600000 32) (main_v141 : IVec S1600000 32) (main_v142 : FVec F S100000x64 .f32) (main_v149 : FVec F S100000 .f32) (main_v164 : FVec F S1600000 .f32) (main_v166 : IVec S1600000 1) (main_v167 : IVec S1600000 32) : IVec S_ 1 :=
  let main_v168 : IVec S1600000 32 := addi main_v139 main_v167
  let main_v169 : IVec S1600000 32 := select main_v166 main_v168 main_v139
  let main_v170 : IVec S1600000x1 32 := broadcastInDim S1600000x1 ![0] bcast_S1600000_S1600000x1_0 main_v169
  let main_v171 : FVec F S1600000x64 .f32 := (fun x i => Host.gather gather_S100000x64_S1600000x1_S1600000x64_1_0_n_n_0_1_164 x i) main_v142 main_v170
  let main_v172 : FVec F S1600000x1 .f32 := broadcastInDim S1600000x1 ![0] bcast_S1600000_S1600000x1_0 main_v164
  let main_v173 : FVec F S1600000x64 .f32 := broadcastInDim S1600000x64 ![0, 1] bcast_S1600000x1_S1600000x64_0_1 main_v172
  let main_v174 : FVec F S1600000x64 .f32 := mulf main_v171 main_v173
  let main_cst_46 : FVec F S_ .f32 := constant S_ .f32 0x00000000#32
  let main_v175 : FVec F S100000x64 .f32 := broadcastInDim S100000x64 ![] bcast_S_S100000x64 main_cst_46
  let main_v176 : IVec S1600000x1 32 := broadcastInDim S1600000x1 ![0] bcast_S1600000_S1600000x1_0 main_v141
  let main_v177 : FVec F S100000x64 .f32 := (fun x i u => Host.scatterAdd scatter_S100000x64_S1600000x1_S1600000x64_1_0_0_1 x i u) main_v175 main_v176 main_v174
  let main_v178 : FVec F S100000 .f32 := mulf main_v149 main_v149
  let main_v179 : FVec F S100000x1 .f32 := broadcastInDim S100000x1 ![0] bcast_S100000_S100000x1_0 main_v178
  let main_v180 : FVec F S100000x64 .f32 := broadcastInDim S100000x64 ![0, 1] bcast_S100000x1_S100000x64_0_1 main_v179
  let main_v181 : FVec F S100000x64 .f32 := mulf main_v142 main_v180
  let main_v182 : FVec F S100000x64 .f32 := addf main_v177 main_v181
  let main_v183 : FVec F S1x64 .f32 := broadcastInDim S1x64 ![1] bcast_S64_S1x64_1 main_arg5
  let main_v184 : FVec F S100000x64 .f32 := broadcastInDim S100000x64 ![0, 1] bcast_S1x64_S100000x64_0_1 main_v183
  let main_v185 : FVec F S100000x64 .f32 := addf main_v182 main_v184
  let main_cst_47 : FVec F S_ .f32 := constant S_ .f32 0x00000000#32
  let main_v186 : FVec F S100000x64 .f32 := broadcastInDim S100000x64 ![] bcast_S_S100000x64 main_cst_47
  let main_v187 : FVec F S100000x64 .f32 := maximumf main_v185 main_v186
  let main_v188 : FVec F S100000x64 .f32 := (fun l r => Host.dotGeneral dot_S100000x64_S64x64_S100000x64_1_0_0_1_n_n none l r) main_v187 main_arg6
  let main_cst_48 : FVec F S_ .f32 := constant S_ .f32 0x3F800000#32
  fn_part10 (F := F) main_arg7 main_v137 main_v139 main_v141 main_v188 main_cst_48

def fn_part8 {F : FTy → Type} [FloatOps F] (main_arg5 : FVec F S64 .f32) (main_arg6 : FVec F S64x64 .f32) (main_arg7 : FVec F S64 .f32) (main_v137 : IVec S_ 1) (main_v139 : IVec S1600000 32) (main_v141 : IVec S1600000 32) (main_v142 : FVec F S100000x64 .f32) (main_v149 : FVec F S100000 .f32) : IVec S_ 1 :=
  let main_c_40 : IVec S_ 32 := constantI S_ 32 0#32
  let main_v150 : IVec S1600000 32 := broadcastInDim S1600000 ![] bcast_S_S1600000 main_c_40
  let main_v151 : IVec S1600000 1 := cmpi .slt main_v139 main_v150
  let main_c_41 : IVec S_ 32 := constantI S_ 32 100000#32
  let main_v152 : IVec S1600000 32 := broadcastInDim S1600000 ![] bcast_S_S1600000 main_c_41
  let main_v153 : IVec S1600000 32 := addi main_v139 main_v152
  let main_v154 : IVec S1600000 32 := select main_v151 main_v153 main_v139
  let main_v155 : IVec S1600000x1 32 := broadcastInDim S1600000x1 ![0] bcast_S1600000_S1600000x1_0 main_v154
  let main_v156 : FVec F S1600000 .f32 := (fun x i => Host.gather gather_S100000_S1600000x1_S1600000_n_0_n_n_0_1_1 x i) main_v149 main_v155
  let main_c_42 : IVec S_ 32 := constantI S_ 32 0#32
  let main_v157 : IVec S1600000 32 := broadcastInDim S1600000 ![] bcast_S_S1600000 main_c_42
  let main_v158 : IVec S1600000 1 := cmpi .slt main_v141 main_v157
  let main_c_43 : IVec S_ 32 := constantI S_ 32 100000#32
  let main_v159 : IVec S1600000 32 := broadcastInDim S1600000 ![] bcast_S_S1600000 main_c_43
  let main_v160 : IVec S1600000 32 := addi main_v141 main_v159
  let main_v161 : IVec S1600000 32 := select main_v158 main_v160 main_v141
  let main_v162 : IVec S1600000x1 32 := broadcastInDim S1600000x1 ![0] bcast_S1600000_S1600000x1_0 main_v161
  let main_v163 : FVec F S1600000 .f32 := (fun x i => Host.gather gather_S100000_S1600000x1_S1600000_n_0_n_n_0_1_1 x i) main_v149 main_v162
  let main_v164 : FVec F S1600000 .f32 := mulf main_v156 main_v163
  let main_c_44 : IVec S_ 32 := constantI S_ 32 0#32
  let main_v165 : IVec S1600000 32 := broadcastInDim S1600000 ![] bcast_S_S1600000 main_c_44
  let main_v166 : IVec S1600000 1 := cmpi .slt main_v139 main_v165
  let main_c_45 : IVec S_ 32 := constantI S_ 32 100000#32
  let main_v167 : IVec S1600000 32 := broadcastInDim S1600000 ![] bcast_S_S1600000 main_c_45
  fn_part9 (F := F) main_arg5 main_arg6 main_arg7 main_v137 main_v139 main_v141 main_v142 main_v149 main_v164 main_v166 main_v167

def fn_part7 {F : FTy → Type} [FloatOps F] (main_arg2 : FVec F S100000x256 .f32) (main_arg3 : IVec S2x1600000 32) (main_arg4 : FVec F S256x64 .f32) (main_arg5 : FVec F S64 .f32) (main_arg6 : FVec F S64x64 .f32) (main_arg7 : FVec F S64 .f32) (main_v28 : IVec S_ 1) (main_v130 : FVec F S64 .f32) (main_cst_34 : FVec F S_ .f32) : IVec S_ 1 :=
  let main_v131 : FVec F S64 .f32 := broadcastInDim S64 ![] bcast_S_S64 main_cst_34
  let main_v132 : FVec F S64 .f32 := Host.divf main_v130 main_v131
  let main_v133 : FVec F S64 .f32 := Host.sqrt main_v132
  let main_cst_35 : FVec F S_ .f32 := constant S_ .f32 0x00000000#32
  let main_v134 : FVec F S64 .f32 := broadcastInDim S64 ![] bcast_S_S64 main_cst_35
  let main_v135 : IVec S64 1 := cmpf .ogt main_v133 main_v134
  let main_c_36 : IVec S_ 1 := constantI S_ 1 1#1
  let main_v136 : IVec S_ 1 := (fun x v => Host.reduce IntOp.andi x v reducesTo_S64_S_d0 h_S_) main_v135 main_c_36
  let main_v137 : IVec S_ 1 := andi main_v28 main_v136
  let main_v138 : IVec S1x1600000 32 := (extractStridedSlice S1x1600000 ![0, 0] · slices_S2x1600000_S1x1600000_0_0) main_arg3
  let main_v139 : IVec S1600000 32 := shapeCast S1600000 main_v138 shapeCasts_S1x1600000_S1600000
  let main_v140 : IVec S1x1600000 32 := (extractStridedSlice S1x1600000 ![1, 0] · slices_S2x1600000_S1x1600000_1_0) main_arg3
  let main_v141 : IVec S1600000 32 := shapeCast S1600000 main_v140 shapeCasts_S1x1600000_S1600000
  let main_v142 : FVec F S100000x64 .f32 := (fun l r => Host.dotGeneral dot_S100000x256_S256x64_S100000x64_1_0_0_1_n_n none l r) main_arg2 main_arg4
  let main_cst_37 : FVec F S_ .f32 := constant S_ .f32 0x3F800000#32
  let main_v143 : FVec F S1600000 .f32 := broadcastInDim S1600000 ![] bcast_S_S1600000 main_cst_37
  let main_cst_38 : FVec F S_ .f32 := constant S_ .f32 0x00000000#32
  let main_v144 : FVec F S100000 .f32 := broadcastInDim S100000 ![] bcast_S_S100000 main_cst_38
  let main_v145 : IVec S1600000x1 32 := broadcastInDim S1600000x1 ![0] bcast_S1600000_S1600000x1_0 main_v141
  let main_v146 : FVec F S100000 .f32 := (fun x i u => Host.scatterAdd scatter_S100000_S1600000x1_S1600000_n_0_0_1 x i u) main_v144 main_v145 main_v143
  let main_cst_39 : FVec F S_ .f32 := constant S_ .f32 0x3F800000#32
  let main_v147 : FVec F S100000 .f32 := broadcastInDim S100000 ![] bcast_S_S100000 main_cst_39
  let main_v148 : FVec F S100000 .f32 := addf main_v146 main_v147
  let main_v149 : FVec F S100000 .f32 := Host.rsqrt main_v148
  fn_part8 (F := F) main_arg5 main_arg6 main_arg7 main_v137 main_v139 main_v141 main_v142 main_v149

def fn_part6 {F : FTy → Type} [FloatOps F] (main_arg2 : FVec F S100000x256 .f32) (main_arg3 : IVec S2x1600000 32) (main_arg4 : FVec F S256x64 .f32) (main_arg5 : FVec F S64 .f32) (main_arg6 : FVec F S64x64 .f32) (main_arg7 : FVec F S64 .f32) (main_v28 : IVec S_ 1) (main_v32 : IVec S1600000 32) (main_v79 : FVec F S100000x64 .f32) (main_v86 : FVec F S100000 .f32) (main_v111 : FVec F S1600000x64 .f32) : IVec S_ 1 :=
  let main_cst_30 : FVec F S_ .f32 := constant S_ .f32 0x00000000#32
  let main_v112 : FVec F S100000x64 .f32 := broadcastInDim S100000x64 ![] bcast_S_S100000x64 main_cst_30
  let main_v113 : IVec S1600000x1 32 := broadcastInDim S1600000x1 ![0] bcast_S1600000_S1600000x1_0 main_v32
  let main_v114 : FVec F S100000x64 .f32 := (fun x i u => Host.scatterAdd scatter_S100000x64_S1600000x1_S1600000x64_1_0_0_1 x i u) main_v112 main_v113 main_v111
  let main_v115 : FVec F S100000 .f32 := mulf main_v86 main_v86
  let main_v116 : FVec F S100000x1 .f32 := broadcastInDim S100000x1 ![0] bcast_S100000_S100000x1_0 main_v115
  let main_v117 : FVec F S100000x64 .f32 := broadcastInDim S100000x64 ![0, 1] bcast_S100000x1_S100000x64_0_1 main_v116
  let main_v118 : FVec F S100000x64 .f32 := mulf main_v79 main_v117
  let main_v119 : FVec F S100000x64 .f32 := addf main_v114 main_v118
  let main_v120 : FVec F S1x64 .f32 := broadcastInDim S1x64 ![1] bcast_S64_S1x64_1 main_arg7
  let main_v121 : FVec F S100000x64 .f32 := broadcastInDim S100000x64 ![0, 1] bcast_S1x64_S100000x64_0_1 main_v120
  let main_v122 : FVec F S100000x64 .f32 := addf main_v119 main_v121
  let main_cst_31 : FVec F S_ .f32 := constant S_ .f32 0x00000000#32
  let main_v123 : FVec F S64 .f32 := (fun x v => Host.reduceAdd x v reducesTo_S100000x64_S64_d0 h_S_) main_v122 main_cst_31
  let main_v124 : FVec F S1x64 .f32 := broadcastInDim S1x64 ![1] bcast_S64_S1x64_1 main_v123
  let main_cst_32 : FVec F S_ .f32 := constant S_ .f32 0x47C35000#32
  let main_v125 : FVec F S1x64 .f32 := broadcastInDim S1x64 ![] bcast_S_S1x64 main_cst_32
  let main_v126 : FVec F S1x64 .f32 := Host.divf main_v124 main_v125
  let main_v127 : FVec F S100000x64 .f32 := broadcastInDim S100000x64 ![0, 1] bcast_S1x64_S100000x64_0_1 main_v126
  let main_v128 : FVec F S100000x64 .f32 := subf main_v122 main_v127
  let main_v129 : FVec F S100000x64 .f32 := mulf main_v128 main_v128
  let main_cst_33 : FVec F S_ .f32 := constant S_ .f32 0x00000000#32
  let main_v130 : FVec F S64 .f32 := (fun x v => Host.reduceAdd x v reducesTo_S100000x64_S64_d0 h_S_) main_v129 main_cst_33
  let main_cst_34 : FVec F S_ .f32 := constant S_ .f32 0x47C34F80#32
  fn_part7 (F := F) main_arg2 main_arg3 main_arg4 main_arg5 main_arg6 main_arg7 main_v28 main_v130 main_cst_34

def fn_part5 {F : FTy → Type} [FloatOps F] (main_arg2 : FVec F S100000x256 .f32) (main_arg3 : IVec S2x1600000 32) (main_arg4 : FVec F S256x64 .f32) (main_arg5 : FVec F S64 .f32) (main_arg6 : FVec F S64x64 .f32) (main_arg7 : FVec F S64 .f32) (main_v28 : IVec S_ 1) (main_v30 : IVec S1600000 32) (main_v32 : IVec S1600000 32) (main_v79 : FVec F S100000x64 .f32) (main_v86 : FVec F S100000 .f32) (main_v91 : IVec S1600000 32) : IVec S_ 1 :=
  let main_v92 : IVec S1600000x1 32 := broadcastInDim S1600000x1 ![0] bcast_S1600000_S1600000x1_0 main_v91
  let main_v93 : FVec F S1600000 .f32 := (fun x i => Host.gather gather_S100000_S1600000x1_S1600000_n_0_n_n_0_1_1 x i) main_v86 main_v92
  let main_c_26 : IVec S_ 32 := constantI S_ 32 0#32
  let main_v94 : IVec S1600000 32 := broadcastInDim S1600000 ![] bcast_S_S1600000 main_c_26
  let main_v95 : IVec S1600000 1 := cmpi .slt main_v32 main_v94
  let main_c_27 : IVec S_ 32 := constantI S_ 32 100000#32
  let main_v96 : IVec S1600000 32 := broadcastInDim S1600000 ![] bcast_S_S1600000 main_c_27
  let main_v97 : IVec S1600000 32 := addi main_v32 main_v96
  let main_v98 : IVec S1600000 32 := select main_v95 main_v97 main_v32
  let main_v99 : IVec S1600000x1 32 := broadcastInDim S1600000x1 ![0] bcast_S1600000_S1600000x1_0 main_v98
  let main_v100 : FVec F S1600000 .f32 := (fun x i => Host.gather gather_S100000_S1600000x1_S1600000_n_0_n_n_0_1_1 x i) main_v86 main_v99
  let main_v101 : FVec F S1600000 .f32 := mulf main_v93 main_v100
  let main_c_28 : IVec S_ 32 := constantI S_ 32 0#32
  let main_v102 : IVec S1600000 32 := broadcastInDim S1600000 ![] bcast_S_S1600000 main_c_28
  let main_v103 : IVec S1600000 1 := cmpi .slt main_v30 main_v102
  let main_c_29 : IVec S_ 32 := constantI S_ 32 100000#32
  let main_v104 : IVec S1600000 32 := broadcastInDim S1600000 ![] bcast_S_S1600000 main_c_29
  let main_v105 : IVec S1600000 32 := addi main_v30 main_v104
  let main_v106 : IVec S1600000 32 := select main_v103 main_v105 main_v30
  let main_v107 : IVec S1600000x1 32 := broadcastInDim S1600000x1 ![0] bcast_S1600000_S1600000x1_0 main_v106
  let main_v108 : FVec F S1600000x64 .f32 := (fun x i => Host.gather gather_S100000x64_S1600000x1_S1600000x64_1_0_n_n_0_1_164 x i) main_v79 main_v107
  let main_v109 : FVec F S1600000x1 .f32 := broadcastInDim S1600000x1 ![0] bcast_S1600000_S1600000x1_0 main_v101
  let main_v110 : FVec F S1600000x64 .f32 := broadcastInDim S1600000x64 ![0, 1] bcast_S1600000x1_S1600000x64_0_1 main_v109
  let main_v111 : FVec F S1600000x64 .f32 := mulf main_v108 main_v110
  fn_part6 (F := F) main_arg2 main_arg3 main_arg4 main_arg5 main_arg6 main_arg7 main_v28 main_v32 main_v79 main_v86 main_v111

def fn_part4 {F : FTy → Type} [FloatOps F] (main_arg2 : FVec F S100000x256 .f32) (main_arg3 : IVec S2x1600000 32) (main_arg4 : FVec F S256x64 .f32) (main_arg5 : FVec F S64 .f32) (main_arg6 : FVec F S64x64 .f32) (main_arg7 : FVec F S64 .f32) (main_v28 : IVec S_ 1) (main_v30 : IVec S1600000 32) (main_v32 : IVec S1600000 32) (main_v73 : FVec F S100000x64 .f32) : IVec S_ 1 :=
  let main_v74 : FVec F S1x64 .f32 := broadcastInDim S1x64 ![1] bcast_S64_S1x64_1 main_arg5
  let main_v75 : FVec F S100000x64 .f32 := broadcastInDim S100000x64 ![0, 1] bcast_S1x64_S100000x64_0_1 main_v74
  let main_v76 : FVec F S100000x64 .f32 := addf main_v73 main_v75
  let main_cst_20 : FVec F S_ .f32 := constant S_ .f32 0x00000000#32
  let main_v77 : FVec F S100000x64 .f32 := broadcastInDim S100000x64 ![] bcast_S_S100000x64 main_cst_20
  let main_v78 : FVec F S100000x64 .f32 := maximumf main_v76 main_v77
  let main_v79 : FVec F S100000x64 .f32 := (fun l r => Host.dotGeneral dot_S100000x64_S64x64_S100000x64_1_0_0_1_n_n none l r) main_v78 main_arg6
  let main_cst_21 : FVec F S_ .f32 := constant S_ .f32 0x3F800000#32
  let main_v80 : FVec F S1600000 .f32 := broadcastInDim S1600000 ![] bcast_S_S1600000 main_cst_21
  let main_cst_22 : FVec F S_ .f32 := constant S_ .f32 0x00000000#32
  let main_v81 : FVec F S100000 .f32 := broadcastInDim S100000 ![] bcast_S_S100000 main_cst_22
  let main_v82 : IVec S1600000x1 32 := broadcastInDim S1600000x1 ![0] bcast_S1600000_S1600000x1_0 main_v32
  let main_v83 : FVec F S100000 .f32 := (fun x i u => Host.scatterAdd scatter_S100000_S1600000x1_S1600000_n_0_0_1 x i u) main_v81 main_v82 main_v80
  let main_cst_23 : FVec F S_ .f32 := constant S_ .f32 0x3F800000#32
  let main_v84 : FVec F S100000 .f32 := broadcastInDim S100000 ![] bcast_S_S100000 main_cst_23
  let main_v85 : FVec F S100000 .f32 := addf main_v83 main_v84
  let main_v86 : FVec F S100000 .f32 := Host.rsqrt main_v85
  let main_c_24 : IVec S_ 32 := constantI S_ 32 0#32
  let main_v87 : IVec S1600000 32 := broadcastInDim S1600000 ![] bcast_S_S1600000 main_c_24
  let main_v88 : IVec S1600000 1 := cmpi .slt main_v30 main_v87
  let main_c_25 : IVec S_ 32 := constantI S_ 32 100000#32
  let main_v89 : IVec S1600000 32 := broadcastInDim S1600000 ![] bcast_S_S1600000 main_c_25
  let main_v90 : IVec S1600000 32 := addi main_v30 main_v89
  let main_v91 : IVec S1600000 32 := select main_v88 main_v90 main_v30
  fn_part5 (F := F) main_arg2 main_arg3 main_arg4 main_arg5 main_arg6 main_arg7 main_v28 main_v30 main_v32 main_v79 main_v86 main_v91

def fn_part3 {F : FTy → Type} [FloatOps F] (main_arg2 : FVec F S100000x256 .f32) (main_arg3 : IVec S2x1600000 32) (main_arg4 : FVec F S256x64 .f32) (main_arg5 : FVec F S64 .f32) (main_arg6 : FVec F S64x64 .f32) (main_arg7 : FVec F S64 .f32) (main_v28 : IVec S_ 1) (main_v30 : IVec S1600000 32) (main_v32 : IVec S1600000 32) (main_v33 : FVec F S100000x64 .f32) (main_v40 : FVec F S100000 .f32) (main_v47 : FVec F S1600000 .f32) (main_v52 : IVec S1600000 32) : IVec S_ 1 :=
  let main_v53 : IVec S1600000x1 32 := broadcastInDim S1600000x1 ![0] bcast_S1600000_S1600000x1_0 main_v52
  let main_v54 : FVec F S1600000 .f32 := (fun x i => Host.gather gather_S100000_S1600000x1_S1600000_n_0_n_n_0_1_1 x i) main_v40 main_v53
  let main_v55 : FVec F S1600000 .f32 := mulf main_v47 main_v54
  let main_c_17 : IVec S_ 32 := constantI S_ 32 0#32
  let main_v56 : IVec S1600000 32 := broadcastInDim S1600000 ![] bcast_S_S1600000 main_c_17
  let main_v57 : IVec S1600000 1 := cmpi .slt main_v30 main_v56
  let main_c_18 : IVec S_ 32 := constantI S_ 32 100000#32
  let main_v58 : IVec S1600000 32 := broadcastInDim S1600000 ![] bcast_S_S1600000 main_c_18
  let main_v59 : IVec S1600000 32 := addi main_v30 main_v58
  let main_v60 : IVec S1600000 32 := select main_v57 main_v59 main_v30
  let main_v61 : IVec S1600000x1 32 := broadcastInDim S1600000x1 ![0] bcast_S1600000_S1600000x1_0 main_v60
  let main_v62 : FVec F S1600000x64 .f32 := (fun x i => Host.gather gather_S100000x64_S1600000x1_S1600000x64_1_0_n_n_0_1_164 x i) main_v33 main_v61
  let main_v63 : FVec F S1600000x1 .f32 := broadcastInDim S1600000x1 ![0] bcast_S1600000_S1600000x1_0 main_v55
  let main_v64 : FVec F S1600000x64 .f32 := broadcastInDim S1600000x64 ![0, 1] bcast_S1600000x1_S1600000x64_0_1 main_v63
  let main_v65 : FVec F S1600000x64 .f32 := mulf main_v62 main_v64
  let main_cst_19 : FVec F S_ .f32 := constant S_ .f32 0x00000000#32
  let main_v66 : FVec F S100000x64 .f32 := broadcastInDim S100000x64 ![] bcast_S_S100000x64 main_cst_19
  let main_v67 : IVec S1600000x1 32 := broadcastInDim S1600000x1 ![0] bcast_S1600000_S1600000x1_0 main_v32
  let main_v68 : FVec F S100000x64 .f32 := (fun x i u => Host.scatterAdd scatter_S100000x64_S1600000x1_S1600000x64_1_0_0_1 x i u) main_v66 main_v67 main_v65
  let main_v69 : FVec F S100000 .f32 := mulf main_v40 main_v40
  let main_v70 : FVec F S100000x1 .f32 := broadcastInDim S100000x1 ![0] bcast_S100000_S100000x1_0 main_v69
  let main_v71 : FVec F S100000x64 .f32 := broadcastInDim S100000x64 ![0, 1] bcast_S100000x1_S100000x64_0_1 main_v70
  let main_v72 : FVec F S100000x64 .f32 := mulf main_v33 main_v71
  let main_v73 : FVec F S100000x64 .f32 := addf main_v68 main_v72
  fn_part4 (F := F) main_arg2 main_arg3 main_arg4 main_arg5 main_arg6 main_arg7 main_v28 main_v30 main_v32 main_v73

def fn_part2 {F : FTy → Type} [FloatOps F] (main_arg2 : FVec F S100000x256 .f32) (main_arg3 : IVec S2x1600000 32) (main_arg4 : FVec F S256x64 .f32) (main_arg5 : FVec F S64 .f32) (main_arg6 : FVec F S64x64 .f32) (main_arg7 : FVec F S64 .f32) (main_v28 : IVec S_ 1) (main_v30 : IVec S1600000 32) (main_v32 : IVec S1600000 32) (main_v33 : FVec F S100000x64 .f32) (main_v34 : FVec F S1600000 .f32) : IVec S_ 1 :=
  let main_cst_11 : FVec F S_ .f32 := constant S_ .f32 0x00000000#32
  let main_v35 : FVec F S100000 .f32 := broadcastInDim S100000 ![] bcast_S_S100000 main_cst_11
  let main_v36 : IVec S1600000x1 32 := broadcastInDim S1600000x1 ![0] bcast_S1600000_S1600000x1_0 main_v32
  let main_v37 : FVec F S100000 .f32 := (fun x i u => Host.scatterAdd scatter_S100000_S1600000x1_S1600000_n_0_0_1 x i u) main_v35 main_v36 main_v34
  let main_cst_12 : FVec F S_ .f32 := constant S_ .f32 0x3F800000#32
  let main_v38 : FVec F S100000 .f32 := broadcastInDim S100000 ![] bcast_S_S100000 main_cst_12
  let main_v39 : FVec F S100000 .f32 := addf main_v37 main_v38
  let main_v40 : FVec F S100000 .f32 := Host.rsqrt main_v39
  let main_c_13 : IVec S_ 32 := constantI S_ 32 0#32
  let main_v41 : IVec S1600000 32 := broadcastInDim S1600000 ![] bcast_S_S1600000 main_c_13
  let main_v42 : IVec S1600000 1 := cmpi .slt main_v30 main_v41
  let main_c_14 : IVec S_ 32 := constantI S_ 32 100000#32
  let main_v43 : IVec S1600000 32 := broadcastInDim S1600000 ![] bcast_S_S1600000 main_c_14
  let main_v44 : IVec S1600000 32 := addi main_v30 main_v43
  let main_v45 : IVec S1600000 32 := select main_v42 main_v44 main_v30
  let main_v46 : IVec S1600000x1 32 := broadcastInDim S1600000x1 ![0] bcast_S1600000_S1600000x1_0 main_v45
  let main_v47 : FVec F S1600000 .f32 := (fun x i => Host.gather gather_S100000_S1600000x1_S1600000_n_0_n_n_0_1_1 x i) main_v40 main_v46
  let main_c_15 : IVec S_ 32 := constantI S_ 32 0#32
  let main_v48 : IVec S1600000 32 := broadcastInDim S1600000 ![] bcast_S_S1600000 main_c_15
  let main_v49 : IVec S1600000 1 := cmpi .slt main_v32 main_v48
  let main_c_16 : IVec S_ 32 := constantI S_ 32 100000#32
  let main_v50 : IVec S1600000 32 := broadcastInDim S1600000 ![] bcast_S_S1600000 main_c_16
  let main_v51 : IVec S1600000 32 := addi main_v32 main_v50
  let main_v52 : IVec S1600000 32 := select main_v49 main_v51 main_v32
  fn_part3 (F := F) main_arg2 main_arg3 main_arg4 main_arg5 main_arg6 main_arg7 main_v28 main_v30 main_v32 main_v33 main_v40 main_v47 main_v52

def fn_part1 {F : FTy → Type} [FloatOps F] (main_arg0 : FVec F S100000x256 .f32) (main_arg1 : IVec S2x1600000 32) (main_arg2 : FVec F S100000x256 .f32) (main_arg3 : IVec S2x1600000 32) (main_arg4 : FVec F S256x64 .f32) (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x1600000 32 := (extractStridedSlice S1x1600000 ![0, 0] · slices_S2x1600000_S1x1600000_0_0) main_arg1
  let main_v30 : IVec S1600000 32 := shapeCast S1600000 main_v29 shapeCasts_S1x1600000_S1600000
  let main_v31 : IVec S1x1600000 32 := (extractStridedSlice S1x1600000 ![1, 0] · slices_S2x1600000_S1x1600000_1_0) main_arg1
  let main_v32 : IVec S1600000 32 := shapeCast S1600000 main_v31 shapeCasts_S1x1600000_S1600000
  let main_v33 : FVec F S100000x64 .f32 := (fun l r => Host.dotGeneral dot_S100000x256_S256x64_S100000x64_1_0_0_1_n_n none l r) main_arg0 main_arg4
  let main_cst_10 : FVec F S_ .f32 := constant S_ .f32 0x3F800000#32
  let main_v34 : FVec F S1600000 .f32 := broadcastInDim S1600000 ![] bcast_S_S1600000 main_cst_10
  fn_part2 (F := F) main_arg2 main_arg3 main_arg4 main_arg5 main_arg6 main_arg7 main_v28 main_v30 main_v32 main_v33 main_v34

def fn {F : FTy → Type} [FloatOps F] (main_arg0 : FVec F S100000x256 .f32) (main_arg1 : IVec S2x1600000 32) (main_arg2 : FVec F S100000x256 .f32) (main_arg3 : IVec S2x1600000 32) (main_arg4 : FVec F S256x64 .f32) (main_arg5 : FVec F S64 .f32) (main_arg6 : FVec F S64x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg2 main_arg3 main_arg4 main_arg5 main_arg6 main_arg7 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S10000x256 : Shape := ⟨2, ![10000, 256]⟩
abbrev S10000x64 : Shape := ⟨2, ![10000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x1 : Shape := ⟨2, ![10000, 1]⟩

abbrev nBuf : Space → Nat
  | .hbm => 246
  | .vmem => 76
  | .smem => 0
  | _ => 0

abbrev hbmTy0_0 (i : Nat) : BufTy := match i % 128 with
  | 0 => ⟨S100000x256, .f32⟩
  | 1 => ⟨S2x1600000, .i32⟩
  | 2 => ⟨S100000x256, .f32⟩
  | 3 => ⟨S2x1600000, .i32⟩
  | 4 => ⟨S256x64, .f32⟩
  | 5 => ⟨S64, .f32⟩
  | 6 => ⟨S64x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S1x64, .f32⟩
  | 61 => ⟨S100000x64, .f32⟩
  | 62 => ⟨S100000x64, .f32⟩
  | 63 => ⟨S_, .f32⟩
  | 64 => ⟨S1600000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S100000, .f32⟩
  | 71 => ⟨S100000, .f32⟩
  | 72 => ⟨S100000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x1, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000, .f32⟩
  | 109 => ⟨S100000x1, .f32⟩
  | 110 => ⟨S1x64, .f32⟩
  | 111 => ⟨S100000x64, .f32⟩
  | 112 => ⟨S1x1600000, .i32⟩
  | 113 => ⟨S1600000, .i32⟩
  | 114 => ⟨S1x1600000, .i32⟩
  | 115 => ⟨S1600000, .i32⟩
  | 116 => ⟨S100000x64, .f32⟩
  | 117 => ⟨S_, .f32⟩
  | 118 => ⟨S1600000, .f32⟩
  | 119 => ⟨S_, .f32⟩
  | 120 => ⟨S100000, .f32⟩
  | 121 => ⟨S1600000x1, .i32⟩
  | 122 => ⟨S100000, .f32⟩
  | 123 => ⟨S_, .f32⟩
  | 124 => ⟨S100000, .f32⟩
  | 125 => ⟨S100000, .f32⟩
  | 126 => ⟨S100000, .f32⟩
  | 127 => ⟨S_, .i32⟩
  | _ => ⟨S100000x256, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000, .f32⟩
  | 17 => ⟨S1600000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S1600000x1, .f32⟩
  | 28 => ⟨S1600000x64, .f32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S100000, .f32⟩
  | 35 => ⟨S100000x1, .f32⟩
  | 36 => ⟨S1x64, .f32⟩
  | 37 => ⟨S100000x64, .f32⟩
  | 38 => ⟨S100000x64, .f32⟩
  | 39 => ⟨S_, .f32⟩
  | 40 => ⟨S1600000, .f32⟩
  | 41 => ⟨S_, .f32⟩
  | 42 => ⟨S100000, .f32⟩
  | 43 => ⟨S1600000x1, .i32⟩
  | 44 => ⟨S100000, .f32⟩
  | 45 => ⟨S_, .f32⟩
  | 46 => ⟨S100000, .f32⟩
  | 47 => ⟨S100000, .f32⟩
  | 48 => ⟨S100000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000, .f32⟩
  | 67 => ⟨S1600000, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S1600000x1, .f32⟩
  | 78 => ⟨S1600000x64, .f32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S100000, .f32⟩
  | 85 => ⟨S100000x1, .f32⟩
  | 86 => ⟨S1x64, .f32⟩
  | 87 => ⟨S100000x64, .f32⟩
  | 88 => ⟨S1x64, .f32⟩
  | 89 => ⟨S1x64, .f32⟩
  | 90 => ⟨S_, .f32⟩
  | 91 => ⟨S1x64, .f32⟩
  | 92 => ⟨S1x64, .f32⟩
  | 93 => ⟨S_, .f32⟩
  | 94 => ⟨S1x64, .f32⟩
  | 95 => ⟨S1x64, .f32⟩
  | 96 => ⟨S1x64, .f32⟩
  | 97 => ⟨S1x64, .f32⟩
  | 98 => ⟨S_, .f32⟩
  | 99 => ⟨S1x64, .f32⟩
  | 100 => ⟨S1x64, .f32⟩
  | 101 => ⟨S1x64, .f32⟩
  | 102 => ⟨S100000x64, .f32⟩
  | 103 => ⟨S1x64, .f32⟩
  | 104 => ⟨S1x64, .f32⟩
  | 105 => ⟨S_, .f32⟩
  | 106 => ⟨S1x64, .f32⟩
  | 107 => ⟨S1x64, .f32⟩
  | 108 => ⟨S_, .f32⟩
  | 109 => ⟨S1x64, .f32⟩
  | 110 => ⟨S1x64, .f32⟩
  | 111 => ⟨S1x64, .f32⟩
  | 112 => ⟨S1x64, .f32⟩
  | 113 => ⟨S_, .f32⟩
  | 114 => ⟨S1x64, .f32⟩
  | 115 => ⟨S1x64, .f32⟩
  | 116 => ⟨S1x64, .f32⟩
  | 117 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x256, .f32⟩
  | .local _ .vmem, ⟨29, _⟩ => ⟨S10000x256, .f32⟩
  | .local _ .vmem, ⟨30, _⟩ => ⟨S256x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S64x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x1, .f32⟩
  | .local _ .vmem, ⟨52, _⟩ => ⟨S10000x1, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S1x64, .f32⟩
  | .local _ .vmem, ⟨59, _⟩ => ⟨S1x64, .f32⟩
  | .local _ .vmem, ⟨60, _⟩ => ⟨S10000x64, .f32⟩
  | .local _ .vmem, ⟨61, _⟩ => ⟨S10000x64, .f32⟩
  | .local _ .vmem, ⟨62, _⟩ => ⟨S1x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S1x64, .f32⟩
  | .local _ .vmem, ⟨69, _⟩ => ⟨S1x64, .f32⟩
  | .local _ .vmem, ⟨70, _⟩ => ⟨S10000x64, .f32⟩
  | .local _ .vmem, ⟨71, _⟩ => ⟨S10000x64, .f32⟩
  | .local _ .vmem, ⟨72, _⟩ => ⟨S1x64, .f32⟩
  | .local _ .vmem, ⟨73, _⟩ => ⟨S1x64, .f32⟩
  | .local _ .vmem, ⟨74, _⟩ => ⟨S10000x64, .f32⟩
  | .local _ .vmem, ⟨75, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_18 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_20 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_21 : Ref sig .tc := ⟨.hbm, 127, rfl⟩
abbrev main_v96 : Ref sig .tc := ⟨.hbm, 128, rfl⟩
abbrev main_v97 : Ref sig .tc := ⟨.hbm, 129, rfl⟩
abbrev main_c_22 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_23 : Ref sig .tc := ⟨.hbm, 136, rfl⟩
abbrev main_v103 : Ref sig .tc := ⟨.hbm, 137, rfl⟩
abbrev main_v104 : Ref sig .tc := ⟨.hbm, 138, rfl⟩
abbrev main_c_24 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_25 : Ref sig .tc := ⟨.hbm, 146, rfl⟩
abbrev main_v111 : Ref sig .tc := ⟨.hbm, 147, rfl⟩
abbrev main_v112 : Ref sig .tc := ⟨.hbm, 148, rfl⟩
abbrev main_c_26 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_27 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_28 : Ref sig .tc := ⟨.hbm, 167, rfl⟩
abbrev main_v129 : Ref sig .tc := ⟨.hbm, 168, rfl⟩
abbrev main_cst_29 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_30 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_c_31 : Ref sig .tc := ⟨.hbm, 177, rfl⟩
abbrev main_v136 : Ref sig .tc := ⟨.hbm, 178, rfl⟩
abbrev main_v137 : Ref sig .tc := ⟨.hbm, 179, rfl⟩
abbrev main_c_32 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_c_33 : Ref sig .tc := ⟨.hbm, 186, rfl⟩
abbrev main_v143 : Ref sig .tc := ⟨.hbm, 187, rfl⟩
abbrev main_v144 : Ref sig .tc := ⟨.hbm, 188, rfl⟩
abbrev main_c_34 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_c_35 : Ref sig .tc := ⟨.hbm, 196, rfl⟩
abbrev main_v151 : Ref sig .tc := ⟨.hbm, 197, rfl⟩
abbrev main_v152 : Ref sig .tc := ⟨.hbm, 198, rfl⟩
abbrev main_c_36 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_cst_37 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168_0 : Ref sig .tc := ⟨.hbm, 216, rfl⟩
abbrev main_v168_1 : Ref sig .tc := ⟨.hbm, 217, rfl⟩
abbrev main_cst_38 : Ref sig .tc := ⟨.hbm, 218, rfl⟩
abbrev main_v169 : Ref sig .tc := ⟨.hbm, 219, rfl⟩
abbrev main_v170 : Ref sig .tc := ⟨.hbm, 220, rfl⟩
abbrev main_cst_39 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_40 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179_0 : Ref sig .tc := ⟨.hbm, 231, rfl⟩
abbrev main_v179_1 : Ref sig .tc := ⟨.hbm, 232, rfl⟩
abbrev main_cst_41 : Ref sig .tc := ⟨.hbm, 233, rfl⟩
abbrev main_v180 : Ref sig .tc := ⟨.hbm, 234, rfl⟩
abbrev main_v181 : Ref sig .tc := ⟨.hbm, 235, rfl⟩
abbrev main_cst_42 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_cst_43 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc9_stg3_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg2_0 : Ref sig .tc := ⟨.vmem, 69, rfl⟩
abbrev cc11_stg0_0 : Ref sig .tc := ⟨.vmem, 70, rfl⟩
abbrev cc11_stg0_1 : Ref sig .tc := ⟨.vmem, 71, rfl⟩
abbrev cc11_stg1_0 : Ref sig .tc := ⟨.vmem, 72, rfl⟩
abbrev cc11_stg2_0 : Ref sig .tc := ⟨.vmem, 73, rfl⟩
abbrev cc11_stg3_0 : Ref sig .tc := ⟨.vmem, 74, rfl⟩
abbrev cc11_stg3_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc11_sem0_0 : DmaSem sig := 70
abbrev cc11_sem0_1 : DmaSem sig := 71
abbrev cc11_sem1_0 : DmaSem sig := 72
abbrev cc11_sem2_0 : DmaSem sig := 73
abbrev cc11_sem3_0 : DmaSem sig := 74
abbrev cc11_sem3_1 : DmaSem sig := 75

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S10000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  reduces_S10000x64_S64 : S10000x64.Reduces [0] S64
  bcast_S_S1x64 : S_.BroadcastsInDim S1x64 (![] : Fin 0 → Fin S1x64.rank)
  dot_S10000x256_S256x64_S10000x64_1_0_0_1_n_n_wf : DotDims.WF S10000x256 S256x64 S10000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x256.size a ≤ S100000x256.size a
  hwx4_0 : ∀ i : grid4.Coords, EltTy.bits .f32 = 32 ∨ (Rect.block (s := S100000x256) S10000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .f32 = 32 ∨ (Rect.block (s := S256x64) S256x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S100000x1.size a
  hwx7_2 : ∀ i : grid7.Coords, EltTy.bits .f32 = 32 ∨ (Rect.block (s := S100000x1) S10000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x64.size a ≤ S100000x64.size a
  hwx7_4 : ∀ i : grid7.Coords, EltTy.bits .f32 = 32 ∨ (Rect.block (s := S100000x64) S10000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x64.size a ≤ S100000x64.size a
  hwx9_3 : ∀ i : grid9.Coords, EltTy.bits .f32 = 32 ∨ (Rect.block (s := S100000x64) S10000x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x64.size a ≤ S100000x64.size a
  hwx11_3 : ∀ i : grid11.Coords, EltTy.bits .f32 = 32 ∨ (Rect.block (s := S100000x64) S10000x64.size (cc11_transform_3 i) (hinb11_3 i)).WholeWords (EltTy.packing .f32)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg2) S10000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v123) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v125) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v126) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v127) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v127) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v128) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v163) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v128) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v165) S10000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v166) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v167) S10000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v83) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v168_0) S1x64.size cc8_transform_1 reads8_1 true true 1 stage8_1 sem8_1
    hrank8 hreads8_1 hinb8_1 nbuf8_1 (Memref.isWhole_whole _) hwx8_1 hstage8_1

abbrev win8_2 : Pipeline.Window sig grid8 :=
  Pipeline.Window.ofSpec (Memref.whole main_v168_1) S1x64.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v83) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v170) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v177) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v178) S10000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v167) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v179_0) S1x64.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v179_1) S1x64.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v167) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v181) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v188) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v189) S10000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 308
  | .vmem => 0
  | .smem => 0
  | _ => 0

abbrev hbmTy0_0 (i : Nat) : BufTy := match i % 128 with
  | 0 => ⟨S100000x256, .f32⟩
  | 1 => ⟨S2x1600000, .i32⟩
  | 2 => ⟨S100000x256, .f32⟩
  | 3 => ⟨S2x1600000, .i32⟩
  | 4 => ⟨S256x64, .f32⟩
  | 5 => ⟨S64, .f32⟩
  | 6 => ⟨S64x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x1, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S1x1600000, .i32⟩
  | 124 => ⟨S1600000, .i32⟩
  | 125 => ⟨S1x1600000, .i32⟩
  | 126 => ⟨S1600000, .i32⟩
  | 127 => ⟨S100000x64, .f32⟩
  | _ => ⟨S100000x256, .f32⟩

abbrev hbmTy0_1 (i : Nat) : BufTy := match i % 128 with
  | 0 => ⟨S_, .f32⟩
  | 1 => ⟨S1600000, .f32⟩
  | 2 => ⟨S_, .f32⟩
  | 3 => ⟨S100000, .f32⟩
  | 4 => ⟨S1600000x1, .i32⟩
  | 5 => ⟨S100000, .f32⟩
  | 6 => ⟨S_, .f32⟩
  | 7 => ⟨S100000, .f32⟩
  | 8 => ⟨S100000, .f32⟩
  | 9 => ⟨S100000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .f32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S1600000x1, .f32⟩
  | 39 => ⟨S1600000x64, .f32⟩
  | 40 => ⟨S1600000x64, .f32⟩
  | 41 => ⟨S_, .f32⟩
  | 42 => ⟨S100000x64, .f32⟩
  | 43 => ⟨S1600000x1, .i32⟩
  | 44 => ⟨S100000x64, .f32⟩
  | 45 => ⟨S100000, .f32⟩
  | 46 => ⟨S100000x1, .f32⟩
  | 47 => ⟨S100000x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S100000x64, .f32⟩
  | 57 => ⟨S_, .f32⟩
  | 58 => ⟨S1600000, .f32⟩
  | 59 => ⟨S_, .f32⟩
  | 60 => ⟨S100000, .f32⟩
  | 61 => ⟨S1600000x1, .i32⟩
  | 62 => ⟨S100000, .f32⟩
  | 63 => ⟨S_, .f32⟩
  | 64 => ⟨S100000, .f32⟩
  | 65 => ⟨S100000, .f32⟩
  | 66 => ⟨S100000, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000, .f32⟩
  | 85 => ⟨S1600000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x64, .f32⟩
  | 95 => ⟨S1600000x1, .f32⟩
  | 96 => ⟨S1600000x64, .f32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S100000, .f32⟩
  | 103 => ⟨S100000x1, .f32⟩
  | 104 => ⟨S100000x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S64, .f32⟩
  | 112 => ⟨S_, .f32⟩
  | 113 => ⟨S64, .f32⟩
  | 114 => ⟨S64, .f32⟩
  | 115 => ⟨S1x64, .f32⟩
  | 116 => ⟨S100000x64, .f32⟩
  | 117 => ⟨S100000x64, .f32⟩
  | 118 => ⟨S_, .i32⟩
  | 119 => ⟨S_, .f32⟩
  | 120 => ⟨S64, .f32⟩
  | 121 => ⟨S1x64, .f32⟩
  | 122 => ⟨S_, .f32⟩
  | 123 => ⟨S1x64, .f32⟩
  | 124 => ⟨S1x64, .f32⟩
  | 125 => ⟨S100000x64, .f32⟩
  | 126 => ⟨S100000x64, .f32⟩
  | 127 => ⟨S100000x64, .f32⟩
  | _ => ⟨S100000x256, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S64, .f32⟩
  | 5 => ⟨S64, .f32⟩
  | 6 => ⟨S64, .f32⟩
  | 7 => ⟨S_, .f32⟩
  | 8 => ⟨S_, .i1⟩
  | 9 => ⟨S_, .f32⟩
  | 10 => ⟨S_, .f32⟩
  | 11 => ⟨S64, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S_, .f32⟩
  | 18 => ⟨S64, .f32⟩
  | 19 => ⟨S_, .f32⟩
  | 20 => ⟨S64, .f32⟩
  | 21 => ⟨S64, .f32⟩
  | 22 => ⟨S1x64, .f32⟩
  | 23 => ⟨S100000x64, .f32⟩
  | 24 => ⟨S100000x64, .f32⟩
  | 25 => ⟨S_, .i32⟩
  | 26 => ⟨S_, .f32⟩
  | 27 => ⟨S64, .f32⟩
  | 28 => ⟨S1x64, .f32⟩
  | 29 => ⟨S_, .f32⟩
  | 30 => ⟨S1x64, .f32⟩
  | 31 => ⟨S1x64, .f32⟩
  | 32 => ⟨S100000x64, .f32⟩
  | 33 => ⟨S100000x64, .f32⟩
  | 34 => ⟨S100000x64, .f32⟩
  | 35 => ⟨S_, .f32⟩
  | 36 => ⟨S_, .f32⟩
  | 37 => ⟨S_, .f32⟩
  | 38 => ⟨S_, .f32⟩
  | 39 => ⟨S64, .f32⟩
  | 40 => ⟨S64, .f32⟩
  | 41 => ⟨S64, .f32⟩
  | 42 => ⟨S_, .f32⟩
  | 43 => ⟨S_, .i1⟩
  | 44 => ⟨S_, .f32⟩
  | 45 => ⟨S_, .f32⟩
  | 46 => ⟨S64, .f32⟩
  | 47 => ⟨S64, .f32⟩
  | 48 => ⟨S64, .f32⟩
  | 49 => ⟨S1x64, .f32⟩
  | 50 => ⟨S100000x64, .f32⟩
  | 51 => ⟨S100000x64, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_18 : Ref sig .tc := ⟨.hbm, 128, rfl⟩
abbrev main_v98 : Ref sig .tc := ⟨.hbm, 129, rfl⟩
abbrev main_cst_19 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_20 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_c_21 : Ref sig .tc := ⟨.hbm, 138, rfl⟩
abbrev main_v105 : Ref sig .tc := ⟨.hbm, 139, rfl⟩
abbrev main_v106 : Ref sig .tc := ⟨.hbm, 140, rfl⟩
abbrev main_c_22 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_c_23 : Ref sig .tc := ⟨.hbm, 147, rfl⟩
abbrev main_v112 : Ref sig .tc := ⟨.hbm, 148, rfl⟩
abbrev main_v113 : Ref sig .tc := ⟨.hbm, 149, rfl⟩
abbrev main_c_24 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_c_25 : Ref sig .tc := ⟨.hbm, 157, rfl⟩
abbrev main_v120 : Ref sig .tc := ⟨.hbm, 158, rfl⟩
abbrev main_v121 : Ref sig .tc := ⟨.hbm, 159, rfl⟩
abbrev main_c_26 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_27 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_call1_cst : Ref sig .tc := ⟨.hbm, 181, rfl⟩
abbrev main_call1_v0 : Ref sig .tc := ⟨.hbm, 182, rfl⟩
abbrev main_v141 : Ref sig .tc := ⟨.hbm, 183, rfl⟩
abbrev main_v142 : Ref sig .tc := ⟨.hbm, 184, rfl⟩
abbrev main_cst_28 : Ref sig .tc := ⟨.hbm, 185, rfl⟩
abbrev main_v143 : Ref sig .tc := ⟨.hbm, 186, rfl⟩
abbrev main_cst_29 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_30 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_c_31 : Ref sig .tc := ⟨.hbm, 195, rfl⟩
abbrev main_v150 : Ref sig .tc := ⟨.hbm, 196, rfl⟩
abbrev main_v151 : Ref sig .tc := ⟨.hbm, 197, rfl⟩
abbrev main_c_32 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_c_33 : Ref sig .tc := ⟨.hbm, 204, rfl⟩
abbrev main_v157 : Ref sig .tc := ⟨.hbm, 205, rfl⟩
abbrev main_v158 : Ref sig .tc := ⟨.hbm, 206, rfl⟩
abbrev main_c_34 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_c_35 : Ref sig .tc := ⟨.hbm, 214, rfl⟩
abbrev main_v165 : Ref sig .tc := ⟨.hbm, 215, rfl⟩
abbrev main_v166 : Ref sig .tc := ⟨.hbm, 216, rfl⟩
abbrev main_c_36 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_37 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_38 : Ref sig .tc := ⟨.hbm, 238, rfl⟩
abbrev main_v186 : Ref sig .tc := ⟨.hbm, 239, rfl⟩
abbrev main_cst_39 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_c_40 : Ref sig .tc := ⟨.hbm, 246, rfl⟩
abbrev main_call2_call0_cst : Ref sig .tc := ⟨.hbm, 247, rfl⟩
abbrev main_call2_call0_v0 : Ref sig .tc := ⟨.hbm, 248, rfl⟩
abbrev main_call2_call0_v1 : Ref sig .tc := ⟨.hbm, 249, rfl⟩
abbrev main_call2_call0_cst_0 : Ref sig .tc := ⟨.hbm, 250, rfl⟩
abbrev main_call2_call0_v2 : Ref sig .tc := ⟨.hbm, 251, rfl⟩
abbrev main_call2_call0_v3 : Ref sig .tc := ⟨.hbm, 252, rfl⟩
abbrev main_call2_call0_v4 : Ref sig .tc := ⟨.hbm, 253, rfl⟩
abbrev main_call2_call0_v5 : Ref sig .tc := ⟨.hbm, 254, rfl⟩
abbrev main_call2_call0_v6 : Ref sig .tc := ⟨.hbm, 255, rfl⟩
abbrev main_call2_call0_v7 : Ref sig .tc := ⟨.hbm, 256, rfl⟩
abbrev main_call2_call0_cst_1 : Ref sig .tc := ⟨.hbm, 257, rfl⟩
abbrev main_call2_call0_v8 : Ref sig .tc := ⟨.hbm, 258, rfl⟩
abbrev main_call2_call0_cst_2 : Ref sig .tc := ⟨.hbm, 259, rfl⟩
abbrev main_call2_call0_v9 : Ref sig .tc := ⟨.hbm, 260, rfl⟩
abbrev main_call2_call0_v10 : Ref sig .tc := ⟨.hbm, 261, rfl⟩
abbrev main_call2_call0_v11 : Ref sig .tc := ⟨.hbm, 262, rfl⟩
abbrev main_call2_call0_cst_3 : Ref sig .tc := ⟨.hbm, 263, rfl⟩
abbrev main_call2_call0_v12 : Ref sig .tc := ⟨.hbm, 264, rfl⟩
abbrev main_call2_call0_cst_4 : Ref sig .tc := ⟨.hbm, 265, rfl⟩
abbrev main_call2_call0_call0_v0 : Ref sig .tc := ⟨.hbm, 266, rfl⟩
abbrev main_call2_call0_call0_v1 : Ref sig .tc := ⟨.hbm, 267, rfl⟩
abbrev main_call2_v0 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_cst_41 : Ref sig .tc := ⟨.hbm, 273, rfl⟩
abbrev main_v196 : Ref sig .tc := ⟨.hbm, 274, rfl⟩
abbrev main_cst_42 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_c_43 : Ref sig .tc := ⟨.hbm, 281, rfl⟩
abbrev main_call3_call0_cst : Ref sig .tc := ⟨.hbm, 282, rfl⟩
abbrev main_call3_call0_v0 : Ref sig .tc := ⟨.hbm, 283, rfl⟩
abbrev main_call3_call0_v1 : Ref sig .tc := ⟨.hbm, 284, rfl⟩
abbrev main_call3_call0_cst_0 : Ref sig .tc := ⟨.hbm, 285, rfl⟩
abbrev main_call3_call0_v2 : Ref sig .tc := ⟨.hbm, 286, rfl⟩
abbrev main_call3_call0_v3 : Ref sig .tc := ⟨.hbm, 287, rfl⟩
abbrev main_call3_call0_v4 : Ref sig .tc := ⟨.hbm, 288, rfl⟩
abbrev main_call3_call0_v5 : Ref sig .tc := ⟨.hbm, 289, rfl⟩
abbrev main_call3_call0_v6 : Ref sig .tc := ⟨.hbm, 290, rfl⟩
abbrev main_call3_call0_v7 : Ref sig .tc := ⟨.hbm, 291, rfl⟩
abbrev main_call3_call0_cst_1 : Ref sig .tc := ⟨.hbm, 292, rfl⟩
abbrev main_call3_call0_v8 : Ref sig .tc := ⟨.hbm, 293, rfl⟩
abbrev main_call3_call0_cst_2 : Ref sig .tc := ⟨.hbm, 294, rfl⟩
abbrev main_call3_call0_v9 : Ref sig .tc := ⟨.hbm, 295, rfl⟩
abbrev main_call3_call0_v10 : Ref sig .tc := ⟨.hbm, 296, rfl⟩
abbrev main_call3_call0_v11 : Ref sig .tc := ⟨.hbm, 297, rfl⟩
abbrev main_call3_call0_cst_3 : Ref sig .tc := ⟨.hbm, 298, rfl⟩
abbrev main_call3_call0_v12 : Ref sig .tc := ⟨.hbm, 299, rfl⟩
abbrev main_call3_call0_cst_4 : Ref sig .tc := ⟨.hbm, 300, rfl⟩
abbrev main_call3_call0_call0_v0 : Ref sig .tc := ⟨.hbm, 301, rfl⟩
abbrev main_call3_call0_call0_v1 : Ref sig .tc := ⟨.hbm, 302, rfl⟩
abbrev main_call3_v0 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  dot_S100000x256_S256x64_S100000x64_1_0_0_1_n_n_wf : DotDims.WF S100000x256 S256x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The two programs' common vocabulary: each stage of the two-layer graph convolution and of the column-wise
  z-score as ONE named function of whole arrays, spelt with the host operations of the reference program.
  A graph-convolution layer is  D^-1/2 (A + I) D^-1/2 (x W) + b : the node features times the weights, a
  degree count over the edge targets (plus one for the self loop), its reciprocal square root, the edge
  weights as products of the two end points' values, the weighted neighbour rows scattered onto their
  targets, the self-loop term and the bias.  The z-score of a column is (h - mean) / std with the unbiased
  standard deviation; the kernel's form is (h - mean) * rsqrt ((sum h^2 - n mean^2) / (n - 1)).
-/
import proofs.«417470_j56255481643393_2_alg».proof.ReferenceIdeal
import proofs.«417470_j56255481643393_2_alg».proof.Proof.Gen.ReferenceIdeal
import Idealize.ShloMosaic.PureOps.Ideal

noncomputable section

namespace Cert.Spec

open Idealize.ShloMosaic Cert.ReferenceIdeal Cert.ReferenceIdeal.Facts₀

variable {F : FTy → Type} [FloatOps F]

/-- Node features of width 64. -/
abbrev Nodes (F : FTy → Type) := FVec F S100000x64 .f32
/-- One value per edge: an end point's node number. -/
abbrev Edges := IVec S1600000 32

/-- Row 0 of the edge table: the edges' sources. -/
def srcOf (e : IVec S2x1600000 32) : Edges :=
  shapeCast S1600000 (extractStridedSlice S1x1600000 ![0, 0] e slices_S2x1600000_S1x1600000_0_0) shapeCasts_S1x1600000_S1600000
/-- Row 1 of the edge table: the edges' targets. -/
def dstOf (e : IVec S2x1600000 32) : Edges :=
  shapeCast S1600000 (extractStridedSlice S1x1600000 ![1, 0] e slices_S2x1600000_S1x1600000_1_0) shapeCasts_S1x1600000_S1600000

/-- x W for the first layer (256 input columns). -/
def xw256 (x : FVec F S100000x256 .f32) (w : FVec F S256x64 .f32) : Nodes F :=
  Host.dotGeneral dot_S100000x256_S256x64_S100000x64_1_0_0_1_n_n none x w
/-- h W for the second layer (64 input columns). -/
def xw64 (x : Nodes F) (w : FVec F S64x64 .f32) : Nodes F :=
  Host.dotGeneral dot_S100000x64_S64x64_S100000x64_1_0_0_1_n_n none x w

/-- (1 + the number of edges into a node) ^ (-1/2). -/
def dinv (dst : Edges) : FVec F S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- A node number read the way array indexing reads it: a negative one counts from the end. -/
def wrap (v : Edges) : Edges :=
  select (cmpi .slt v (broadcastInDim S1600000 ![] bcast_S_S1600000 (constantI S_ 32 0#32)))
    (addi v (broadcastInDim S1600000 ![] bcast_S_S1600000 (constantI S_ 32 100000#32))) v

/-- One value of a per-node vector per edge, at the edge's (wrapped) end point. -/
def take1 (x : FVec F S100000 .f32) (v : Edges) : FVec F S1600000 .f32 :=
  Host.gather gather_S100000_S1600000x1_S1600000_n_0_n_n_0_1_1 x (broadcastInDim S1600000x1 ![0] bcast_S1600000_S1600000x1_0 (wrap v))

/-- The edge weights: the product of the two end points' degree factors. -/
def norm (src dst : Edges) : FVec F S1600000 .f32 :=
  mulf (take1 (dinv (F := F) dst) src) (take1 (dinv (F := F) dst) dst)

/-- The neighbour term: each edge's source row, times the edge weight, added onto the edge's target row. -/
def agg (h : Nodes F) (src dst : Edges) : Nodes F :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf
      (Host.gather gather_S100000x64_S1600000x1_S1600000x64_1_0_n_n_0_1_164 h
        (broadcastInDim S1600000x1 ![0] bcast_S1600000_S1600000x1_0 (wrap src)))
      (broadcastInDim S1600000x64 ![0, 1] bcast_S1600000x1_S1600000x64_0_1
        (broadcastInDim S1600000x1 ![0] bcast_S1600000_S1600000x1_0 (norm (F := F) src dst))))

/-- The square of the degree factor, one per node: the self loop's weight. -/
def dinv2 (dst : Edges) : FVec F S100000 .f32 := mulf (dinv (F := F) dst) (dinv (F := F) dst)

/-- neighbour term + self-loop term + bias, as the reference associates it: (a + h * d) + b. -/
def selfBias (a h : Nodes F) (d2 : FVec F S100000 .f32) (b : FVec F S64 .f32) : Nodes F :=
  addf (addf a (mulf h
      (broadcastInDim S100000x64 ![0, 1] bcast_S100000x1_S100000x64_0_1 (broadcastInDim S100000x1 ![0] bcast_S100000_S100000x1_0 d2))))
    (broadcastInDim S100000x64 ![0, 1] bcast_S1x64_S100000x64_0_1 (broadcastInDim S1x64 ![1] bcast_S64_S1x64_1 b))

/-- max (x, 0). -/
def relu (x : Nodes F) : Nodes F :=
  maximumf x (broadcastInDim S100000x64 ![] bcast_S_S100000x64 (constant S_ .f32 0x00000000#32))

/-- One convolution, given the projected features h = x W. -/
def conv (h : Nodes F) (src dst : Edges) (b : FVec F S64 .f32) : Nodes F :=
  selfBias (agg h src dst) h (dinv2 (F := F) dst) b

/-- The two-layer network on one view. -/
def gcn (x : FVec F S100000x256 .f32) (e : IVec S2x1600000 32) (w1 : FVec F S256x64 .f32) (b1 : FVec F S64 .f32)
    (w2 : FVec F S64x64 .f32) (b2 : FVec F S64 .f32) : Nodes F :=
  conv (xw64 (relu (conv (xw256 x w1) (srcOf e) (dstOf e) b1)) w2) (srcOf e) (dstOf e) b2

/-! ## The z-score, the reference's way -/

/-- The column sums. -/
def colSum (h : Nodes F) : FVec F S64 .f32 :=
  Host.reduceAdd h (constant S_ .f32 0x00000000#32) reducesTo_S100000x64_S64_d0 h_S_

/-- The column means: sums / 100000. -/
def colMean (h : Nodes F) : FVec F S64 .f32 :=
  Host.divf (colSum h) (broadcastInDim S64 ![] bcast_S_S64 (constant S_ .f32 0x47C35000#32))

/-- The deviations from the column means, with the mean taken through a row shape as the reference's variance
    function takes it. -/
def centered (h : Nodes F) : Nodes F :=
  subf h (broadcastInDim S100000x64 ![0, 1] bcast_S1x64_S100000x64_0_1
    (Host.divf (broadcastInDim S1x64 ![1] bcast_S64_S1x64_1 (colSum h))
      (broadcastInDim S1x64 ![] bcast_S_S1x64 (constant S_ .f32 0x47C35000#32))))

/-- The divisor 100000 - 1, computed as the reference computes it. -/
def nMinus1 : FVec F S_ .f32 := subf (constant S_ .f32 0x47C35000#32) (sitofp .f32 (constantI S_ 32 1#32))

/-- The unbiased column variances, as the reference's variance function computes them: the squared deviations'
    sum over 100000 - 1, behind its guard on a positive divisor. -/
def colVar (h : Nodes F) : FVec F S64 .f32 :=
  select
    (broadcastInDim S64 ![] bcast_S_S64 (cmpf .ogt (nMinus1 (F := F)) (constant S_ .f32 0x00000000#32)))
    (Host.divf
      (Host.reduceAdd (mulf (centered h) (centered h)) (constant S_ .f32 0x00000000#32) reducesTo_S100000x64_S64_d0 h_S_)
      (broadcastInDim S64 ![] bcast_S_S64 (nMinus1 (F := F))))
    (broadcastInDim S64 ![] bcast_S_S64 (id (constant S_ .f32 0x7FC00000#32)))

/-- The unbiased column variances as the precondition spells them: the squared deviations' sum over the literal 99999. -/
def varP (h : Nodes F) : FVec F S64 .f32 :=
  Host.divf
    (Host.reduceAdd (mulf (centered h) (centered h)) (constant S_ .f32 0x00000000#32) reducesTo_S100000x64_S64_d0 h_S_)
    (broadcastInDim S64 ![] bcast_S_S64 (constant S_ .f32 0x47C34F80#32))

/-- Their square roots: the standard deviations the precondition asks to be positive. -/
def stdP (h : Nodes F) : FVec F S64 .f32 := Host.sqrt (varP h)
/-- The column standard deviations. -/
def colStd (h : Nodes F) : FVec F S64 .f32 := Host.sqrt (colVar h)

/-- (h - mean) / std, column by column. -/
def zscore (h : Nodes F) : Nodes F :=
  Host.divf
    (subf h (broadcastInDim S100000x64 ![0, 1] bcast_S1x64_S100000x64_0_1 (broadcastInDim S1x64 ![1] bcast_S64_S1x64_1 (colMean h))))
    (broadcastInDim S100000x64 ![0, 1] bcast_S1x64_S100000x64_0_1 (broadcastInDim S1x64 ![1] bcast_S64_S1x64_1 (colStd h)))

/-- One view's result, the reference's way. -/
def out (x : FVec F S100000x256 .f32) (e : IVec S2x1600000 32) (w1 : FVec F S256x64 .f32) (b1 : FVec F S64 .f32)
    (w2 : FVec F S64x64 .f32) (b2 : FVec F S64 .f32) : Nodes F :=
  zscore (gcn x e w1 b1 w2 b2)

/-! ## The z-score, the kernel's way (over row-shaped [1, 64] statistics) -/

/-- mean = sum / 100000, as a row. -/
def meanK (s : FVec F S1x64 .f32) : FVec F S1x64 .f32 :=
  Host.divf s (broadcastInDim S1x64 ![] bcast_S_S1x64 (constant S_ .f32 0x47C35000#32))

/-- rsqrt ((sumsq - (100000 * mean) * mean) / 99999), as a row. -/
def invStdK (s ss : FVec F S1x64 .f32) : FVec F S1x64 .f32 :=
  Host.rsqrt (Host.divf
    (subf ss (mulf (mulf (broadcastInDim S1x64 ![] bcast_S_S1x64 (constant S_ .f32 0x47C35000#32)) (meanK s)) (meanK s)))
    (broadcastInDim S1x64 ![] bcast_S_S1x64 (constant S_ .f32 0x47C34F80#32)))

/-- The self-loop and bias step over the shapes the kernel's finalize call is handed: the self-loop weights as a
    column [100000, 1], the bias as a row [1, 64]:  (a + h * d) + b. -/
def finK (a h : Nodes F) (d : FVec F S100000x1 .f32) (b : FVec F S1x64 .f32) : Nodes F :=
  addf (addf a (mulf h (broadcastInDim S100000x64 ![0, 1] bcast_S100000x1_S100000x64_0_1 d)))
    (broadcastInDim S100000x64 ![0, 1] bcast_S1x64_S100000x64_0_1 b)

/-- The column sums as a row [1, 64]: what the statistics call accumulates block by block. -/
def sumRow (h : Nodes F) : FVec F S1x64 .f32 := broadcastInDim S1x64 ![1] bcast_S64_S1x64_1 (colSum h)

/-- The column sums of squares as a row [1, 64]. -/
def sqRow (h : Nodes F) : FVec F S1x64 .f32 :=
  broadcastInDim S1x64 ![1] bcast_S64_S1x64_1
    (Host.reduceAdd (mulf h h) (constant S_ .f32 0x00000000#32) reducesTo_S100000x64_S64_d0 h_S_)

/-- (h - mean) * invstd with row-shaped statistics: what the normalize call computes. -/
def normK (h : Nodes F) (mu is : FVec F S1x64 .f32) : Nodes F :=
  mulf (subf h (broadcastInDim S100000x64 ![0, 1] bcast_S1x64_S100000x64_0_1 mu))
    (broadcastInDim S100000x64 ![0, 1] bcast_S1x64_S100000x64_0_1 is)

/-- One view's z-score, the kernel's way. -/
def zscoreK (h : Nodes F) : Nodes F :=
  normK h (meanK (sumRow h)) (invStdK (sumRow h) (sqRow h))

/-- Every entry is a real number (neither infinity). -/
def AllReal {s : Shape} (v : FVec Ideal s .f32) : Prop := ∀ i, ∃ r : ℝ, v i = (r : EReal)
end Cert.Spec

end
-- ==== Proof.RRunOps.lean ====
/-
  The reference program's host operations, written out as lists: one list per window of its main function, an
  entry per operation in program order.  Where the program calls one of its own functions (the rectifier, the
  standard deviation, the variance under it and the guarded select under that), the callee's operations stand
  at the call, over the buffers that call was given.  300 operations in all.
-/
import proofs.«417470_j56255481643393_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Operations 1 to 62 of 300: the window `main_part0`. -/
abbrev ops_part0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg4 main_v4 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    nullary main_cst (constant S_ .f32 0x3F800000#32),
    unary main_cst main_v5 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (addf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v27 (broadcastInDim S1600000 ![] bcast_S_S1600000 : (⟨S_, .i32⟩ : BufTy).Contents (Elt F) → (⟨S1600000, .i32⟩ : BufTy).Contents (Elt F)),
    binary main_v1 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v29 (broadcastInDim S1600000 ![] bcast_S_S1600000 : (⟨S_, .i32⟩ : BufTy).Contents (Elt F) → (⟨S1600000, .i32⟩ : BufTy).Contents (Elt F)),
    binary main_v1 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v4 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v26 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x64 ![0, 1] bcast_S1600000x1_S1600000x64_0_1 : (⟨S1600000x1, .f32⟩ : BufTy).Contents (Elt F) → (⟨S1600000x64, .f32⟩ : BufTy).Contents (Elt F)),
    binary main_v33 main_v35 main_v36 (mulf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v37 (broadcastInDim S100000x64 ![] bcast_S_S100000x64 : (⟨S_, .f32⟩ : BufTy).Contents (Elt F) → (⟨S100000x64, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v11 main_v11 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v4 main_v42 main_v43 (mulf : (⟨S100000x64, .f32⟩ : BufTy).Contents (Elt F) → (⟨S100000x64, .f32⟩ : BufTy).Contents (Elt F) → (⟨S100000x64, .f32⟩ : BufTy).Contents (Elt F)),
    binary main_v39 main_v43 main_v44 (addf : (⟨S100000x64, .f32⟩ : BufTy).Contents (Elt F) → (⟨S100000x64, .f32⟩ : BufTy).Contents (Elt F) → (⟨S100000x64, .f32⟩ : BufTy).Contents (Elt F)),
    unary main_arg5 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v47) main_call0.v0 main_call0.v1 maximumf,
    binary main_v48 main_arg6 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 63 to 122 of 300: the window `main_part1`. -/
abbrev ops_part1 : List (HloOp τ sig (Elt F)) :=
  [ nullary main_cst_8 (constant S_ .f32 0x3F800000#32),
    unary main_cst_8 main_v50 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v51 (broadcastInDim S100000 ![] bcast_S_S100000 : (⟨S_, .f32⟩ : BufTy).Contents (Elt F) → (⟨S100000, .f32⟩ : BufTy).Contents (Elt F)),
    unary main_v3 main_v52 (broadcastInDim S1600000x1 ![0] bcast_S1600000_S1600000x1_0 : (⟨S1600000, .i32⟩ : BufTy).Contents (Elt F) → (⟨S1600000x1, .i32⟩ : BufTy).Contents (Elt F)),
    ternary main_v51 main_v52 main_v50 main_v53 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_10 (constant S_ .f32 0x3F800000#32),
    unary main_cst_10 main_v54 (broadcastInDim S100000 ![] bcast_S_S100000 : (⟨S_, .f32⟩ : BufTy).Contents (Elt F) → (⟨S100000, .f32⟩ : BufTy).Contents (Elt F)),
    binary main_v53 main_v54 main_v55 (addf : (⟨S100000, .f32⟩ : BufTy).Contents (Elt F) → (⟨S100000, .f32⟩ : BufTy).Contents (Elt F) → (⟨S100000, .f32⟩ : BufTy).Contents (Elt F)),
    unary main_v55 main_v56 (Host.rsqrt : (⟨S100000, .f32⟩ : BufTy).Contents (Elt F) → (⟨S100000, .f32⟩ : BufTy).Contents (Elt F)),
    nullary main_c_11 (constantI S_ 32 0#32),
    unary main_c_11 main_v57 (broadcastInDim S1600000 ![] bcast_S_S1600000 : (⟨S_, .i32⟩ : BufTy).Contents (Elt F) → (⟨S1600000, .i32⟩ : BufTy).Contents (Elt F)),
    binary main_v1 main_v57 main_v58 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v59 (broadcastInDim S1600000 ![] bcast_S_S1600000 : (⟨S_, .i32⟩ : BufTy).Contents (Elt F) → (⟨S1600000, .i32⟩ : BufTy).Contents (Elt F)),
    binary main_v1 main_v59 main_v60 (addi : (⟨S1600000, .i32⟩ : BufTy).Contents (Elt F) → (⟨S1600000, .i32⟩ : BufTy).Contents (Elt F) → (⟨S1600000, .i32⟩ : BufTy).Contents (Elt F)),
    ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v61 main_v62 (broadcastInDim S1600000x1 ![0] bcast_S1600000_S1600000x1_0 : (⟨S1600000, .i32⟩ : BufTy).Contents (Elt F) → (⟨S1600000x1, .i32⟩ : BufTy).Contents (Elt F)),
    binary main_v56 main_v62 main_v63 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_13 (constantI S_ 32 0#32),
    unary main_c_13 main_v64 (broadcastInDim S1600000 ![] bcast_S_S1600000 : (⟨S_, .i32⟩ : BufTy).Contents (Elt F) → (⟨S1600000, .i32⟩ : BufTy).Contents (Elt F)),
    binary main_v3 main_v64 main_v65 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v66 (broadcastInDim S1600000 ![] bcast_S_S1600000 : (⟨S_, .i32⟩ : BufTy).Contents (Elt F) → (⟨S1600000, .i32⟩ : BufTy).Contents (Elt F)),
    binary main_v3 main_v66 main_v67 (addi : (⟨S1600000, .i32⟩ : BufTy).Contents (Elt F) → (⟨S1600000, .i32⟩ : BufTy).Contents (Elt F) → (⟨S1600000, .i32⟩ : BufTy).Contents (Elt F)),
    ternary main_v65 main_v67 main_v3 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v68 main_v69 (broadcastInDim S1600000x1 ![0] bcast_S1600000_S1600000x1_0 : (⟨S1600000, .i32⟩ : BufTy).Contents (Elt F) → (⟨S1600000x1, .i32⟩ : BufTy).Contents (Elt F)),
    binary main_v56 main_v69 main_v70 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v63 main_v70 main_v71 (mulf : (⟨S1600000, .f32⟩ : BufTy).Contents (Elt F) → (⟨S1600000, .f32⟩ : BufTy).Contents (Elt F) → (⟨S1600000, .f32⟩ : BufTy).Contents (Elt F)),
    nullary main_c_15 (constantI S_ 32 0#32),
    unary main_c_15 main_v72 (broadcastInDim S1600000 ![] bcast_S_S1600000 : (⟨S_, .i32⟩ : BufTy).Contents (Elt F) → (⟨S1600000, .i32⟩ : BufTy).Contents (Elt F)),
    binary main_v1 main_v72 main_v73 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v74 (broadcastInDim S1600000 ![] bcast_S_S1600000 : (⟨S_, .i32⟩ : BufTy).Contents (Elt F) → (⟨S1600000, .i32⟩ : BufTy).Contents (Elt F)),
    binary main_v1 main_v74 main_v75 (addi : (⟨S1600000, .i32⟩ : BufTy).Contents (Elt F) → (⟨S1600000, .i32⟩ : BufTy).Contents (Elt F) → (⟨S1600000, .i32⟩ : BufTy).Contents (Elt F)),
    ternary main_v73 main_v75 main_v1 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v76 main_v77 (broadcastInDim S1600000x1 ![0] bcast_S1600000_S1600000x1_0 : (⟨S1600000, .i32⟩ : BufTy).Contents (Elt F) → (⟨S1600000x1, .i32⟩ : BufTy).Contents (Elt F)),
    binary main_v49 main_v77 main_v78 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v71 main_v79 (broadcastInDim S1600000x1 ![0] bcast_S1600000_S1600000x1_0 : (⟨S1600000, .f32⟩ : BufTy).Contents (Elt F) → (⟨S1600000x1, .f32⟩ : BufTy).Contents (Elt F)),
    unary main_v79 main_v80 (broadcastInDim S1600000x64 ![0, 1] bcast_S1600000x1_S1600000x64_0_1 : (⟨S1600000x1, .f32⟩ : BufTy).Contents (Elt F) → (⟨S1600000x64, .f32⟩ : BufTy).Contents (Elt F)),
    binary main_v78 main_v80 main_v81 (mulf : (⟨S1600000x64, .f32⟩ : BufTy).Contents (Elt F) → (⟨S1600000x64, .f32⟩ : BufTy).Contents (Elt F) → (⟨S1600000x64, .f32⟩ : BufTy).Contents (Elt F)),
    nullary main_cst_17 (constant S_ .f32 0x00000000#32),
    unary main_cst_17 main_v82 (broadcastInDim S100000x64 ![] bcast_S_S100000x64 : (⟨S_, .f32⟩ : BufTy).Contents (Elt F) → (⟨S100000x64, .f32⟩ : BufTy).Contents (Elt F)),
    unary main_v3 main_v83 (broadcastInDim S1600000x1 ![0] bcast_S1600000_S1600000x1_0 : (⟨S1600000, .i32⟩ : BufTy).Contents (Elt F) → (⟨S1600000x1, .i32⟩ : BufTy).Contents (Elt F)),
    ternary main_v82 main_v83 main_v81 main_v84 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v56 main_v56 main_v85 (mulf : (⟨S100000, .f32⟩ : BufTy).Contents (Elt F) → (⟨S100000, .f32⟩ : BufTy).Contents (Elt F) → (⟨S100000, .f32⟩ : BufTy).Contents (Elt F)),
    unary main_v85 main_v86 (broadcastInDim S100000x1 ![0] bcast_S100000_S100000x1_0 : (⟨S100000, .f32⟩ : BufTy).Contents (Elt F) → (⟨S100000x1, .f32⟩ : BufTy).Contents (Elt F)),
    unary main_v86 main_v87 (broadcastInDim S100000x64 ![0, 1] bcast_S100000x1_S100000x64_0_1 : (⟨S100000x1, .f32⟩ : BufTy).Contents (Elt F) → (⟨S100000x64, .f32⟩ : BufTy).Contents (Elt F)),
    binary main_v49 main_v87 main_v88 (mulf : (⟨S100000x64, .f32⟩ : BufTy).Contents (Elt F) → (⟨S100000x64, .f32⟩ : BufTy).Contents (Elt F) → (⟨S100000x64, .f32⟩ : BufTy).Contents (Elt F)),
    binary main_v84 main_v88 main_v89 (addf : (⟨S100000x64, .f32⟩ : BufTy).Contents (Elt F) → (⟨S100000x64, .f32⟩ : BufTy).Contents (Elt F) → (⟨S100000x64, .f32⟩ : BufTy).Contents (Elt F)),
    unary main_arg7 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v89 main_v91 main_v92 (addf : (⟨S100000x64, .f32⟩ : BufTy).Contents (Elt F) → (⟨S100000x64, .f32⟩ : BufTy).Contents (Elt F) → (⟨S100000x64, .f32⟩ : BufTy).Contents (Elt F)),
    unary main_arg3 main_v93 ((extractStridedSlice S1x1600000 ![0, 0] · slices_S2x1600000_S1x1600000_0_0) : (⟨S2x1600000, .i32⟩ : BufTy).Contents (Elt F) → (⟨S1x1600000, .i32⟩ : BufTy).Contents (Elt F)),
    reshape main_v93 main_v94 rfl shapeCasts_S1x1600000_S1600000,
    unary main_arg3 main_v95 ((extractStridedSlice S1x1600000 ![1, 0] · slices_S2x1600000_S1x1600000_1_0) : (⟨S2x1600000, .i32⟩ : BufTy).Contents (Elt F) → (⟨S1x1600000, .i32⟩ : BufTy).Contents (Elt F)),
    reshape main_v95 main_v96 rfl shapeCasts_S1x1600000_S1600000,
    binary main_arg2 main_arg4 main_v97 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    nullary main_cst_18 (constant S_ .f32 0x3F800000#32),
    unary main_cst_18 main_v98 (broadcastInDim S1600000 ![] bcast_S_S1600000 : (⟨S_, .f32⟩ : BufTy).Contents (Elt F) → (⟨S1600000, .f32⟩ : BufTy).Contents (Elt F)) ]

/-- Operations 123 to 184 of 300: the window `main_part2`. -/
abbrev ops_part2 : List (HloOp τ sig (Elt F)) :=
  [ nullary main_cst_19 (constant S_ .f32 0x00000000#32),
    unary main_cst_19 main_v99 (broadcastInDim S100000 ![] bcast_S_S100000 : (⟨S_, .f32⟩ : BufTy).Contents (Elt F) → (⟨S100000, .f32⟩ : BufTy).Contents (Elt F)),
    unary main_v96 main_v100 (broadcastInDim S1600000x1 ![0] bcast_S1600000_S1600000x1_0 : (⟨S1600000, .i32⟩ : BufTy).Contents (Elt F) → (⟨S1600000x1, .i32⟩ : BufTy).Contents (Elt F)),
    ternary main_v99 main_v100 main_v98 main_v101 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_20 (constant S_ .f32 0x3F800000#32),
    unary main_cst_20 main_v102 (broadcastInDim S100000 ![] bcast_S_S100000 : (⟨S_, .f32⟩ : BufTy).Contents (Elt F) → (⟨S100000, .f32⟩ : BufTy).Contents (Elt F)),
    binary main_v101 main_v102 main_v103 (addf : (⟨S100000, .f32⟩ : BufTy).Contents (Elt F) → (⟨S100000, .f32⟩ : BufTy).Contents (Elt F) → (⟨S100000, .f32⟩ : BufTy).Contents (Elt F)),
    unary main_v103 main_v104 (Host.rsqrt : (⟨S100000, .f32⟩ : BufTy).Contents (Elt F) → (⟨S100000, .f32⟩ : BufTy).Contents (Elt F)),
    nullary main_c_21 (constantI S_ 32 0#32),
    unary main_c_21 main_v105 (broadcastInDim S1600000 ![] bcast_S_S1600000 : (⟨S_, .i32⟩ : BufTy).Contents (Elt F) → (⟨S1600000, .i32⟩ : BufTy).Contents (Elt F)),
    binary main_v94 main_v105 main_v106 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v107 (broadcastInDim S1600000 ![] bcast_S_S1600000 : (⟨S_, .i32⟩ : BufTy).Contents (Elt F) → (⟨S1600000, .i32⟩ : BufTy).Contents (Elt F)),
    binary main_v94 main_v107 main_v108 (addi : (⟨S1600000, .i32⟩ : BufTy).Contents (Elt F) → (⟨S1600000, .i32⟩ : BufTy).Contents (Elt F) → (⟨S1600000, .i32⟩ : BufTy).Contents (Elt F)),
    ternary main_v106 main_v108 main_v94 main_v109 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v109 main_v110 (broadcastInDim S1600000x1 ![0] bcast_S1600000_S1600000x1_0 : (⟨S1600000, .i32⟩ : BufTy).Contents (Elt F) → (⟨S1600000x1, .i32⟩ : BufTy).Contents (Elt F)),
    binary main_v104 main_v110 main_v111 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_23 (constantI S_ 32 0#32),
    unary main_c_23 main_v112 (broadcastInDim S1600000 ![] bcast_S_S1600000 : (⟨S_, .i32⟩ : BufTy).Contents (Elt F) → (⟨S1600000, .i32⟩ : BufTy).Contents (Elt F)),
    binary main_v96 main_v112 main_v113 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 100000#32),
    unary main_c_24 main_v114 (broadcastInDim S1600000 ![] bcast_S_S1600000 : (⟨S_, .i32⟩ : BufTy).Contents (Elt F) → (⟨S1600000, .i32⟩ : BufTy).Contents (Elt F)),
    binary main_v96 main_v114 main_v115 (addi : (⟨S1600000, .i32⟩ : BufTy).Contents (Elt F) → (⟨S1600000, .i32⟩ : BufTy).Contents (Elt F) → (⟨S1600000, .i32⟩ : BufTy).Contents (Elt F)),
    ternary main_v113 main_v115 main_v96 main_v116 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v116 main_v117 (broadcastInDim S1600000x1 ![0] bcast_S1600000_S1600000x1_0 : (⟨S1600000, .i32⟩ : BufTy).Contents (Elt F) → (⟨S1600000x1, .i32⟩ : BufTy).Contents (Elt F)),
    binary main_v104 main_v117 main_v118 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v111 main_v118 main_v119 (mulf : (⟨S1600000, .f32⟩ : BufTy).Contents (Elt F) → (⟨S1600000, .f32⟩ : BufTy).Contents (Elt F) → (⟨S1600000, .f32⟩ : BufTy).Contents (Elt F)),
    nullary main_c_25 (constantI S_ 32 0#32),
    unary main_c_25 main_v120 (broadcastInDim S1600000 ![] bcast_S_S1600000 : (⟨S_, .i32⟩ : BufTy).Contents (Elt F) → (⟨S1600000, .i32⟩ : BufTy).Contents (Elt F)),
    binary main_v94 main_v120 main_v121 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v122 (broadcastInDim S1600000 ![] bcast_S_S1600000 : (⟨S_, .i32⟩ : BufTy).Contents (Elt F) → (⟨S1600000, .i32⟩ : BufTy).Contents (Elt F)),
    binary main_v94 main_v122 main_v123 (addi : (⟨S1600000, .i32⟩ : BufTy).Contents (Elt F) → (⟨S1600000, .i32⟩ : BufTy).Contents (Elt F) → (⟨S1600000, .i32⟩ : BufTy).Contents (Elt F)),
    ternary main_v121 main_v123 main_v94 main_v124 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v124 main_v125 (broadcastInDim S1600000x1 ![0] bcast_S1600000_S1600000x1_0 : (⟨S1600000, .i32⟩ : BufTy).Contents (Elt F) → (⟨S1600000x1, .i32⟩ : BufTy).Contents (Elt F)),
    binary main_v97 main_v125 main_v126 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v119 main_v127 (broadcastInDim S1600000x1 ![0] bcast_S1600000_S1600000x1_0 : (⟨S1600000, .f32⟩ : BufTy).Contents (Elt F) → (⟨S1600000x1, .f32⟩ : BufTy).Contents (Elt F)),
    unary main_v127 main_v128 (broadcastInDim S1600000x64 ![0, 1] bcast_S1600000x1_S1600000x64_0_1 : (⟨S1600000x1, .f32⟩ : BufTy).Contents (Elt F) → (⟨S1600000x64, .f32⟩ : BufTy).Contents (Elt F)),
    binary main_v126 main_v128 main_v129 (mulf : (⟨S1600000x64, .f32⟩ : BufTy).Contents (Elt F) → (⟨S1600000x64, .f32⟩ : BufTy).Contents (Elt F) → (⟨S1600000x64, .f32⟩ : BufTy).Contents (Elt F)),
    nullary main_cst_27 (constant S_ .f32 0x00000000#32),
    unary main_cst_27 main_v130 (broadcastInDim S100000x64 ![] bcast_S_S100000x64 : (⟨S_, .f32⟩ : BufTy).Contents (Elt F) → (⟨S100000x64, .f32⟩ : BufTy).Contents (Elt F)),
    unary main_v96 main_v131 (broadcastInDim S1600000x1 ![0] bcast_S1600000_S1600000x1_0 : (⟨S1600000, .i32⟩ : BufTy).Contents (Elt F) → (⟨S1600000x1, .i32⟩ : BufTy).Contents (Elt F)),
    ternary main_v130 main_v131 main_v129 main_v132 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v104 main_v104 main_v133 (mulf : (⟨S100000, .f32⟩ : BufTy).Contents (Elt F) → (⟨S100000, .f32⟩ : BufTy).Contents (Elt F) → (⟨S100000, .f32⟩ : BufTy).Contents (Elt F)),
    unary main_v133 main_v134 (broadcastInDim S100000x1 ![0] bcast_S100000_S100000x1_0 : (⟨S100000, .f32⟩ : BufTy).Contents (Elt F) → (⟨S100000x1, .f32⟩ : BufTy).Contents (Elt F)),
    unary main_v134 main_v135 (broadcastInDim S100000x64 ![0, 1] bcast_S100000x1_S100000x64_0_1 : (⟨S100000x1, .f32⟩ : BufTy).Contents (Elt F) → (⟨S100000x64, .f32⟩ : BufTy).Contents (Elt F)),
    binary main_v97 main_v135 main_v136 (mulf : (⟨S100000x64, .f32⟩ : BufTy).Contents (Elt F) → (⟨S100000x64, .f32⟩ : BufTy).Contents (Elt F) → (⟨S100000x64, .f32⟩ : BufTy).Contents (Elt F)),
    binary main_v132 main_v136 main_v137 (addf : (⟨S100000x64, .f32⟩ : BufTy).Contents (Elt F) → (⟨S100000x64, .f32⟩ : BufTy).Contents (Elt F) → (⟨S100000x64, .f32⟩ : BufTy).Contents (Elt F)),
    unary main_arg5 main_v138 (broadcastInDim S1x64 ![1] bcast_S64_S1x64_1 : (⟨S64, .f32⟩ : BufTy).Contents (Elt F) → (⟨S1x64, .f32⟩ : BufTy).Contents (Elt F)),
    unary main_v138 main_v139 (broadcastInDim S100000x64 ![0, 1] bcast_S1x64_S100000x64_0_1 : (⟨S1x64, .f32⟩ : BufTy).Contents (Elt F) → (⟨S100000x64, .f32⟩ : BufTy).Contents (Elt F)),
    binary main_v137 main_v139 main_v140 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v140) main_call1.v0 main_call1.v1 maximumf,
    binary main_v141 main_arg6 main_v142 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_28 (constant S_ .f32 0x3F800000#32),
    unary main_cst_28 main_v143 (broadcastInDim S1600000 ![] bcast_S_S1600000 : (⟨S_, .f32⟩ : BufTy).Contents (Elt F) → (⟨S1600000, .f32⟩ : BufTy).Contents (Elt F)),
    nullary main_cst_29 (constant S_ .f32 0x00000000#32),
    unary main_cst_29 main_v144 (broadcastInDim S100000 ![] bcast_S_S100000 : (⟨S_, .f32⟩ : BufTy).Contents (Elt F) → (⟨S100000, .f32⟩ : BufTy).Contents (Elt F)),
    unary main_v96 main_v145 (broadcastInDim S1600000x1 ![0] bcast_S1600000_S1600000x1_0 : (⟨S1600000, .i32⟩ : BufTy).Contents (Elt F) → (⟨S1600000x1, .i32⟩ : BufTy).Contents (Elt F)),
    ternary main_v144 main_v145 main_v143 main_v146 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_30 (constant S_ .f32 0x3F800000#32) ]

/-- Operations 185 to 266 of 300: the window `main_part3`. -/
abbrev ops_part3 : List (HloOp τ sig (Elt F)) :=
  [ unary main_cst_30 main_v147 (broadcastInDim S100000 ![] bcast_S_S100000 : (⟨S_, .f32⟩ : BufTy).Contents (Elt F) → (⟨S100000, .f32⟩ : BufTy).Contents (Elt F)),
    binary main_v146 main_v147 main_v148 (addf : (⟨S100000, .f32⟩ : BufTy).Contents (Elt F) → (⟨S100000, .f32⟩ : BufTy).Contents (Elt F) → (⟨S100000, .f32⟩ : BufTy).Contents (Elt F)),
    unary main_v148 main_v149 (Host.rsqrt : (⟨S100000, .f32⟩ : BufTy).Contents (Elt F) → (⟨S100000, .f32⟩ : BufTy).Contents (Elt F)),
    nullary main_c_31 (constantI S_ 32 0#32),
    unary main_c_31 main_v150 (broadcastInDim S1600000 ![] bcast_S_S1600000 : (⟨S_, .i32⟩ : BufTy).Contents (Elt F) → (⟨S1600000, .i32⟩ : BufTy).Contents (Elt F)),
    binary main_v94 main_v150 main_v151 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v152 (broadcastInDim S1600000 ![] bcast_S_S1600000 : (⟨S_, .i32⟩ : BufTy).Contents (Elt F) → (⟨S1600000, .i32⟩ : BufTy).Contents (Elt F)),
    binary main_v94 main_v152 main_v153 (addi : (⟨S1600000, .i32⟩ : BufTy).Contents (Elt F) → (⟨S1600000, .i32⟩ : BufTy).Contents (Elt F) → (⟨S1600000, .i32⟩ : BufTy).Contents (Elt F)),
    ternary main_v151 main_v153 main_v94 main_v154 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v154 main_v155 (broadcastInDim S1600000x1 ![0] bcast_S1600000_S1600000x1_0 : (⟨S1600000, .i32⟩ : BufTy).Contents (Elt F) → (⟨S1600000x1, .i32⟩ : BufTy).Contents (Elt F)),
    binary main_v149 main_v155 main_v156 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_33 (constantI S_ 32 0#32),
    unary main_c_33 main_v157 (broadcastInDim S1600000 ![] bcast_S_S1600000 : (⟨S_, .i32⟩ : BufTy).Contents (Elt F) → (⟨S1600000, .i32⟩ : BufTy).Contents (Elt F)),
    binary main_v96 main_v157 main_v158 (cmpi .slt : (⟨S1600000, .i32⟩ : BufTy).Contents (Elt F) → (⟨S1600000, .i32⟩ : BufTy).Contents (Elt F) → (⟨S1600000, .i1⟩ : BufTy).Contents (Elt F)),
    nullary main_c_34 (constantI S_ 32 100000#32),
    unary main_c_34 main_v159 (broadcastInDim S1600000 ![] bcast_S_S1600000 : (⟨S_, .i32⟩ : BufTy).Contents (Elt F) → (⟨S1600000, .i32⟩ : BufTy).Contents (Elt F)),
    binary main_v96 main_v159 main_v160 (addi : (⟨S1600000, .i32⟩ : BufTy).Contents (Elt F) → (⟨S1600000, .i32⟩ : BufTy).Contents (Elt F) → (⟨S1600000, .i32⟩ : BufTy).Contents (Elt F)),
    ternary main_v158 main_v160 main_v96 main_v161 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v161 main_v162 (broadcastInDim S1600000x1 ![0] bcast_S1600000_S1600000x1_0 : (⟨S1600000, .i32⟩ : BufTy).Contents (Elt F) → (⟨S1600000x1, .i32⟩ : BufTy).Contents (Elt F)),
    binary main_v149 main_v162 main_v163 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v156 main_v163 main_v164 (mulf : (⟨S1600000, .f32⟩ : BufTy).Contents (Elt F) → (⟨S1600000, .f32⟩ : BufTy).Contents (Elt F) → (⟨S1600000, .f32⟩ : BufTy).Contents (Elt F)),
    nullary main_c_35 (constantI S_ 32 0#32),
    unary main_c_35 main_v165 (broadcastInDim S1600000 ![] bcast_S_S1600000 : (⟨S_, .i32⟩ : BufTy).Contents (Elt F) → (⟨S1600000, .i32⟩ : BufTy).Contents (Elt F)),
    binary main_v94 main_v165 main_v166 (cmpi .slt : (⟨S1600000, .i32⟩ : BufTy).Contents (Elt F) → (⟨S1600000, .i32⟩ : BufTy).Contents (Elt F) → (⟨S1600000, .i1⟩ : BufTy).Contents (Elt F)),
    nullary main_c_36 (constantI S_ 32 100000#32),
    unary main_c_36 main_v167 (broadcastInDim S1600000 ![] bcast_S_S1600000 : (⟨S_, .i32⟩ : BufTy).Contents (Elt F) → (⟨S1600000, .i32⟩ : BufTy).Contents (Elt F)),
    binary main_v94 main_v167 main_v168 (addi : (⟨S1600000, .i32⟩ : BufTy).Contents (Elt F) → (⟨S1600000, .i32⟩ : BufTy).Contents (Elt F) → (⟨S1600000, .i32⟩ : BufTy).Contents (Elt F)),
    ternary main_v166 main_v168 main_v94 main_v169 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v169 main_v170 (broadcastInDim S1600000x1 ![0] bcast_S1600000_S1600000x1_0 : (⟨S1600000, .i32⟩ : BufTy).Contents (Elt F) → (⟨S1600000x1, .i32⟩ : BufTy).Contents (Elt F)),
    binary main_v142 main_v170 main_v171 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v164 main_v172 (broadcastInDim S1600000x1 ![0] bcast_S1600000_S1600000x1_0 : (⟨S1600000, .f32⟩ : BufTy).Contents (Elt F) → (⟨S1600000x1, .f32⟩ : BufTy).Contents (Elt F)),
    unary main_v172 main_v173 (broadcastInDim S1600000x64 ![0, 1] bcast_S1600000x1_S1600000x64_0_1 : (⟨S1600000x1, .f32⟩ : BufTy).Contents (Elt F) → (⟨S1600000x64, .f32⟩ : BufTy).Contents (Elt F)),
    binary main_v171 main_v173 main_v174 (mulf : (⟨S1600000x64, .f32⟩ : BufTy).Contents (Elt F) → (⟨S1600000x64, .f32⟩ : BufTy).Contents (Elt F) → (⟨S1600000x64, .f32⟩ : BufTy).Contents (Elt F)),
    nullary main_cst_37 (constant S_ .f32 0x00000000#32),
    unary main_cst_37 main_v175 (broadcastInDim S100000x64 ![] bcast_S_S100000x64 : (⟨S_, .f32⟩ : BufTy).Contents (Elt F) → (⟨S100000x64, .f32⟩ : BufTy).Contents (Elt F)),
    unary main_v96 main_v176 (broadcastInDim S1600000x1 ![0] bcast_S1600000_S1600000x1_0 : (⟨S1600000, .i32⟩ : BufTy).Contents (Elt F) → (⟨S1600000x1, .i32⟩ : BufTy).Contents (Elt F)),
    ternary main_v175 main_v176 main_v174 main_v177 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v149 main_v149 main_v178 (mulf : (⟨S100000, .f32⟩ : BufTy).Contents (Elt F) → (⟨S100000, .f32⟩ : BufTy).Contents (Elt F) → (⟨S100000, .f32⟩ : BufTy).Contents (Elt F)),
    unary main_v178 main_v179 (broadcastInDim S100000x1 ![0] bcast_S100000_S100000x1_0 : (⟨S100000, .f32⟩ : BufTy).Contents (Elt F) → (⟨S100000x1, .f32⟩ : BufTy).Contents (Elt F)),
    unary main_v179 main_v180 (broadcastInDim S100000x64 ![0, 1] bcast_S100000x1_S100000x64_0_1 : (⟨S100000x1, .f32⟩ : BufTy).Contents (Elt F) → (⟨S100000x64, .f32⟩ : BufTy).Contents (Elt F)),
    binary main_v142 main_v180 main_v181 (mulf : (⟨S100000x64, .f32⟩ : BufTy).Contents (Elt F) → (⟨S100000x64, .f32⟩ : BufTy).Contents (Elt F) → (⟨S100000x64, .f32⟩ : BufTy).Contents (Elt F)),
    binary main_v177 main_v181 main_v182 (addf : (⟨S100000x64, .f32⟩ : BufTy).Contents (Elt F) → (⟨S100000x64, .f32⟩ : BufTy).Contents (Elt F) → (⟨S100000x64, .f32⟩ : BufTy).Contents (Elt F)),
    unary main_arg7 main_v183 (broadcastInDim S1x64 ![1] bcast_S64_S1x64_1 : (⟨S64, .f32⟩ : BufTy).Contents (Elt F) → (⟨S1x64, .f32⟩ : BufTy).Contents (Elt F)),
    unary main_v183 main_v184 (broadcastInDim S100000x64 ![0, 1] bcast_S1x64_S100000x64_0_1 : (⟨S1x64, .f32⟩ : BufTy).Contents (Elt F) → (⟨S100000x64, .f32⟩ : BufTy).Contents (Elt F)),
    binary main_v182 main_v184 main_v185 (addf : (⟨S100000x64, .f32⟩ : BufTy).Contents (Elt F) → (⟨S100000x64, .f32⟩ : BufTy).Contents (Elt F) → (⟨S100000x64, .f32⟩ : BufTy).Contents (Elt F)),
    nullary main_cst_38 (constant S_ .f32 0x00000000#32),
    binary main_v92 main_cst_38 main_v186 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_39 (constant S_ .f32 0x47C35000#32),
    unary main_cst_39 main_v187 (broadcastInDim S64 ![] bcast_S_S64 : (⟨S_, .f32⟩ : BufTy).Contents (Elt F) → (⟨S64, .f32⟩ : BufTy).Contents (Elt F)),
    binary main_v186 main_v187 main_v188 (Host.divf : (⟨S64, .f32⟩ : BufTy).Contents (Elt F) → (⟨S64, .f32⟩ : BufTy).Contents (Elt F) → (⟨S64, .f32⟩ : BufTy).Contents (Elt F)),
    unary main_v188 main_v189 (broadcastInDim S1x64 ![1] bcast_S64_S1x64_1 : (⟨S64, .f32⟩ : BufTy).Contents (Elt F) → (⟨S1x64, .f32⟩ : BufTy).Contents (Elt F)),
    unary main_v189 main_v190 (broadcastInDim S100000x64 ![0, 1] bcast_S1x64_S100000x64_0_1 : (⟨S1x64, .f32⟩ : BufTy).Contents (Elt F) → (⟨S100000x64, .f32⟩ : BufTy).Contents (Elt F)),
    binary main_v92 main_v190 main_v191 (subf : (⟨S100000x64, .f32⟩ : BufTy).Contents (Elt F) → (⟨S100000x64, .f32⟩ : BufTy).Contents (Elt F) → (⟨S100000x64, .f32⟩ : BufTy).Contents (Elt F)),
    nullary main_c_40 (constantI S_ 32 1#32),
    TRef.nullary main_call2.call0.cst (constant S_ .f32 0x00000000#32),
    TRef.binary (.of main_v92) main_call2.call0.cst main_call2.call0.v0 (fun x v => Host.reduceAdd x v reducesTo_S100000x64_S64_d0 h_S_),
    TRef.unary main_call2.call0.v0 main_call2.call0.v1 (broadcastInDim S1x64 ![1] bcast_S64_S1x64_1),
    TRef.nullary main_call2.call0.cst_0 (constant S_ .f32 0x47C35000#32),
    TRef.unary main_call2.call0.cst_0 main_call2.call0.v2 (broadcastInDim S1x64 ![] bcast_S_S1x64),
    TRef.binary main_call2.call0.v1 main_call2.call0.v2 main_call2.call0.v3 Host.divf,
    TRef.unary main_call2.call0.v3 main_call2.call0.v4 (broadcastInDim S100000x64 ![0, 1] bcast_S1x64_S100000x64_0_1),
    TRef.binary (.of main_v92) main_call2.call0.v4 main_call2.call0.v5 subf,
    TRef.binary main_call2.call0.v5 main_call2.call0.v5 main_call2.call0.v6 mulf,
    TRef.unary (.of main_c_40) main_call2.call0.v7 (sitofp .f32),
    TRef.nullary main_call2.call0.cst_1 (constant S_ .f32 0x47C35000#32),
    TRef.binary main_call2.call0.cst_1 main_call2.call0.v7 main_call2.call0.v8 subf,
    TRef.nullary main_call2.call0.cst_2 (constant S_ .f32 0x00000000#32),
    TRef.binary main_call2.call0.v6 main_call2.call0.cst_2 main_call2.call0.v9 (fun x v => Host.reduceAdd x v reducesTo_S100000x64_S64_d0 h_S_),
    TRef.unary main_call2.call0.v8 main_call2.call0.v10 (broadcastInDim S64 ![] bcast_S_S64),
    TRef.binary main_call2.call0.v9 main_call2.call0.v10 main_call2.call0.v11 Host.divf,
    TRef.nullary main_call2.call0.cst_3 (constant S_ .f32 0x00000000#32),
    TRef.binary main_call2.call0.v8 main_call2.call0.cst_3 main_call2.call0.v12 (cmpf .ogt),
    TRef.nullary main_call2.call0.cst_4 (constant S_ .f32 0x7FC00000#32),
    TRef.unary main_call2.call0.cst_4 main_call2.call0.call0.v0 id,
    TRef.unary main_call2.call0.call0.v0 main_call2.call0.call0.v1 (broadcastInDim S64 ![] bcast_S_S64),
    TRef.ternary main_call2.call0.v12 main_call2.call0.v11 main_call2.call0.call0.v1 main_call2.call0.call0.v2 (fun p a b => select (broadcastInDim S64 ![] bcast_S_S64 p) a b),
    TRef.unary main_call2.call0.call0.v2 main_call2.v1 Host.sqrt,
    unary main_v192 main_v193 (broadcastInDim S1x64 ![1] bcast_S64_S1x64_1 : (⟨S64, .f32⟩ : BufTy).Contents (Elt F) → (⟨S1x64, .f32⟩ : BufTy).Contents (Elt F)),
    unary main_v193 main_v194 (broadcastInDim S100000x64 ![0, 1] bcast_S1x64_S100000x64_0_1 : (⟨S1x64, .f32⟩ : BufTy).Contents (Elt F) → (⟨S100000x64, .f32⟩ : BufTy).Contents (Elt F)),
    binary main_v191 main_v194 main_v195 (Host.divf : (⟨S100000x64, .f32⟩ : BufTy).Contents (Elt F) → (⟨S100000x64, .f32⟩ : BufTy).Contents (Elt F) → (⟨S100000x64, .f32⟩ : BufTy).Contents (Elt F)),
    nullary main_cst_41 (constant S_ .f32 0x00000000#32) ]

/-- Operations 267 to 300 of 300: the window `main_part4`. -/
abbrev ops_part4 : List (HloOp τ sig (Elt F)) :=
  [ binary main_v185 main_cst_41 main_v196 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_42 (constant S_ .f32 0x47C35000#32),
    unary main_cst_42 main_v197 (broadcastInDim S64 ![] bcast_S_S64 : (⟨S_, .f32⟩ : BufTy).Contents (Elt F) → (⟨S64, .f32⟩ : BufTy).Contents (Elt F)),
    binary main_v196 main_v197 main_v198 (Host.divf : (⟨S64, .f32⟩ : BufTy).Contents (Elt F) → (⟨S64, .f32⟩ : BufTy).Contents (Elt F) → (⟨S64, .f32⟩ : BufTy).Contents (Elt F)),
    unary main_v198 main_v199 (broadcastInDim S1x64 ![1] bcast_S64_S1x64_1 : (⟨S64, .f32⟩ : BufTy).Contents (Elt F) → (⟨S1x64, .f32⟩ : BufTy).Contents (Elt F)),
    unary main_v199 main_v200 (broadcastInDim S100000x64 ![0, 1] bcast_S1x64_S100000x64_0_1 : (⟨S1x64, .f32⟩ : BufTy).Contents (Elt F) → (⟨S100000x64, .f32⟩ : BufTy).Contents (Elt F)),
    binary main_v185 main_v200 main_v201 (subf : (⟨S100000x64, .f32⟩ : BufTy).Contents (Elt F) → (⟨S100000x64, .f32⟩ : BufTy).Contents (Elt F) → (⟨S100000x64, .f32⟩ : BufTy).Contents (Elt F)),
    nullary main_c_43 (constantI S_ 32 1#32),
    TRef.nullary main_call3.call0.cst (constant S_ .f32 0x00000000#32),
    TRef.binary (.of main_v185) main_call3.call0.cst main_call3.call0.v0 (fun x v => Host.reduceAdd x v reducesTo_S100000x64_S64_d0 h_S_),
    TRef.unary main_call3.call0.v0 main_call3.call0.v1 (broadcastInDim S1x64 ![1] bcast_S64_S1x64_1),
    TRef.nullary main_call3.call0.cst_0 (constant S_ .f32 0x47C35000#32),
    TRef.unary main_call3.call0.cst_0 main_call3.call0.v2 (broadcastInDim S1x64 ![] bcast_S_S1x64),
    TRef.binary main_call3.call0.v1 main_call3.call0.v2 main_call3.call0.v3 Host.divf,
    TRef.unary main_call3.call0.v3 main_call3.call0.v4 (broadcastInDim S100000x64 ![0, 1] bcast_S1x64_S100000x64_0_1),
    TRef.binary (.of main_v185) main_call3.call0.v4 main_call3.call0.v5 subf,
    TRef.binary main_call3.call0.v5 main_call3.call0.v5 main_call3.call0.v6 mulf,
    TRef.unary (.of main_c_43) main_call3.call0.v7 (sitofp .f32),
    TRef.nullary main_call3.call0.cst_1 (constant S_ .f32 0x47C35000#32),
    TRef.binary main_call3.call0.cst_1 main_call3.call0.v7 main_call3.call0.v8 subf,
    TRef.nullary main_call3.call0.cst_2 (constant S_ .f32 0x00000000#32),
    TRef.binary main_call3.call0.v6 main_call3.call0.cst_2 main_call3.call0.v9 (fun x v => Host.reduceAdd x v reducesTo_S100000x64_S64_d0 h_S_),
    TRef.unary main_call3.call0.v8 main_call3.call0.v10 (broadcastInDim S64 ![] bcast_S_S64),
    TRef.binary main_call3.call0.v9 main_call3.call0.v10 main_call3.call0.v11 Host.divf,
    TRef.nullary main_call3.call0.cst_3 (constant S_ .f32 0x00000000#32),
    TRef.binary main_call3.call0.v8 main_call3.call0.cst_3 main_call3.call0.v12 (cmpf .ogt),
    TRef.nullary main_call3.call0.cst_4 (constant S_ .f32 0x7FC00000#32),
    TRef.unary main_call3.call0.cst_4 main_call3.call0.call0.v0 id,
    TRef.unary main_call3.call0.call0.v0 main_call3.call0.call0.v1 (broadcastInDim S64 ![] bcast_S_S64),
    TRef.ternary main_call3.call0.v12 main_call3.call0.v11 main_call3.call0.call0.v1 main_call3.call0.call0.v2 (fun p a b => select (broadcastInDim S64 ![] bcast_S_S64 p) a b),
    TRef.unary main_call3.call0.call0.v2 main_call3.v1 Host.sqrt,
    unary main_v202 main_v203 (broadcastInDim S1x64 ![1] bcast_S64_S1x64_1 : (⟨S64, .f32⟩ : BufTy).Contents (Elt F) → (⟨S1x64, .f32⟩ : BufTy).Contents (Elt F)),
    unary main_v203 main_v204 (broadcastInDim S100000x64 ![0, 1] bcast_S1x64_S100000x64_0_1 : (⟨S1x64, .f32⟩ : BufTy).Contents (Elt F) → (⟨S100000x64, .f32⟩ : BufTy).Contents (Elt F)),
    binary main_v201 main_v204 main_v205 (Host.divf : (⟨S100000x64, .f32⟩ : BufTy).Contents (Elt F) → (⟨S100000x64, .f32⟩ : BufTy).Contents (Elt F) → (⟨S100000x64, .f32⟩ : BufTy).Contents (Elt F)) ]

/-- All 300 operations, in program order. -/
abbrev ops : List (HloOp τ sig (Elt F)) :=
  ops_part0 ++ (ops_part1 ++ (ops_part2 ++ (ops_part3 ++ (ops_part4))))

set_option maxRecDepth 8192 in
/-- Every operation of the window `main_part0` reads and writes TensorCore buffers only. -/
theorem ops_part0_sub : (ops_part0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub ..⟩

set_option maxRecDepth 8192 in
/-- Every operation of the window `main_part1` reads and writes TensorCore buffers only. -/
theorem ops_part1_sub : (ops_part1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., binary_bufs_sub .., nullary_bufs_sub .., unary_bufs_sub ..⟩

set_option maxRecDepth 8192 in
/-- Every operation of the window `main_part2` reads and writes TensorCore buffers only. -/
theorem ops_part2_sub : (ops_part2 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub ..⟩

set_option maxRecDepth 8192 in
/-- Every operation of the window `main_part3` reads and writes TensorCore buffers only. -/
theorem ops_part3_sub : (ops_part3 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., unary_bufs_sub .., binary_bufs_sub .., nullary_bufs_sub ..⟩

set_option maxRecDepth 8192 in
/-- Every operation of the window `main_part4` reads and writes TensorCore buffers only. -/
theorem ops_part4_sub : (ops_part4 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., unary_bufs_sub .., binary_bufs_sub ..⟩

end Cert.ReferenceIdeal.Value

end
-- ==== Proof.RRun.lean ====
/-
  The reference program's run, read back.  Its main function is a straight line of host operations once the
  calls of its own functions (the rectifier; the standard deviation, which calls the variance, which calls a
  guarded select) are replaced by the callees' bodies over the buffers each call was given: window by window the
  printed text equals the sequencing of that window's list of operations, so the whole equals the sequencing
  of the concatenated list, and a straight line of operations over TensorCore buffers runs to the end with
  every buffer holding the fold of the operations' results over what the buffers held at launch.
-/
import proofs.«417470_j56255481643393_2_alg».proof.Proof.Gen.ReferenceIdeal
import proofs.«417470_j56255481643393_2_alg».proof.Proof.RRunOps
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## Each window is its list, sequenced

A window without a call is its list by unfolding alone.  In a window with a call the callee's body is a block
of its own, ending in a return, bound in front of the rest: unfolding the callees and re-associating the
binds (a return bound in front of a continuation is the continuation) leaves one chain of single operations on
both sides. -/

set_option maxRecDepth 8192 in
theorem main_part0_eq (c : Dev nD) : main_part0 (F := F) c = seq ops_part0 := by
  simp only [main_part0, fn_relu.body, seq, bind_assoc, pure_bind]
  rfl

set_option maxRecDepth 8192 in
theorem main_part1_eq (c : Dev nD) : main_part1 (F := F) c = seq ops_part1 := rfl

set_option maxRecDepth 8192 in
theorem main_part2_eq (c : Dev nD) : main_part2 (F := F) c = seq ops_part2 := by
  simp only [main_part2, fn_relu.body, seq, bind_assoc, pure_bind]
  rfl

set_option maxRecDepth 8192 in
theorem main_part3_eq (c : Dev nD) : main_part3 (F := F) c = seq ops_part3 := by
  simp only [main_part3, fn_std.body, fn_var.body, fn_where.body, seq, bind_assoc, pure_bind]
  rfl

set_option maxRecDepth 8192 in
theorem main_part4_eq (c : Dev nD) : main_part4 (F := F) c = seq ops_part4 := by
  simp only [main_part4, fn_std.body, fn_var.body, fn_where.body, seq, bind_assoc, pure_bind]

/-! ## The whole program is the concatenated list, sequenced -/

set_option maxRecDepth 8192 in
theorem main_eq (c : Dev nD) : main (F := F) c = seq ops := by
  simp only [ops, seq_append, ← main_part0_eq c, ← main_part1_eq c, ← main_part2_eq c, ← main_part3_eq c,
    ← main_part4_eq c]
  rfl

/-! ## Nothing is scoped, and every operation stays on TensorCore buffers -/

theorem scopedRefs_eq : (Finset.univ.filter fun b : Ref sig .tc => b.isScoped) = ∅ := by decide
theorem scopedSems_eq : (Finset.univ.filter fun sm : SemLoc sig => sm.isScoped .tc) = ∅ := by decide

/-- Membership in the concatenation is membership in one of the five lists, and each list has the property. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h]

/-! ## The run -/

/-- On every device, for any float values, from any memory with zero counters: every weakly fair execution of
    the reference program terminates, and at the end every TensorCore buffer holds the fold of the operations'
    results, in program order, over the contents at launch. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Value

end
-- ==== Proof.Finite.lean ====
/-
  Being a real number (neither infinity) survives every stage of the two-layer graph convolution.

  A product of the features with the weights is, entry by entry, a finite sum of products of reals.  The degree
  count is zero plus a finite sum of ones, a real that is not negative; one more is a positive real, and the
  reciprocal square root of a positive real is a real.  A gather reads SOME entry of its operand whatever the
  start indices are, and so does a broadcast, so either of an all-real array is all-real.  Sums, products and
  the maximum with zero of reals are reals.  The neighbour term is zero plus a finite sum of update entries,
  each a product of reals.  Nothing here asks a node number to be in range.
-/
import proofs.«417470_j56255481643393_2_alg».proof.Proof.Spec
import Idealize.ShloMosaic.PureOps.Ideal.Laws

noncomputable section

namespace Cert.Finite

open Idealize.ShloMosaic Cert.ReferenceIdeal Cert.ReferenceIdeal.Facts₀ Cert.Spec

/-! ## One extended real -/

/-- An extended real that is a real number. -/
def IsReal (x : EReal) : Prop := ∃ r : ℝ, x = (r : EReal)

/-- An extended real that is a real number and not negative. -/
def IsNonneg (x : EReal) : Prop := ∃ r : ℝ, 0 ≤ r ∧ x = (r : EReal)

/-- An extended real that is a positive real number. -/
def IsPos (x : EReal) : Prop := ∃ r : ℝ, 0 < r ∧ x = (r : EReal)

theorem isReal_zero : IsReal 0 := ⟨0, EReal.coe_zero.symm⟩

theorem isNonneg_zero : IsNonneg 0 := ⟨0, le_refl _, EReal.coe_zero.symm⟩

theorem isNonneg_one : IsNonneg 1 := ⟨1, zero_le_one, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The coercion of the reals is monotone, so it carries a maximum to the maximum. -/
theorem isReal_max {x y : EReal} (hx : IsReal x) (hy : IsReal y) : IsReal (max x y) := by
  obtain ⟨a, rfl⟩ := hx; obtain ⟨b, rfl⟩ := hy
  exact ⟨max a b, (EReal.coe_strictMono.monotone.map_max).symm⟩

/-- A finite sum of reals is a real. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

/-- A finite sum of reals none of which is negative is such a real. -/
theorem IsNonneg.sum {ι : Type} (s : Finset ι) (f : ι → EReal) (h : ∀ i ∈ s, IsNonneg (f i)) :
    IsNonneg (∑ i ∈ s, f i) := by
  classical
  induction s using Finset.induction_on with
  | empty => simpa using isNonneg_zero
  | insert a s ha ih =>
    rw [Finset.sum_insert ha]
    exact (h a (Finset.mem_insert_self a s)).add (ih fun i hi => h i (Finset.mem_insert_of_mem hi))

/-- One more than a real that is not negative is a positive real. -/
theorem IsNonneg.add_one_pos {x : EReal} (hx : IsNonneg x) : IsPos (x + 1) := by
  obtain ⟨a, ha, rfl⟩ := hx
  exact ⟨a + 1, by linarith, by rw [EReal.coe_add, EReal.coe_one]⟩

/-- The reciprocal square root of a positive real is the real 1 / √r : no corner of the operation is met. -/
theorem IsPos.rsqrt {x : EReal} (hx : IsPos x) : IsReal (Ideal.rsqrt x) := by
  obtain ⟨r, hr, rfl⟩ := hx
  rw [Ideal.rsqrt_coe, if_neg (not_lt.mpr hr.le), if_neg (ne_of_gt hr)]
  exact ⟨_, rfl⟩

/-! ## The two constants the network spells -/

/-- The word of +0.0 denotes 0. -/
theorem ofBits_zero : Ideal.ofBits .f32 0x00000000#32 = 0 := Ideal.ofBits_zero_f32

/-- The word of 1.0 denotes 1 : sign 0, exponent field 127, fraction 0, so 2^23 * 2^(127 - 127 - 23). -/
theorem ofBits_one : Ideal.ofBits .f32 0x3F800000#32 = 1 := by
  simp [Ideal.ofBits, Ideal.ieee, -EReal.coe_mul]; norm_num

/-! ## One closure lemma per kind of operation, over any shapes -/

section Closure
variable {s t : Shape}

theorem allReal_zeros : AllReal (constant (F := Ideal) s .f32 0x00000000#32) :=
  fun _ => ⟨0, by show Ideal.ofBits .f32 0x00000000#32 = _; rw [ofBits_zero]; rfl⟩

theorem allReal_ones : AllReal (constant (F := Ideal) s .f32 0x3F800000#32) :=
  fun _ => ⟨1, by show Ideal.ofBits .f32 0x3F800000#32 = _; rw [ofBits_one]; rfl⟩

theorem allReal_addf {x y : FVec Ideal s .f32} (hx : AllReal x) (hy : AllReal y) : AllReal (addf x y) :=
  fun i => IsReal.add (hx i) (hy i)

theorem allReal_mulf {x y : FVec Ideal s .f32} (hx : AllReal x) (hy : AllReal y) : AllReal (mulf x y) :=
  fun i => IsReal.mul (hx i) (hy i)

theorem allReal_maximumf {x y : FVec Ideal s .f32} (hx : AllReal x) (hy : AllReal y) : AllReal (maximumf x y) :=
  fun i => isReal_max (hx i) (hy i)

/-- A broadcast's entry is some entry of its operand. -/
theorem allReal_broadcastInDim {dims : Fin s.rank → Fin t.rank} (h : s.BroadcastsInDim t dims) {x : FVec Ideal s .f32}
    (hx : AllReal x) : AllReal (broadcastInDim t dims h x) :=
  fun _ => hx _

/-- A gather's entry is some entry of its operand, wherever the start indices point. -/
theorem allReal_gather {si : Shape} {w : Nat} (d : GatherDims s si t) {x : FVec Ideal s .f32} (idx : IVec si w)
    (hx : AllReal x) : AllReal (Host.gather d x idx) :=
  fun _ => hx _

/-- An entry of the product is the sum over the contracted index of products of entries. -/
theorem allReal_dotGeneral {sl sr so : Shape} (d : DotDims sl sr so) (prec : Option ContractPrecision)
    {x : FVec Ideal sl .f32} {y : FVec Ideal sr .f32} (hx : AllReal x) (hy : AllReal y) :
    AllReal (Host.dotGeneral d prec x y) := by
  intro j
  show IsReal (FloatOps.dotGeneral d prec .single x y j)
  rw [Ideal.dotGeneral_apply]
  exact IsReal.sum _ _ fun k _ => IsReal.mul (hx _) (hy _)

/-- An entry of the accumulating scatter is the operand's entry plus the sum of the updates that land on it. -/
theorem allReal_scatterAdd {si u : Shape} {w : Nat} (d : ScatterDims s si u) {x : FVec Ideal s .f32} (idx : IVec si w)
    {upd : FVec Ideal u .f32} (hx : AllReal x) (hu : AllReal upd) : AllReal (Host.scatterAdd d x idx upd) := by
  intro i
  show IsReal (Ideal.hostScatterAdd d x idx upd i)
  unfold Ideal.hostScatterAdd
  exact IsReal.add (hx i) (IsReal.sum _ _ fun j _ => hu j)

/-- The same with "not negative" carried along: what a count is. -/
theorem nonneg_scatterAdd {si u : Shape} {w : Nat} (d : ScatterDims s si u) {x : FVec Ideal s .f32} (idx : IVec si w)
    {upd : FVec Ideal u .f32} (hx : ∀ i, IsNonneg (x i)) (hu : ∀ j, IsNonneg (upd j)) (i : s.Idx) :
    IsNonneg (Host.scatterAdd d x idx upd i) := by
  show IsNonneg (Ideal.hostScatterAdd d x idx upd i)
  unfold Ideal.hostScatterAdd
  exact (hx i).add (IsNonneg.sum _ _ fun j _ => hu j)

/-- The reciprocal square root of an array of positive reals. -/
theorem allReal_rsqrt {x : FVec Ideal s .f32} (hx : ∀ i, IsPos (x i)) : AllReal (Host.rsqrt x) :=
  fun i => (hx i).rsqrt

/-- Every entry of a broadcast constant is what the constant's word denotes. -/
theorem splat_apply {dims : Fin s.rank → Fin t.rank} (h : s.BroadcastsInDim t dims) (b : BitVec 32) (j : t.Idx) :
    broadcastInDim t dims h (constant (F := Ideal) s .f32 b) j = Ideal.ofBits .f32 b := rfl

/-- An array of reals none of which is negative, plus an array of ones, is an array of positive reals. -/
theorem pos_addf_ones {x y : FVec Ideal s .f32} (hx : ∀ i, IsNonneg (x i)) (hy : ∀ i, y i = 1) (i : s.Idx) :
    IsPos (addf x y i) := by
  show IsPos (x i + y i)
  rw [hy i]; exact (hx i).add_one_pos

end Closure

/-! ## The stages of the network -/

theorem allReal_xw256 {x : FVec Ideal S100000x256 .f32} {w : FVec Ideal S256x64 .f32} (hx : AllReal x) (hw : AllReal w) :
    AllReal (xw256 x w) :=
  allReal_dotGeneral _ _ hx hw

theorem allReal_xw64 {x : Nodes Ideal} {w : FVec Ideal S64x64 .f32} (hx : AllReal x) (hw : AllReal w) :
    AllReal (xw64 x w) :=
  allReal_dotGeneral _ _ hx hw

/-- The degree factor: the count of the edges into a node is zero plus a sum of ones, a real that is not negative;
    one more is positive, and there the reciprocal square root is a real. -/
theorem allReal_dinv (dst : Edges) : AllReal (dinv (F := Ideal) dst) := by
  unfold dinv
  exact allReal_rsqrt fun i => pos_addf_ones
    (nonneg_scatterAdd _ _
      (fun j => by rw [splat_apply, ofBits_zero]; exact isNonneg_zero)
      (fun j => by rw [splat_apply, ofBits_one]; exact isNonneg_one))
    (fun j => by rw [splat_apply, ofBits_one]) i

theorem allReal_take1 {x : FVec Ideal S100000 .f32} (v : Edges) (hx : AllReal x) : AllReal (take1 x v) :=
  allReal_gather _ _ hx

theorem allReal_norm (src dst : Edges) : AllReal (norm (F := Ideal) src dst) :=
  allReal_mulf (allReal_take1 _ (allReal_dinv dst)) (allReal_take1 _ (allReal_dinv dst))

/-- The neighbour term: zero plus, on each entry, the sum of the weighted source entries scattered onto it. -/
theorem allReal_agg {h : Nodes Ideal} (src dst : Edges) (hh : AllReal h) : AllReal (agg h src dst) :=
  allReal_scatterAdd _ _ (allReal_broadcastInDim _ allReal_zeros)
    (allReal_mulf (allReal_gather _ _ hh)
      (allReal_broadcastInDim _ (allReal_broadcastInDim _ (allReal_norm src dst))))

theorem allReal_dinv2 (dst : Edges) : AllReal (dinv2 (F := Ideal) dst) :=
  allReal_mulf (allReal_dinv dst) (allReal_dinv dst)

theorem allReal_selfBias {a h : Nodes Ideal} {d2 : FVec Ideal S100000 .f32} {b : FVec Ideal S64 .f32}
    (ha : AllReal a) (hh : AllReal h) (hd : AllReal d2) (hb : AllReal b) : AllReal (selfBias a h d2 b) :=
  allReal_addf
    (allReal_addf ha (allReal_mulf hh (allReal_broadcastInDim _ (allReal_broadcastInDim _ hd))))
    (allReal_broadcastInDim _ (allReal_broadcastInDim _ hb))

theorem allReal_relu {x : Nodes Ideal} (hx : AllReal x) : AllReal (relu x) :=
  allReal_maximumf hx (allReal_broadcastInDim _ allReal_zeros)

theorem allReal_conv {h : Nodes Ideal} (src dst : Edges) {b : FVec Ideal S64 .f32} (hh : AllReal h) (hb : AllReal b) :
    AllReal (conv h src dst b) :=
  allReal_selfBias (allReal_agg src dst hh) hh (allReal_dinv2 dst) hb

/-- Every entry of the network's output is a real number when every float input is. -/
theorem gcn_allReal (x : FVec Ideal Cert.ReferenceIdeal.S100000x256 .f32) (e : IVec Cert.ReferenceIdeal.S2x1600000 32)
    (w1 : FVec Ideal Cert.ReferenceIdeal.S256x64 .f32) (b1 : FVec Ideal Cert.ReferenceIdeal.S64 .f32)
    (w2 : FVec Ideal Cert.ReferenceIdeal.S64x64 .f32) (b2 : FVec Ideal Cert.ReferenceIdeal.S64 .f32)
    (hx : Cert.Spec.AllReal x) (hw1 : Cert.Spec.AllReal w1) (hb1 : Cert.Spec.AllReal b1) (hw2 : Cert.Spec.AllReal w2) (hb2 : Cert.Spec.AllReal b2) :
    Cert.Spec.AllReal (Cert.Spec.gcn (F := Ideal) x e w1 b1 w2 b2) :=
  allReal_conv _ _ (allReal_xw64 (allReal_relu (allReal_conv _ _ (allReal_xw256 hx hw1) hb1)) hw2) hb2

end Cert.Finite

end
-- ==== Proof.ZAlgebra.lean ====
/-
  The column-wise z-score, two ways, over exact extended-real arithmetic.  For an array whose entries are all
  real numbers, a column's sum S, mean mu = S / 100000 and unbiased variance V = (sum of (x - mu)^2) / 99999 are
  real numbers.  One form of the z-score divides the deviation x - mu by the square root of V; the other
  multiplies it by the reciprocal square root of (sum of x^2 - (100000 mu) mu) / 99999.  Expanding the square and
  using sum of x = 100000 mu shows the two variances are the same real V; where V is positive its square root is a
  positive real, a quotient by it is a product with its reciprocal, and the two forms agree entry by entry.  (At
  V = 0 they would not: 0 times the reciprocal square root of 0 is 0, while 0 / 0 is not.)  The guard in the
  first form's variance compares 100000 - 1 with 0 and is always taken, so that variance is the plain quotient
  by 99999.
-/
import proofs.«417470_j56255481643393_2_alg».proof.Proof.Spec
import Idealize.ShloMosaic.PureOps.Ideal.Laws
import Idealize.ShloMosaic.Lib.IdealHost
import Idealize.ShloMosaic.Lib.Pipeline.Value
import Mathlib.Data.EReal.Inv
import Mathlib.Algebra.BigOperators.Group.Finset.Basic
import Mathlib.Algebra.BigOperators.Ring.Finset
import Mathlib.Analysis.SpecialFunctions.Pow.Real
import Mathlib.Tactic.Ring
import Mathlib.Tactic.FieldSimp

noncomputable section

namespace Cert.ZAlgebra

open Idealize.ShloMosaic Idealize.ShloMosaic.ValueIdx Cert.ReferenceIdeal Cert.Spec
open scoped BigOperators

/-! ## The real-number facts -/

/-- A finite sum of reals, each read as an extended real, is the sum read as one. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of squared deviations from the mean is the sum of squares less the count times the mean squared. -/
theorem sum_sq_dev {ι : Type} (s : Finset ι) (f : ι → ℝ) (N : ℝ) (hN : (s.card : ℝ) = N) (hN0 : N ≠ 0) :
    ∑ i ∈ s, (f i - (∑ i ∈ s, f i) / N) * (f i - (∑ i ∈ s, f i) / N)
      = ∑ i ∈ s, f i * f i - (N * ((∑ i ∈ s, f i) / N)) * ((∑ i ∈ s, f i) / N) := by
  set S := ∑ i ∈ s, f i with hS
  have h1 : ∀ i ∈ s, (f i - S / N) * (f i - S / N) = f i * f i - (2 * (S / N)) * f i + (S / N) * (S / N) := by
    intro i _; ring
  rw [Finset.sum_congr rfl h1, Finset.sum_add_distrib, Finset.sum_sub_distrib, ← Finset.mul_sum, ← hS,
    Finset.sum_const, nsmul_eq_mul, hN]
  field_simp
  ring

/-- The quotient of two reals, the divisor not zero, is the real quotient. -/
theorem div_real (x y : ℝ) (hy : y ≠ 0) : Ideal.div (x : EReal) (y : EReal) = ((x / y : ℝ) : EReal) := by
  rw [Ideal.div_coe hy, ← EReal.coe_mul, mul_one_div]

/-! ## The constants -/

theorem c_zero : Ideal.ofBits .f32 0x00000000#32 = 0 := Ideal.ofBits_zero_f32

theorem c_n : Ideal.ofBits .f32 0x47C35000#32 = ((100000 : ℝ) : EReal) := by
  simp [Ideal.ofBits, Ideal.ieee, -EReal.coe_mul]; norm_num

theorem c_n1 : Ideal.ofBits .f32 0x47C34F80#32 = ((99999 : ℝ) : EReal) := by
  simp [Ideal.ofBits, Ideal.ieee, -EReal.coe_mul]; norm_num

/-! ## Reads of the re-indexings -/

theorem vecToRow_apply {α : Type} (hb : S64.BroadcastsInDim S1x64 (![1] : Fin 1 → Fin S1x64.rank))
    (v : S64.Idx → α) (z : Fin 1) (j : Fin 64) :
    broadcastInDim S1x64 ![1] hb v (ix2 z j) = v (ix1 j) :=
  broadcastInDim_apply _ hb v (ix2 z j) (ix1 j) fun a => by
    match a with
    | ⟨0, _⟩ => rfl

theorem rowToAll_apply {α : Type} (hb : S1x64.BroadcastsInDim S100000x64 (![0, 1] : Fin 2 → Fin S100000x64.rank))
    (v : S1x64.Idx → α) (r : Fin 100000) (j : Fin 64) :
    broadcastInDim S100000x64 ![0, 1] hb v (ix2 r j) = v (ix2 (0 : Fin 1) j) :=
  broadcastInDim_apply _ hb v (ix2 r j) (ix2 (0 : Fin 1) j) fun a => by
    match a with
    | ⟨0, _⟩ => rfl
    | ⟨1, _⟩ => rfl

/-- A column sum from zero, read at a column: the sum over the rows. -/
theorem colReduce_apply (x : Nodes Ideal) (hr : S100000x64.ReducesTo [0] S64) (hu : 0 < S_.numel) (j : Fin 64) :
    Host.reduceAdd x (constant S_ .f32 0x00000000#32) hr hu (ix1 j) = ∑ r : Fin 100000, x (ix2 r j) := by
  have hR : S100000x64.Reduces [0] S64 := by decide
  show Ideal.hostReduceAdd hr x (Ideal.ofBits .f32 0x00000000#32) (ix1 j) = _
  rw [Ideal.hostReduceAdd_single hr hR, Ideal.ofBits_zero_f32, zero_add]
  refine Finset.sum_congr rfl fun r _ => congrArg x ?_
  funext a
  match a with
  | ⟨0, _⟩ => rfl
  | ⟨1, _⟩ => rfl

/-! ## The divisor and the guard -/

theorem nMinus1_apply (i : S_.Idx) : nMinus1 (F := Ideal) i = ((99999 : ℝ) : EReal) := by
  show Ideal.ofBits .f32 0x47C35000#32 - (((1#32 : BitVec 32).toInt : ℝ) : EReal) = _
  have h1 : (1#32 : BitVec 32).toInt = 1 := by decide
  rw [c_n, h1, ← EReal.coe_sub]
  norm_num

theorem guard_apply (i : S_.Idx) :
    cmpf .ogt (nMinus1 (F := Ideal)) (constant S_ .f32 0x00000000#32) i = 1#1 := by
  show Ideal.cmp .ogt (nMinus1 (F := Ideal) i) (Ideal.ofBits .f32 0x00000000#32) = 1#1
  rw [nMinus1_apply, c_zero]
  have : (0 : EReal) < ((99999 : ℝ) : EReal) := by exact_mod_cast (by norm_num : (0 : ℝ) < 99999)
  simp [Ideal.cmp, this]

/-- The reference's guarded variance is the unguarded one over the literal divisor. -/
theorem colVar_eq_varP (h : Nodes Ideal) : colVar (F := Ideal) h = varP (F := Ideal) h := by
  funext j
  show Scalar.select (broadcastInDim S64 ![] _ (cmpf .ogt (nMinus1 (F := Ideal)) (constant S_ .f32 0x00000000#32)) j)
      (Ideal.div _ (broadcastInDim S64 ![] _ (nMinus1 (F := Ideal)) j)) _
    = Ideal.div _ (broadcastInDim S64 ![] _ (constant (F := Ideal) S_ .f32 0x47C34F80#32) j)
  rw [broadcastInDim_scalar_apply, broadcastInDim_scalar_apply, broadcastInDim_scalar_apply, guard_apply, nMinus1_apply,
    select_one]
  show _ = Ideal.div _ (Ideal.ofBits .f32 0x47C34F80#32)
  rw [c_n1]

/-! ## The stages at real entries

Throughout, `g` gives the entries of `h` as reals; a column's sum, mean and unbiased variance are then reals too. -/

/-- A column's sum. -/
def cS (g : S100000x64.Idx → ℝ) (j : Fin 64) : ℝ := ∑ r : Fin 100000, g (ix2 r j)
/-- A column's mean. -/
def cMu (g : S100000x64.Idx → ℝ) (j : Fin 64) : ℝ := cS g j / 100000
/-- A column's unbiased variance. -/
def cV (g : S100000x64.Idx → ℝ) (j : Fin 64) : ℝ :=
  (∑ r : Fin 100000, (g (ix2 r j) - cMu g j) * (g (ix2 r j) - cMu g j)) / 99999

theorem cV_nonneg (g : S100000x64.Idx → ℝ) (j : Fin 64) : 0 ≤ cV g j :=
  div_nonneg (Finset.sum_nonneg fun _ _ => mul_self_nonneg _) (by norm_num)

section Stages
variable (h : Nodes Ideal) (g : S100000x64.Idx → ℝ) (hg : ∀ i, h i = ((g i : ℝ) : EReal))
include hg

theorem colSum_real (j : Fin 64) : colSum (F := Ideal) h (ix1 j) = ((cS g j : ℝ) : EReal) := by
  rw [colSum, colReduce_apply, Finset.sum_congr rfl (fun r _ => hg (ix2 r j)), sum_coe]; rfl

theorem colMean_real (j : Fin 64) : colMean (F := Ideal) h (ix1 j) = ((cMu g j : ℝ) : EReal) := by
  show Ideal.div (colSum (F := Ideal) h (ix1 j))
    (broadcastInDim S64 ![] _ (constant (F := Ideal) S_ .f32 0x47C35000#32) (ix1 j)) = _
  rw [broadcastInDim_scalar_apply, colSum_real h g hg]
  show Ideal.div _ (Ideal.ofBits .f32 0x47C35000#32) = _
  rw [c_n, div_real _ _ (by norm_num)]; rfl

theorem centered_real (r : Fin 100000) (j : Fin 64) :
    centered (F := Ideal) h (ix2 r j) = ((g (ix2 r j) - cMu g j : ℝ) : EReal) := by
  show h (ix2 r j) - broadcastInDim S100000x64 ![0, 1] _
    (Host.divf (broadcastInDim S1x64 ![1] _ (colSum (F := Ideal) h))
      (broadcastInDim S1x64 ![] _ (constant (F := Ideal) S_ .f32 0x47C35000#32))) (ix2 r j) = _
  rw [rowToAll_apply]
  show h (ix2 r j) - Ideal.div (broadcastInDim S1x64 ![1] _ (colSum (F := Ideal) h) (ix2 (0 : Fin 1) j))
    (broadcastInDim S1x64 ![] _ (constant (F := Ideal) S_ .f32 0x47C35000#32) (ix2 (0 : Fin 1) j)) = _
  rw [vecToRow_apply, broadcastInDim_scalar_apply, colSum_real h g hg]
  show _ - Ideal.div _ (Ideal.ofBits .f32 0x47C35000#32) = _
  rw [c_n, div_real _ _ (by norm_num), hg, ← EReal.coe_sub]; rfl

theorem varP_real (j : Fin 64) : varP (F := Ideal) h (ix1 j) = ((cV g j : ℝ) : EReal) := by
  show Ideal.div (Host.reduceAdd (mulf (centered (F := Ideal) h) (centered h)) (constant S_ .f32 0x00000000#32) _ _ (ix1 j))
    (broadcastInDim S64 ![] _ (constant (F := Ideal) S_ .f32 0x47C34F80#32) (ix1 j)) = _
  rw [colReduce_apply, broadcastInDim_scalar_apply]
  have e : ∀ r : Fin 100000, mulf (centered (F := Ideal) h) (centered h) (ix2 r j)
      = (((g (ix2 r j) - cMu g j) * (g (ix2 r j) - cMu g j) : ℝ) : EReal) := by
    intro r
    show centered (F := Ideal) h (ix2 r j) * centered (F := Ideal) h (ix2 r j) = _
    rw [centered_real h g hg, ← EReal.coe_mul]
  rw [Finset.sum_congr rfl (fun r _ => e r), sum_coe]
  show Ideal.div _ (Ideal.ofBits .f32 0x47C34F80#32) = _
  rw [c_n1, div_real _ _ (by norm_num)]; rfl

theorem stdP_real (j : Fin 64) : stdP (F := Ideal) h (ix1 j) = ((Real.sqrt (cV g j) : ℝ) : EReal) := by
  show Ideal.sqrt (varP (F := Ideal) h (ix1 j)) = _
  rw [varP_real h g hg, Ideal.sqrt_coe, if_neg (not_lt.mpr (cV_nonneg g j))]

theorem zscore_real (r : Fin 100000) (j : Fin 64) (hV : 0 < cV g j) :
    zscore (F := Ideal) h (ix2 r j) = (((g (ix2 r j) - cMu g j) / Real.sqrt (cV g j) : ℝ) : EReal) := by
  show Ideal.div
    (h (ix2 r j) - broadcastInDim S100000x64 ![0, 1] _ (broadcastInDim S1x64 ![1] _ (colMean (F := Ideal) h)) (ix2 r j))
    (broadcastInDim S100000x64 ![0, 1] _ (broadcastInDim S1x64 ![1] _ (colStd (F := Ideal) h)) (ix2 r j)) = _
  rw [rowToAll_apply, rowToAll_apply, vecToRow_apply, vecToRow_apply, colMean_real h g hg]
  show Ideal.div _ (Ideal.sqrt (colVar (F := Ideal) h (ix1 j))) = _
  rw [colVar_eq_varP, varP_real h g hg, Ideal.sqrt_coe, if_neg (not_lt.mpr (cV_nonneg g j)), hg, ← EReal.coe_sub,
    div_real _ _ (Real.sqrt_pos.mpr hV).ne']

theorem meanK_real (j : Fin 64) :
    meanK (F := Ideal) (sumRow h) (ix2 (0 : Fin 1) j) = ((cMu g j : ℝ) : EReal) := by
  show Ideal.div (broadcastInDim S1x64 ![1] _ (colSum (F := Ideal) h) (ix2 (0 : Fin 1) j))
    (broadcastInDim S1x64 ![] _ (constant (F := Ideal) S_ .f32 0x47C35000#32) (ix2 (0 : Fin 1) j)) = _
  rw [vecToRow_apply, broadcastInDim_scalar_apply, colSum_real h g hg]
  show Ideal.div _ (Ideal.ofBits .f32 0x47C35000#32) = _
  rw [c_n, div_real _ _ (by norm_num)]; rfl

theorem sqRow_real (j : Fin 64) :
    sqRow (F := Ideal) h (ix2 (0 : Fin 1) j) = ((∑ r : Fin 100000, g (ix2 r j) * g (ix2 r j) : ℝ) : EReal) := by
  rw [sqRow, vecToRow_apply, colReduce_apply]
  have e : ∀ r : Fin 100000, mulf h h (ix2 r j) = ((g (ix2 r j) * g (ix2 r j) : ℝ) : EReal) := by
    intro r
    show h (ix2 r j) * h (ix2 r j) = _
    rw [hg, ← EReal.coe_mul]
  rw [Finset.sum_congr rfl (fun r _ => e r), sum_coe]

theorem invStdK_real (j : Fin 64) (hV : 0 < cV g j) :
    invStdK (F := Ideal) (sumRow h) (sqRow h) (ix2 (0 : Fin 1) j) = (((Real.sqrt (cV g j))⁻¹ : ℝ) : EReal) := by
  show Ideal.rsqrt (Ideal.div
      (sqRow (F := Ideal) h (ix2 (0 : Fin 1) j)
        - (broadcastInDim S1x64 ![] _ (constant (F := Ideal) S_ .f32 0x47C35000#32) (ix2 (0 : Fin 1) j)
            * meanK (F := Ideal) (sumRow h) (ix2 (0 : Fin 1) j))
          * meanK (F := Ideal) (sumRow h) (ix2 (0 : Fin 1) j))
      (broadcastInDim S1x64 ![] _ (constant (F := Ideal) S_ .f32 0x47C34F80#32) (ix2 (0 : Fin 1) j))) = _
  rw [broadcastInDim_scalar_apply, broadcastInDim_scalar_apply, sqRow_real h g hg, meanK_real h g hg]
  show Ideal.rsqrt (Ideal.div (_ - (Ideal.ofBits .f32 0x47C35000#32 * _) * _) (Ideal.ofBits .f32 0x47C34F80#32)) = _
  rw [c_n, c_n1, ← EReal.coe_mul, ← EReal.coe_mul, ← EReal.coe_sub, div_real _ _ (by norm_num)]
  have e : (∑ r : Fin 100000, g (ix2 r j) * g (ix2 r j) - 100000 * cMu g j * cMu g j) / 99999 = cV g j := by
    unfold cV cMu cS
    rw [sum_sq_dev Finset.univ (fun r : Fin 100000 => g (ix2 r j)) 100000 (by simp) (by norm_num)]
  rw [e, Ideal.rsqrt_coe, if_neg (not_lt.mpr hV.le), if_neg hV.ne']

theorem zscoreK_real (r : Fin 100000) (j : Fin 64) (hV : 0 < cV g j) :
    zscoreK (F := Ideal) h (ix2 r j) = (((g (ix2 r j) - cMu g j) / Real.sqrt (cV g j) : ℝ) : EReal) := by
  show (h (ix2 r j) - broadcastInDim S100000x64 ![0, 1] _ (meanK (F := Ideal) (sumRow h)) (ix2 r j))
    * broadcastInDim S100000x64 ![0, 1] _ (invStdK (F := Ideal) (sumRow h) (sqRow h)) (ix2 r j) = _
  rw [rowToAll_apply, rowToAll_apply, meanK_real h g hg, invStdK_real h g hg j hV, hg, ← EReal.coe_sub, ← EReal.coe_mul,
    div_eq_mul_inv]

end Stages

/-! ## The two z-scores agree -/

theorem zscoreK_eq_zscore (h : Cert.Spec.Nodes Ideal) (hreal : Cert.Spec.AllReal h)
    (hpos : ∀ j, (0 : EReal) < Cert.Spec.stdP (F := Ideal) h j) :
    Cert.Spec.zscoreK (F := Ideal) h = Cert.Spec.zscore (F := Ideal) h := by
  choose g hg using hreal
  funext i
  obtain ⟨r, j, rfl⟩ : ∃ (r : Fin 100000) (j : Fin 64), i = ix2 r j := ⟨i 0, i 1, eq_ix2 i⟩
  have hV : 0 < cV g j := by
    have hp := hpos (ix1 j)
    rw [stdP_real h g hg] at hp
    exact Real.sqrt_pos.mp (EReal.coe_pos.mp hp)
  rw [zscoreK_real h g hg r j hV, zscore_real h g hg r j hV]

end Cert.ZAlgebra

end
-- ==== Proof.KHost.lean ====
/-
  What each stretch of host operations between two kernel calls leaves in the buffers the next call reads, as a function
  of the buffers it found: the edge table's two rows, the neighbour term of a convolution (degree counts, their reciprocal
  square roots, the edge weights, the weighted rows scattered onto their targets), the self-loop weights and the bias in the
  shapes the finalize call takes them, and the mean and reciprocal standard deviation rows of the z-score.  Each is the
  stretch's operations composed, which is the shared vocabulary's function by definition.
-/
import proofs.«417470_j56255481643393_2_alg».proof.Proof.Gen.KernelIdeal.Frame
import proofs.«417470_j56255481643393_2_alg».proof.Proof.Spec
import Idealize.ShloMosaic.Lib.StableHlo.Run

noncomputable section

namespace Cert.KernelIdeal.Val

open Idealize.ShloMosaic Idealize.ShloMosaic.TcCoe Idealize.SL.Sem Idealize.ShloMosaic.StableHlo
open Cert.KernelIdeal Cert.KernelIdeal.Gen
open Idealize.ShloMosaic.Pipeline (Dat)

variable (W : Valuation τ sig (Elt Ideal))

/-- The edges' sources are row 0 of the edge table, read as a vector. -/
theorem host0_src : StableHlo.after (hostOps0 (F := Ideal)) W (Proc.devRef .tc main_v1) = Cert.Spec.srcOf (W (Proc.devRef .tc main_arg1)) := by
  after_results_simp
  rfl
/-- The edges' targets are row 1 of the edge table, read as a vector. -/
theorem host0_dst : StableHlo.after (hostOps0 (F := Ideal)) W (Proc.devRef .tc main_v3) = Cert.Spec.dstOf (W (Proc.devRef .tc main_arg1)) := by
  after_results_simp
  rfl
/-- The edges' sources are row 0 of the edge table, read as a vector. -/
theorem host4_src : StableHlo.after (hostOps4 (F := Ideal)) W (Proc.devRef .tc main_v85) = Cert.Spec.srcOf (W (Proc.devRef .tc main_arg3)) := by
  after_results_simp
  rfl
/-- The edges' targets are row 1 of the edge table, read as a vector. -/
theorem host4_dst : StableHlo.after (hostOps4 (F := Ideal)) W (Proc.devRef .tc main_v87) = Cert.Spec.dstOf (W (Proc.devRef .tc main_arg3)) := by
  after_results_simp
  rfl
/-- The neighbour term the stretch leaves: each edge's source row of the projected features, times the edge weight, added onto the edge's target row. -/
theorem host1_agg : StableHlo.after (hostOps1 (F := Ideal)) W (Proc.devRef .tc main_v39) = Cert.Spec.agg (F := Ideal) (W (Proc.devRef .tc main_v4)) (W (Proc.devRef .tc main_v1)) (W (Proc.devRef .tc main_v3)) := by
  after_results_simp
  rfl
/-- The self-loop weights the stretch leaves, as a column: the squared degree factor of each node. -/
theorem host1_col : StableHlo.after (hostOps1 (F := Ideal)) W (Proc.devRef .tc main_v41) = shapeCast Cert.ReferenceIdeal.S100000x1 (Cert.Spec.dinv2 (F := Ideal) (W (Proc.devRef .tc main_v3))) (by decide) := by
  after_results_simp
  rfl
/-- The bias as a row. -/
theorem host1_row : StableHlo.after (hostOps1 (F := Ideal)) W (Proc.devRef .tc main_v42) = shapeCast Cert.ReferenceIdeal.S1x64 (W (Proc.devRef .tc main_arg5)) (by decide) := by
  after_results_simp
  rfl
/-- The neighbour term the stretch leaves: each edge's source row of the projected features, times the edge weight, added onto the edge's target row. -/
theorem host3_agg : StableHlo.after (hostOps3 (F := Ideal)) W (Proc.devRef .tc main_v79) = Cert.Spec.agg (F := Ideal) (W (Proc.devRef .tc main_v44)) (W (Proc.devRef .tc main_v1)) (W (Proc.devRef .tc main_v3)) := by
  after_results_simp
  rfl
/-- The self-loop weights the stretch leaves, as a column: the squared degree factor of each node. -/
theorem host3_col : StableHlo.after (hostOps3 (F := Ideal)) W (Proc.devRef .tc main_v81) = shapeCast Cert.ReferenceIdeal.S100000x1 (Cert.Spec.dinv2 (F := Ideal) (W (Proc.devRef .tc main_v3))) (by decide) := by
  after_results_simp
  rfl
/-- The bias as a row. -/
theorem host3_row : StableHlo.after (hostOps3 (F := Ideal)) W (Proc.devRef .tc main_v82) = shapeCast Cert.ReferenceIdeal.S1x64 (W (Proc.devRef .tc main_arg7)) (by decide) := by
  after_results_simp
  rfl
/-- The neighbour term the stretch leaves: each edge's source row of the projected features, times the edge weight, added onto the edge's target row. -/
theorem host5_agg : StableHlo.after (hostOps5 (F := Ideal)) W (Proc.devRef .tc main_v123) = Cert.Spec.agg (F := Ideal) (W (Proc.devRef .tc main_v88)) (W (Proc.devRef .tc main_v85)) (W (Proc.devRef .tc main_v87)) := by
  after_results_simp
  rfl
/-- The self-loop weights the stretch leaves, as a column: the squared degree factor of each node. -/
theorem host5_col : StableHlo.after (hostOps5 (F := Ideal)) W (Proc.devRef .tc main_v125) = shapeCast Cert.ReferenceIdeal.S100000x1 (Cert.Spec.dinv2 (F := Ideal) (W (Proc.devRef .tc main_v87))) (by decide) := by
  after_results_simp
  rfl
/-- The bias as a row. -/
theorem host5_row : StableHlo.after (hostOps5 (F := Ideal)) W (Proc.devRef .tc main_v126) = shapeCast Cert.ReferenceIdeal.S1x64 (W (Proc.devRef .tc main_arg5)) (by decide) := by
  after_results_simp
  rfl
/-- The neighbour term the stretch leaves: each edge's source row of the projected features, times the edge weight, added onto the edge's target row. -/
theorem host7_agg : StableHlo.after (hostOps7 (F := Ideal)) W (Proc.devRef .tc main_v163) = Cert.Spec.agg (F := Ideal) (W (Proc.devRef .tc main_v128)) (W (Proc.devRef .tc main_v85)) (W (Proc.devRef .tc main_v87)) := by
  after_results_simp
  rfl
/-- The self-loop weights the stretch leaves, as a column: the squared degree factor of each node. -/
theorem host7_col : StableHlo.after (hostOps7 (F := Ideal)) W (Proc.devRef .tc main_v165) = shapeCast Cert.ReferenceIdeal.S100000x1 (Cert.Spec.dinv2 (F := Ideal) (W (Proc.devRef .tc main_v87))) (by decide) := by
  after_results_simp
  rfl
/-- The bias as a row. -/
theorem host7_row : StableHlo.after (hostOps7 (F := Ideal)) W (Proc.devRef .tc main_v166) = shapeCast Cert.ReferenceIdeal.S1x64 (W (Proc.devRef .tc main_arg7)) (by decide) := by
  after_results_simp
  rfl
/-- The column means as a row: the sums over 100000. -/
theorem host9_mean : StableHlo.after (hostOps9 (F := Ideal)) W (Proc.devRef .tc main_v170) = Cert.Spec.meanK (F := Ideal) (W (Proc.devRef .tc main_v168_0)) := by
  after_results_simp
  rfl
/-- The reciprocal standard deviations as a row, from the sums and the sums of squares. -/
theorem host9_invstd : StableHlo.after (hostOps9 (F := Ideal)) W (Proc.devRef .tc main_v177) = Cert.Spec.invStdK (F := Ideal) (W (Proc.devRef .tc main_v168_0)) (W (Proc.devRef .tc main_v168_1)) := by
  after_results_simp
  rfl
/-- The column means as a row: the sums over 100000. -/
theorem host11_mean : StableHlo.after (hostOps11 (F := Ideal)) W (Proc.devRef .tc main_v181) = Cert.Spec.meanK (F := Ideal) (W (Proc.devRef .tc main_v179_0)) := by
  after_results_simp
  rfl
/-- The reciprocal standard deviations as a row, from the sums and the sums of squares. -/
theorem host11_invstd : StableHlo.after (hostOps11 (F := Ideal)) W (Proc.devRef .tc main_v188) = Cert.Spec.invStdK (F := Ideal) (W (Proc.devRef .tc main_v179_0)) (W (Proc.devRef .tc main_v179_1)) := by
  after_results_simp
  rfl

end Cert.KernelIdeal.Val

end
-- ==== Proof.KMatmul.lean ====
/-
  The four matrix-product calls (each view's first and second layer) as whole-array products.

  Each call walks a grid of ten points.  Point t reads rows 10000 t … 10000 t + 9999 of the left operand
  ([100000, 256] in the first layer, [100000, 64] in the second), the whole weight matrix, and writes the same
  rows of the [100000, 64] result.  The body shortens both operands to the 16-bit format, which on the extended
  reals changes nothing, and multiplies them into a zero accumulator: entry (p, q) of the block it stores is
  the sum over k of x (p, k) * W (k, q).  The host's product of the whole arrays at entry (10000 t + p, q) is
  the sum over k of x (10000 t + p, k) * W (k, q), and row p of the block read at point t IS row 10000 t + p of
  the array, so every point writes back its block of the whole product.  Row r of the result lies in the block
  of point r / 10000, so the ten blocks cover the result array, and after the last point it is the whole product.
-/
import proofs.«417470_j56255481643393_2_alg».proof.Proof.Gen.KernelIdeal.Frame
import proofs.«417470_j56255481643393_2_alg».proof.Proof.Spec
import Idealize.ShloMosaic.Lib.StableHlo.Run
import Idealize.ShloMosaic.Lib.StackMember

noncomputable section

namespace Cert.KernelIdeal.Val

open Idealize.ShloMosaic Idealize.ShloMosaic.TcCoe Idealize.SL.Sem Idealize.ShloMosaic.StableHlo
open Cert.KernelIdeal Cert.KernelIdeal.Gen
open Idealize.ShloMosaic.Pipeline (Dat)
open Idealize.ShloMosaic.ValueIdx Idealize.ShloMosaic.StackMember

variable (V : (c : Dev nD) → (b : Ref sig .tc) → Buf (Elt Ideal) ((c : Thread nD τ).loc b)) (c : Dev nD)

/-- The zero offsets of a whole-block access. -/
theorem zeroOff : (![0, 0] : Fin 2 → Nat) = fun _ => 0 := funext fun a => by fin_cases a <;> rfl

/-! ## The two products at an entry

Entry (r, q) of x W is the sum over the contracted coordinate k of x (r, k) * W (k, q): on the host side by the
product's reading at an index, on the kernel side because the two casts to the short format change nothing on the
extended reals and the accumulator the product is added to is zero. -/

/-- The first layer's product at an entry. -/
theorem xw256_apply (x : Vec Ideal S100000x256 .f32) (w : Vec Ideal S256x64 .f32) (r : Fin 100000) (q : Fin 64) :
    Cert.Spec.xw256 (F := Ideal) x w (ix2 r q) = ∑ k : Fin 256, x (ix2 r k) * w (ix2 k q) :=
  dotGeneral_plain_apply (m := 100000) (n := 64) (k := 256) none x w r q

/-- The second layer's product at an entry. -/
theorem xw64_apply (x : Vec Ideal S100000x64 .f32) (w : Vec Ideal S64x64 .f32) (r : Fin 100000) (q : Fin 64) :
    Cert.Spec.xw64 (F := Ideal) x w (ix2 r q) = ∑ k : Fin 64, x (ix2 r k) * w (ix2 k q) :=
  dotGeneral_plain_apply (m := 100000) (n := 64) (k := 64) none x w r q

/-- The block product of a call with 256 input columns, at an entry of the block. -/
theorem pay256_apply (x0 : Vec Ideal S10000x256 .f32) (x1 : Vec Ideal S256x64 .f32) (p : Fin 10000) (q : Fin 64) :
    k0_pay1 (F := Ideal) x0 x1 (ix2 p q) = ∑ k : Fin 256, x0 (ix2 p k) * x1 (ix2 k q) := by
  unfold k0_pay1
  show matmul (F := Ideal) (DotDims.plain 10000 256 64) none
    (truncf (F := Ideal) .bf16 (x0 : FVec Ideal S10000x256 .f32) bitsLt_bf16_f32)
    (truncf (F := Ideal) .bf16 (x1 : FVec Ideal S256x64 .f32) bitsLt_bf16_f32) (constant _ .f32 0x00000000#32) (ix2 p q) = _
  rw [matmul_zero_eq_dotGeneral]
  exact dotGeneral_plain_apply (m := 10000) (n := 64) (k := 256) none _ _ p q

/-- The block product of a call with 64 input columns, at an entry of the block (the reshape in front of it is to
    the same shape). -/
theorem pay64_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  show matmul (F := Ideal) (DotDims.plain 10000 64 64) none
    (truncf (F := Ideal) .bf16 (shapeCast S10000x64 (x0 : FVec Ideal S10000x64 .f32) shapeCasts_S10000x64_S10000x64) bitsLt_bf16_f32)
    (truncf (F := Ideal) .bf16 (x1 : FVec Ideal S64x64 .f32) bitsLt_bf16_f32) (constant _ .f32 0x00000000#32) (ix2 p q) = _
  rw [matmul_zero_eq_dotGeneral, shapeCast_self]
  exact dotGeneral_plain_apply (m := 10000) (n := 64) (k := 64) none _ _ p q

/-- The two views' calls of one layer run the same body. -/
theorem pay4_eq (x0 : Vec Ideal S10000x256 .f32) (x1 : Vec Ideal S256x64 .f32) : k4_pay1 (F := Ideal) x0 x1 = k0_pay1 (F := Ideal) x0 x1 := rfl
theorem pay6_eq (x0 : Vec Ideal S10000x64 .f32) (x1 : Vec Ideal S64x64 .f32) : k6_pay1 (F := Ideal) x0 x1 = k2_pay1 (F := Ideal) x0 x1 := rfl

/-! ## A block of the product is the product of a block of rows

If the left block's row p is row 10000 t + p of the left array and the right operand is whole, entry (p, q) of the
block product is entry (10000 t + p, q) of the array product: both are the same sum over k. -/

theorem block256 (A : Vec Ideal S100000x256 .f32) (W : Vec Ideal S256x64 .f32)
    (x0 : Vec Ideal S10000x256 .f32) (x1 : Vec Ideal S256x64 .f32) (tv : Nat)
    (h0 : ∀ (y : S10000x256.Idx) (i : S100000x256.Idx), (i 0).val = 10000 * tv + (y 0).val → (i 1).val = (y 1).val → x0 y = A i)
    (h1 : ∀ y : S256x64.Idx, x1 y = W y)
    (j : S10000x64.Idx) (i : S100000x64.Idx) (hi0 : (i 0).val = 10000 * tv + (j 0).val) (hi1 : (i 1).val = (j 1).val) :
    k0_pay1 (F := Ideal) x0 x1 j = Cert.Spec.xw256 (F := Ideal) A W i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  rw [pay256_apply, xw256_apply]
  refine Finset.sum_congr rfl fun k _ => ?_
  rw [h0 (ix2 p k) (ix2 r k) hi0 rfl, h1]

theorem block64 (A : Vec Ideal S100000x64 .f32) (W : Vec Ideal S64x64 .f32)
    (x0 : Vec Ideal S10000x64 .f32) (x1 : Vec Ideal S64x64 .f32) (tv : Nat)
    (h0 : ∀ (y : S10000x64.Idx) (i : S100000x64.Idx), (i 0).val = 10000 * tv + (y 0).val → (i 1).val = (y 1).val → x0 y = A i)
    (h1 : ∀ y : S64x64.Idx, x1 y = W y)
    (j : S10000x64.Idx) (i : S100000x64.Idx) (hi0 : (i 0).val = 10000 * tv + (j 0).val) (hi1 : (i 1).val = (j 1).val) :
    k2_pay1 (F := Ideal) x0 x1 j = Cert.Spec.xw64 (F := Ideal) A W i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  rw [pay64_apply, xw64_apply]
  refine Finset.sum_congr rfl fun k _ => ?_
  rw [h0 (ix2 p k) (ix2 r k) hi0 rfl, h1]

/-! ## Call 0: main_arg0 times main_arg4 -/

/-- The index maps over the grid: point t takes block t of the rows of the left operand and of the result, and the
    right operand's only block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point t holds rows 10000 t … 10000 t + 9999 of the left array. -/
theorem iblk0_0_apply (t : Fin cfg0.N) (y : S10000x256.Idx) (i : S100000x256.Idx)
    (h0 : (i 0).val = 10000 * t.val + (y 0).val) (h1 : (i 1).val = (y 1).val) :
    (iblk0 V c 0 t : Vec Ideal S10000x256 .f32) y = (V c main_arg0 : S100000x256.Idx → Elt Ideal .f32) i := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 256 + 1 * (y 1).val = (i 1).val; rw [e1, h1]; omega

/-- The right block at every point is the whole right array. -/
theorem iblk0_1_apply (t : Fin cfg0.N) (y : S256x64.Idx) :
    (iblk0 V c 1 t : Vec Ideal S256x64 .f32) y = (V c main_arg4 : S256x64.Idx → Elt Ideal .f32) y := by
  obtain ⟨-, -, e0, e1, -⟩ := idx0 t
  unfold iblk0
  rw [View.read_apply]
  show V c main_arg4 _ = V c main_arg4 _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 64 + 1 * (y 1).val = (y 1).val; rw [e1]; omega

/-- What point t writes back is block t of the whole product. -/
theorem flushed0_eq (t : Fin cfg0.N) :
    (dat0 (F := Ideal) V c).flushed 2 t
      = ((cfg0.win 2).blk t).view.read (Elt Ideal) (Cert.Spec.xw256 (F := Ideal) (V c main_arg0) (V c main_arg4)) := by
  show (cfg0.win 2).cut (grid0.coords t) ((dat0 (F := Ideal) V c).after 2 t) = _
  rw [after0_2]
  unfold out0_2
  rw [View.canon_unit_zero zeroOff]
  simp only [View.ld_unit_zero (S := S10000x256) zeroOff, View.ld_unit_zero (S := S256x64) zeroOff]
  obtain ⟨-, -, -, -, e0, e1⟩ := idx0 t
  funext j
  refine block256 (V c main_arg0) (V c main_arg4) (iblk0 V c 0 t) (iblk0 V c 1 t) t.val
    (fun y i h0 h1 => iblk0_0_apply V c t y i h0 h1) (fun y => iblk0_1_apply V c t y) j (((cfg0.win 2).blk t).view.emb j) ?_ ?_
  · show win0_2.index t (0 : Fin 2) * 10000 + 1 * (j 0).val = _; rw [e0]; omega
  · show win0_2.index t (1 : Fin 2) * 64 + 1 * (j 1).val = _; rw [e1]; omega

/-- An entry of the result array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Row r of the result lies in the block of point r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e0, e1⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e0]
    show (i 0).val / 10000 * 10000 ≤ (i 0).val ∧ (i 0).val < (i 0).val / 10000 * 10000 + 10000
    omega
  | ⟨1, _⟩ =>
    show win0_2.index t (1 : Fin 2) * 64 ≤ (i 1).val ∧ (i 1).val < win0_2.index t (1 : Fin 2) * 64 + 64
    rw [e1]; omega

theorem arr0 : (dat0 (F := Ideal) V c).arrAt 2 cfg0.N = Cert.Spec.xw256 (F := Ideal) (V c main_arg0) (V c main_arg4) :=
  (dat0 (F := Ideal) V c).arrAt_eq_of_cover 2 (Cert.Spec.xw256 (F := Ideal) (V c main_arg0) (V c main_arg4))
    (fun t _ => flushed0_eq V c t) cover0

/-! ## Call 2: main_v43 times main_arg6 -/

/-- The index maps over the grid: point t takes block t of the rows of the left operand and of the result, and the
    right operand's only block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block at point t holds rows 10000 t … 10000 t + 9999 of the left array. -/
theorem iblk2_0_apply (t : Fin cfg2.N) (y : S10000x64.Idx) (i : S100000x64.Idx)
    (h0 : (i 0).val = 10000 * t.val + (y 0).val) (h1 : (i 1).val = (y 1).val) :
    (iblk2 V c 0 t : Vec Ideal S10000x64 .f32) y = (V c main_v43 : S100000x64.Idx → Elt Ideal .f32) i := by
  obtain ⟨e0, e1, -⟩ := idx2 t
  unfold iblk2
  rw [View.read_apply]
  show V c main_v43 _ = V c main_v43 _
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 64 + 1 * (y 1).val = (i 1).val; rw [e1, h1]; omega

/-- The right block at every point is the whole right array. -/
theorem iblk2_1_apply (t : Fin cfg2.N) (y : S64x64.Idx) :
    (iblk2 V c 1 t : Vec Ideal S64x64 .f32) y = (V c main_arg6 : S64x64.Idx → Elt Ideal .f32) y := by
  obtain ⟨-, -, e0, e1, -⟩ := idx2 t
  unfold iblk2
  rw [View.read_apply]
  show V c main_arg6 _ = V c main_arg6 _
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 64 + 1 * (y 1).val = (y 1).val; rw [e1]; omega

/-- What point t writes back is block t of the whole product. -/
theorem flushed2_eq (t : Fin cfg2.N) :
    (dat2 (F := Ideal) V c).flushed 2 t
      = ((cfg2.win 2).blk t).view.read (Elt Ideal) (Cert.Spec.xw64 (F := Ideal) (V c main_v43) (V c main_arg6)) := by
  show (cfg2.win 2).cut (grid2.coords t) ((dat2 (F := Ideal) V c).after 2 t) = _
  rw [after2_2]
  unfold out2_2
  rw [View.canon_unit_zero zeroOff]
  simp only [View.ld_unit_zero (S := S10000x64) zeroOff, View.ld_unit_zero (S := S64x64) zeroOff]
  obtain ⟨-, -, -, -, e0, e1⟩ := idx2 t
  funext j
  refine block64 (V c main_v43) (V c main_arg6) (iblk2 V c 0 t) (iblk2 V c 1 t) t.val
    (fun y i h0 h1 => iblk2_0_apply V c t y i h0 h1) (fun y => iblk2_1_apply V c t y) j (((cfg2.win 2).blk t).view.emb j) ?_ ?_
  · show win2_2.index t (0 : Fin 2) * 10000 + 1 * (j 0).val = _; rw [e0]; omega
  · show win2_2.index t (1 : Fin 2) * 64 + 1 * (j 1).val = _; rw [e1]; omega

/-- An entry of the result array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Row r of the result lies in the block of point r / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, e0, e1⟩ := idx2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    rw [e0]
    show (i 0).val / 10000 * 10000 ≤ (i 0).val ∧ (i 0).val < (i 0).val / 10000 * 10000 + 10000
    omega
  | ⟨1, _⟩ =>
    show win2_2.index t (1 : Fin 2) * 64 ≤ (i 1).val ∧ (i 1).val < win2_2.index t (1 : Fin 2) * 64 + 64
    rw [e1]; omega

theorem arr2 : (dat2 (F := Ideal) V c).arrAt 2 cfg2.N = Cert.Spec.xw64 (F := Ideal) (V c main_v43) (V c main_arg6) :=
  (dat2 (F := Ideal) V c).arrAt_eq_of_cover 2 (Cert.Spec.xw64 (F := Ideal) (V c main_v43) (V c main_arg6))
    (fun t _ => flushed2_eq V c t) cover2

/-! ## Call 4: main_arg2 times main_arg4 -/

/-- The index maps over the grid: point t takes block t of the rows of the left operand and of the result, and the
    right operand's only block. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left block at point t holds rows 10000 t … 10000 t + 9999 of the left array. -/
theorem iblk4_0_apply (t : Fin cfg4.N) (y : S10000x256.Idx) (i : S100000x256.Idx)
    (h0 : (i 0).val = 10000 * t.val + (y 0).val) (h1 : (i 1).val = (y 1).val) :
    (iblk4 V c 0 t : Vec Ideal S10000x256 .f32) y = (V c main_arg2 : S100000x256.Idx → Elt Ideal .f32) i := by
  obtain ⟨e0, e1, -⟩ := idx4 t
  unfold iblk4
  rw [View.read_apply]
  show V c main_arg2 _ = V c main_arg2 _
  congr 1
  funext a
  apply Fin.ext
  match a with
  | ⟨0, _⟩ => show win4_0.index t (0 : Fin 2) * 10000 + 1 * (y 0).val = (i 0).val; rw [e0, h0]; omega
  | ⟨1, _⟩ => show win4_0.index t (1 : Fin 2) * 256 + 1 * (y 1).val = (i 1).val; rw [e1, h1]; omega

/-- The right block at every point is the whole right array. -/
theorem iblk4_1_apply (t : Fin cfg4.N) (y : S256x64.Idx) :
    (iblk4 V c 1 t : Vec Ideal S256x64 .f32) y = (V c main_arg4 : S256x64.Idx → Elt Ideal .f32) y := by
  obtain ⟨-, -, e0, e1, -⟩ := idx4 t
  unfold iblk4
  rw [View.read_apply]
  show V c main_arg4 _ = V c main_arg4 _
  congr 1
  funext a
  apply Fin.ext
  match a with
  | ⟨0, _⟩ => show win4_1.index t (0 : Fin 2) * 256 + 1 * (y 0).val = (y 0).val; rw [e0]; omega
  | ⟨1, _⟩ => show win4_1.index t (1 : Fin 2) * 64 + 1 * (y 1).val = (y 1).val; rw [e1]; omega

/-- What point t writes back is block t of the whole product. -/
theorem flushed4_eq (t : Fin cfg4.N) :
    (dat4 (F := Ideal) V c).flushed 2 t
      = ((cfg4.win 2).blk t).view.read (Elt Ideal) (Cert.Spec.xw256 (F := Ideal) (V c main_arg2) (V c main_arg4)) := by
  show (cfg4.win 2).cut (grid4.coords t) ((dat4 (F := Ideal) V c).after 2 t) = _
  rw [after4_2]
  unfold out4_2
  rw [View.canon_unit_zero zeroOff]
  simp only [View.ld_unit_zero (S := S10000x256) zeroOff, View.ld_unit_zero (S := S256x64) zeroOff]
  rw [pay4_eq]
  obtain ⟨-, -, -, -, e0, e1⟩ := idx4 t
  funext j
  refine block256 (V c main_arg2) (V c main_arg4) (iblk4 V c 0 t) (iblk4 V c 1 t) t.val
    (fun y i h0 h1 => iblk4_0_apply V c t y i h0 h1) (fun y => iblk4_1_apply V c t y) j (((cfg4.win 2).blk t).view.emb j) ?_ ?_
  · show win4_2.index t (0 : Fin 2) * 10000 + 1 * (j 0).val = _; rw [e0]; omega
  · show win4_2.index t (1 : Fin 2) * 64 + 1 * (j 1).val = _; rw [e1]; omega

/-- An entry of the result array is in point t's block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v88).slice (win4_2.rect t)).set ↔ _
  rw [View.set_slice_whole, Rect.mem_set_unit]
  exact Iff.rfl

/-- Row r of the result lies in the block of point r / 10000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  let t : Fin cfg4.N := ⟨(i 0).val / 10000, by rw [hN]; omega⟩
  obtain ⟨-, -, -, -, e0, e1⟩ := idx4 t
  refine ⟨t, flush4_2 t, ?_⟩
  rw [mem_blk4]
  intro a
  match a with
  | ⟨0, _⟩ =>
    show win4_2.index t (0 : Fin 2) * 10000 ≤ (i 0).val ∧ (i 0).val < win4_2.index t (0 : Fin 2) * 10000 + 10000
    rw [e0]
    show (i 0).val / 10000 * 10000 ≤ (i 0).val ∧ (i 0).val < (i 0).val / 10000 * 10000 + 10000
    omega
  | ⟨1, _⟩ =>
    show win4_2.index t (1 : Fin 2) * 64 ≤ (i 1).val ∧ (i 1).val < win4_2.index t (1 : Fin 2) * 64 + 64
    rw [e1]; omega

theorem arr4 : (dat4 (F := Ideal) V c).arrAt 2 cfg4.N = Cert.Spec.xw256 (F := Ideal) (V c main_arg2) (V c main_arg4) :=
  (dat4 (F := Ideal) V c).arrAt_eq_of_cover 2 (Cert.Spec.xw256 (F := Ideal) (V c main_arg2) (V c main_arg4))
    (fun t _ => flushed4_eq V c t) cover4

/-! ## Call 6: main_v127 times main_arg6 -/

/-- The index maps over the grid: point t takes block t of the rows of the left operand and of the result, and the
    right operand's only block. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The left block at point t holds rows 10000 t … 10000 t + 9999 of the left array. -/
theorem iblk6_0_apply (t : Fin cfg6.N) (y : S10000x64.Idx) (i : S100000x64.Idx)
    (h0 : (i 0).val = 10000 * t.val + (y 0).val) (h1 : (i 1).val = (y 1).val) :
    (iblk6 V c 0 t : Vec Ideal S10000x64 .f32) y = (V c main_v127 : S100000x64.Idx → Elt Ideal .f32) i := by
  obtain ⟨e0, e1, -⟩ := idx6 t
  unfold iblk6
  rw [View.read_apply]
  show V c main_v127 _ = V c main_v127 _
  congr 1
  funext a
  apply Fin.ext
  match a with
  | ⟨0, _⟩ => show win6_0.index t (0 : Fin 2) * 10000 + 1 * (y 0).val = (i 0).val; rw [e0, h0]; omega
  | ⟨1, _⟩ => show win6_0.index t (1 : Fin 2) * 64 + 1 * (y 1).val = (i 1).val; rw [e1, h1]; omega

/-- The right block at every point is the whole right array. -/
theorem iblk6_1_apply (t : Fin cfg6.N) (y : S64x64.Idx) :
    (iblk6 V c 1 t : Vec Ideal S64x64 .f32) y = (V c main_arg6 : S64x64.Idx → Elt Ideal .f32) y := by
  obtain ⟨-, -, e0, e1, -⟩ := idx6 t
  unfold iblk6
  rw [View.read_apply]
  show V c main_arg6 _ = V c main_arg6 _
  congr 1
  funext a
  apply Fin.ext
  match a with
  | ⟨0, _⟩ => show win6_1.index t (0 : Fin 2) * 64 + 1 * (y 0).val = (y 0).val; rw [e0]; omega
  | ⟨1, _⟩ => show win6_1.index t (1 : Fin 2) * 64 + 1 * (y 1).val = (y 1).val; rw [e1]; omega

/-- What point t writes back is block t of the whole product. -/
theorem flushed6_eq (t : Fin cfg6.N) :
    (dat6 (F := Ideal) V c).flushed 2 t
      = ((cfg6.win 2).blk t).view.read (Elt Ideal) (Cert.Spec.xw64 (F := Ideal) (V c main_v127) (V c main_arg6)) := by
  show (cfg6.win 2).cut (grid6.coords t) ((dat6 (F := Ideal) V c).after 2 t) = _
  rw [after6_2]
  unfold out6_2
  rw [View.canon_unit_zero zeroOff]
  simp only [View.ld_unit_zero (S := S10000x64) zeroOff, View.ld_unit_zero (S := S64x64) zeroOff]
  rw [pay6_eq]
  obtain ⟨-, -, -, -, e0, e1⟩ := idx6 t
  funext j
  refine block64 (V c main_v127) (V c main_arg6) (iblk6 V c 0 t) (iblk6 V c 1 t) t.val
    (fun y i h0 h1 => iblk6_0_apply V c t y i h0 h1) (fun y => iblk6_1_apply V c t y) j (((cfg6.win 2).blk t).view.emb j) ?_ ?_
  · show win6_2.index t (0 : Fin 2) * 10000 + 1 * (j 0).val = _; rw [e0]; omega
  · show win6_2.index t (1 : Fin 2) * 64 + 1 * (j 1).val = _; rw [e1]; omega

/-- An entry of the result array is in point t's block iff each coordinate is in the block's range on its axis. -/
theorem mem_blk6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v128).slice (win6_2.rect t)).set ↔ _
  rw [View.set_slice_whole, Rect.mem_set_unit]
  exact Iff.rfl

/-- Row r of the result lies in the block of point r / 10000. -/
theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 10 := N_6
  let t : Fin cfg6.N := ⟨(i 0).val / 10000, by rw [hN]; omega⟩
  obtain ⟨-, -, -, -, e0, e1⟩ := idx6 t
  refine ⟨t, flush6_2 t, ?_⟩
  rw [mem_blk6]
  intro a
  match a with
  | ⟨0, _⟩ =>
    show win6_2.index t (0 : Fin 2) * 10000 ≤ (i 0).val ∧ (i 0).val < win6_2.index t (0 : Fin 2) * 10000 + 10000
    rw [e0]
    show (i 0).val / 10000 * 10000 ≤ (i 0).val ∧ (i 0).val < (i 0).val / 10000 * 10000 + 10000
    omega
  | ⟨1, _⟩ =>
    show win6_2.index t (1 : Fin 2) * 64 ≤ (i 1).val ∧ (i 1).val < win6_2.index t (1 : Fin 2) * 64 + 64
    rw [e1]; omega

theorem arr6 : (dat6 (F := Ideal) V c).arrAt 2 cfg6.N = Cert.Spec.xw64 (F := Ideal) (V c main_v127) (V c main_arg6) :=
  (dat6 (F := Ideal) V c).arrAt_eq_of_cover 2 (Cert.Spec.xw64 (F := Ideal) (V c main_v127) (V c main_arg6))
    (fun t _ => flushed6_eq V c t) cover6

end Cert.KernelIdeal.Val

end
-- ==== Proof.KFinalize.lean ====
/-
  The four finalize calls (each view's first and second layer) as whole-array functions, and the kernel's column
  and row operands against the reference's broadcasts.

  A finalize call walks a grid of ten points.  Point t reads rows 10000 t … 10000 t + 9999 of the neighbour term
  a and of the projected features h (both [100000, 64]), the same rows of the self-loop weights d (a column
  [100000, 1]), the whole bias row b ([1, 64]), and writes the same rows of the [100000, 64] result.  The body
  spreads the column over the 64 columns and the row over the 10000 rows and computes (a + h * d) + b, entry by
  entry; in the first layer it then takes the maximum with zero.  So entry (p, q) of the block it stores is
  (a (p, q) + h (p, q) * d (p, 0)) + b (0, q) of the blocks it read, and since row p of a block read at point t IS
  row 10000 t + p of its array (the bias row being the same at every point), that is the whole-array function
  (a + h * d) + b, with the column and the row spread the same way, at entry (10000 t + p, q): every point writes
  back its block of the whole-array function.  Row r of the result lies in the block of point r / 10000, so the ten
  blocks cover the result array, and after the last point the array is the whole-array function.

  The kernel's program hands the call the self-loop weights reshaped from [100000] to [100000, 1] and the bias
  reshaped from [64] to [1, 64]; the reference broadcasts each along a new unit axis instead.  A reshape that
  only adds a unit axis keeps every entry's row-major position, so it reads, at (r, 0), the vector at r (and at
  (0, q) the vector at q), which is what the broadcast reads there: the two are the same array.
-/
import proofs.«417470_j56255481643393_2_alg».proof.Proof.Gen.KernelIdeal.Frame
import proofs.«417470_j56255481643393_2_alg».proof.Proof.Spec
import Idealize.ShloMosaic.Lib.StableHlo.Run
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.StableHlo
open Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b)) (c : Dev nD)

namespace Finalize

/-- The offsets of an access to a whole block are zero on both axes. -/
theorem zero_offsets : (![0, 0] : Fin 2 → Nat) = fun _ => 0 := funext fun a => by fin_cases a <;> rfl

/-! ## The body and the whole-array function at an entry

Both spread the column d along the second axis and the row b along the first, so at entry (p, q) they read d at
(p, 0) and b at (0, q); the rest is entry by entry.  The body's reshapes keep the shape and change nothing. -/

/-- The second layer's body at entry (p, q) of the block: (a + h * d (p, 0)) + b (0, q). -/
theorem body_apply (x0 x1 : Vec Ideal S10000x64 .f32) (x2 : Vec Ideal S10000x1 .f32) (x3 : Vec Ideal S1x64 .f32) (p : Fin 10000) (q : Fin 64) :
    k3_pay1 x0 x1 x2 x3 (ix2 p q) = x0 (ix2 p q) + x1 (ix2 p q) * x2 (ix2 p (0 : Fin 1)) + x3 (ix2 (0 : Fin 1) q) := by
  unfold k3_pay1
  simp only [shapeCast_self]
  rw [addf_apply, addf_apply, mulf_apply,
    broadcastTo_apply x2 _ (ix2 p q) (ix2 p (0 : Fin 1)) (fun a => by match a with | ⟨0, _⟩ => rfl | ⟨1, _⟩ => rfl),
    broadcastTo_apply x3 _ (ix2 p q) (ix2 (0 : Fin 1) q) (fun a => by match a with | ⟨0, _⟩ => rfl | ⟨1, _⟩ => rfl)]

/-- The first layer's body at entry (p, q): the same, then the maximum with zero. -/
theorem body_relu_apply (x0 x1 : Vec Ideal S10000x64 .f32) (x2 : Vec Ideal S10000x1 .f32) (x3 : Vec Ideal S1x64 .f32) (p : Fin 10000) (q : Fin 64) :
    k1_pay1 x0 x1 x2 x3 (ix2 p q)
      = max (x0 (ix2 p q) + x1 (ix2 p q) * x2 (ix2 p (0 : Fin 1)) + x3 (ix2 (0 : Fin 1) q)) (Ideal.ofBits .f32 0x00000000#32) := by
  unfold k1_pay1
  simp only [shapeCast_self]
  rw [maximumf_apply, addf_apply, addf_apply, mulf_apply,
    broadcastTo_apply x2 _ (ix2 p q) (ix2 p (0 : Fin 1)) (fun a => by match a with | ⟨0, _⟩ => rfl | ⟨1, _⟩ => rfl),
    broadcastTo_apply x3 _ (ix2 p q) (ix2 (0 : Fin 1) q) (fun a => by match a with | ⟨0, _⟩ => rfl | ⟨1, _⟩ => rfl)]
  rfl

/-- The second view's bodies are the first view's, operation for operation. -/
theorem body5_eq : k5_pay1 (F := Ideal) = k1_pay1 (F := Ideal) := rfl
theorem body7_eq : k7_pay1 (F := Ideal) = k3_pay1 (F := Ideal) := rfl

/-- The whole-array self-loop and bias step at entry (r, q): (a + h * d (r, 0)) + b (0, q). -/
theorem finK_apply (a h : Cert.Spec.Nodes Ideal) (d : FVec Ideal Cert.ReferenceIdeal.S100000x1 .f32) (b : FVec Ideal Cert.ReferenceIdeal.S1x64 .f32)
    (r : Fin 100000) (q : Fin 64) :
    Cert.Spec.finK (F := Ideal) a h d b (ix2 r q) = a (ix2 r q) + h (ix2 r q) * d (ix2 r (0 : Fin 1)) + b (ix2 (0 : Fin 1) q) := by
  unfold Cert.Spec.finK
  rw [addf_apply, addf_apply, mulf_apply,
    broadcastInDim_apply _ _ d (ix2 r q) (ix2 r (0 : Fin 1)) (fun a => by match a with | ⟨0, _⟩ => rfl | ⟨1, _⟩ => rfl),
    broadcastInDim_apply _ _ b (ix2 r q) (ix2 (0 : Fin 1) q) (fun a => by match a with | ⟨0, _⟩ => rfl | ⟨1, _⟩ => rfl)]

/-- The whole-array maximum with zero at an entry. -/
theorem relu_apply (x : Cert.Spec.Nodes Ideal) (r : Fin 100000) (q : Fin 64) :
    Cert.Spec.relu (F := Ideal) x (ix2 r q) = max (x (ix2 r q)) (Ideal.ofBits .f32 0x00000000#32) := by
  unfold Cert.Spec.relu
  rw [maximumf_apply]
  rfl

/-! ## The column and the row: a reshape that adds a unit axis is the broadcast along it -/

/-- A vector of per-node values stood up as a column reads, at row r, the vector at r, and so does its broadcast
    along a new second axis: both indices have row-major position r, the unit coordinate being 0. -/
theorem column_cast (d2 : FVec Ideal Cert.ReferenceIdeal.S100000 .f32) (h : Cert.ReferenceIdeal.S100000.ShapeCasts Cert.ReferenceIdeal.S100000x1) :
    shapeCast Cert.ReferenceIdeal.S100000x1 d2 h
      = broadcastInDim Cert.ReferenceIdeal.S100000x1 ![0] Cert.ReferenceIdeal.Facts₀.bcast_S100000_S100000x1_0 d2 := by
  funext i
  obtain ⟨r, u, rfl⟩ : ∃ (r : Fin 100000) (u : Fin 1), i = ix2 r u := ⟨i 0, i 1, eq_ix2 i⟩
  have hu : u.val = 0 := by omega
  rw [shapeCast_apply d2 h (ix2 r u) (ix1 r) (by
        rw [Shape.rowMajor_val_one, Shape.rowMajor_val_two]
        show r.val = r.val * 1 + u.val
        omega),
    broadcastInDim_apply ![0] _ d2 (ix2 r u) (ix1 r) (fun a => by match a with | ⟨0, _⟩ => rfl)]

/-- The bias laid out as a one-row matrix reads, at column q, the bias at q, and so does its broadcast along a new
    first axis. -/
theorem row_cast (b : FVec Ideal Cert.ReferenceIdeal.S64 .f32) (h : Cert.ReferenceIdeal.S64.ShapeCasts Cert.ReferenceIdeal.S1x64) :
    shapeCast Cert.ReferenceIdeal.S1x64 b h
      = broadcastInDim Cert.ReferenceIdeal.S1x64 ![1] Cert.ReferenceIdeal.Facts₀.bcast_S64_S1x64_1 b := by
  funext i
  obtain ⟨u, q, rfl⟩ : ∃ (u : Fin 1) (q : Fin 64), i = ix2 u q := ⟨i 0, i 1, eq_ix2 i⟩
  have hu : u.val = 0 := by omega
  rw [shapeCast_apply b h (ix2 u q) (ix1 q) (by
        rw [Shape.rowMajor_val_one, Shape.rowMajor_val_two]
        show q.val = u.val * 64 + q.val
        omega),
    broadcastInDim_apply ![1] _ b (ix2 u q) (ix1 q) (fun a => by match a with | ⟨0, _⟩ => rfl)]

/-! ## Call 1: the first layer's finalize, with the relu -/

/-- The index maps over the ten grid points: the three row-blocked operands and the result sit at row block t, column
    block 0; the bias row is whole at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt1 (t : Fin cfg1.N) : t.val < 10 := t.isLt

/-- Entry (p, q) of the neighbour term's block at point t is entry (10000 t + p, q) of the array. -/
theorem agg1_apply (t : Fin cfg1.N) (p : Fin 10000) (q : Fin 64) :
    (iblk1 V c 0 t : Vec Ideal S10000x64 .f32) (ix2 p q)
      = (V c main_v39 : S100000x64.Idx → Elt Ideal .f32) (ix2 ⟨t.val * 10000 + p.val, by have := lt1 t; omega⟩ q) := by
  obtain ⟨e0, e1, -⟩ := idx1 t
  unfold iblk1
  show (V c main_v39 : S100000x64.Idx → Elt Ideal .f32) _ = _
  congr 1
  funext a
  apply Fin.ext
  match a with
  | ⟨0, _⟩ => show win1_0.index t (0 : Fin 2) * 10000 + 1 * p.val = t.val * 10000 + p.val; rw [e0]; omega
  | ⟨1, _⟩ => show win1_0.index t (1 : Fin 2) * 64 + 1 * q.val = q.val; rw [e1]; omega

/-- The same for the projected features' block. -/
theorem feat1_apply (t : Fin cfg1.N) (p : Fin 10000) (q : Fin 64) :
    (iblk1 V c 1 t : Vec Ideal S10000x64 .f32) (ix2 p q)
      = (V c main_v4 : S100000x64.Idx → Elt Ideal .f32) (ix2 ⟨t.val * 10000 + p.val, by have := lt1 t; omega⟩ q) := by
  obtain ⟨-, -, e0, e1, -⟩ := idx1 t
  unfold iblk1
  show (V c main_v4 : S100000x64.Idx → Elt Ideal .f32) _ = _
  congr 1
  funext a
  apply Fin.ext
  match a with
  | ⟨0, _⟩ => show win1_1.index t (0 : Fin 2) * 10000 + 1 * p.val = t.val * 10000 + p.val; rw [e0]; omega
  | ⟨1, _⟩ => show win1_1.index t (1 : Fin 2) * 64 + 1 * q.val = q.val; rw [e1]; omega

/-- Row p of the self-loop weights' block at point t is row 10000 t + p of the column. -/
theorem self1_apply (t : Fin cfg1.N) (p : Fin 10000) :
    (iblk1 V c 2 t : Vec Ideal S10000x1 .f32) (ix2 p (0 : Fin 1))
      = (V c main_v41 : S100000x1.Idx → Elt Ideal .f32) (ix2 ⟨t.val * 10000 + p.val, by have := lt1 t; omega⟩ (0 : Fin 1)) := by
  obtain ⟨-, -, -, -, e0, e1, -⟩ := idx1 t
  unfold iblk1
  show (V c main_v41 : S100000x1.Idx → Elt Ideal .f32) _ = _
  congr 1
  funext a
  apply Fin.ext
  match a with
  | ⟨0, _⟩ => show win1_2.index t (0 : Fin 2) * 10000 + 1 * p.val = t.val * 10000 + p.val; rw [e0]; omega
  | ⟨1, _⟩ => show win1_2.index t (1 : Fin 2) * 1 + 1 * 0 = 0; rw [e1]

/-- The bias row's block is the bias row, at every point. -/
theorem bias1_apply (t : Fin cfg1.N) (q : Fin 64) :
    (iblk1 V c 3 t : Vec Ideal S1x64 .f32) (ix2 (0 : Fin 1) q)
      = (V c main_v42 : S1x64.Idx → Elt Ideal .f32) (ix2 (0 : Fin 1) q) := by
  obtain ⟨-, -, -, -, -, -, e0, e1, -⟩ := idx1 t
  unfold iblk1
  show (V c main_v42 : S1x64.Idx → Elt Ideal .f32) _ = _
  congr 1
  funext a
  apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

/-- Entry (p, q) of the result's block at point t lands at (10000 t + p, q) of the result array. -/
theorem place1 (t : Fin cfg1.N) (p : Fin 10000) (q : Fin 64) :
    (((cfg1.win 4).blk t).view.emb (ix2 p q) : S100000x64.Idx) = ix2 ⟨t.val * 10000 + p.val, by have := lt1 t; omega⟩ q := by
  obtain ⟨-, -, -, -, -, -, -, -, e0, e1⟩ := idx1 t
  funext a
  apply Fin.ext
  match a with
  | ⟨0, _⟩ => show win1_4.index t (0 : Fin 2) * 10000 + 1 * p.val = t.val * 10000 + p.val; rw [e0]; omega
  | ⟨1, _⟩ => show win1_4.index t (1 : Fin 2) * 64 + 1 * q.val = q.val; rw [e1]; omega

/-- What point t writes back is block t of the whole-array function: the body's value at (p, q) reads the four
    operands exactly where the whole-array function reads them at (10000 t + p, q). -/
theorem written1 (t : Fin cfg1.N) :
    (dat1 (F := Ideal) V c).flushed 4 t = ((cfg1.win 4).blk t).view.read (Elt Ideal)
      (Cert.Spec.relu (Cert.Spec.finK (F := Ideal) (V c main_v39) (V c main_v4) (V c main_v41) (V c main_v42))) := by
  show (cfg1.win 4).cut (grid1.coords t) ((dat1 V c).after 4 t) = _
  rw [after1_4]
  unfold out1_4
  rw [View.canon_unit_zero zero_offsets]
  simp only [View.ld_unit_zero (S := S10000x64) zero_offsets, View.ld_unit_zero (S := S10000x1) zero_offsets, View.ld_unit_zero (S := S1x64) zero_offsets]
  funext j
  show k1_pay1 (iblk1 V c 0 t) (iblk1 V c 1 t) (iblk1 V c 2 t) (iblk1 V c 3 t) j
    = (Cert.Spec.relu (Cert.Spec.finK (F := Ideal) (V c main_v39) (V c main_v4) (V c main_v41) (V c main_v42))) (((cfg1.win 4).blk t).view.emb j)
  obtain ⟨p, q, hj⟩ : ∃ (p : Fin 10000) (q : Fin 64), (j : S10000x64.Idx) = ix2 p q := ⟨j 0, j 1, eq_ix2 j⟩
  rw [hj, place1 t, body_relu_apply, relu_apply, finK_apply, agg1_apply V c t, feat1_apply V c t, self1_apply V c t, bias1_apply V c t]

/-- An index of the result array is in point t's block iff, on each axis, it lies in the block's range. -/
theorem in_block1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- Every row r of the result lies in the block of point r / 10000, and every point writes its block back. -/
theorem tiled1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 10000 < cfg1.N := by show _ < 10; omega
  obtain ⟨-, -, -, -, -, -, -, -, e0, e1⟩ := idx1 ⟨(i 0).val / 10000, ht⟩
  refine ⟨⟨(i 0).val / 10000, ht⟩, flush1_4 _, ?_⟩
  rw [in_block1]
  intro a
  match a with
  | ⟨0, _⟩ =>
    show win1_4.index ⟨(i 0).val / 10000, ht⟩ (0 : Fin 2) * 10000 ≤ (i 0).val ∧ (i 0).val < win1_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_4.index ⟨(i 0).val / 10000, ht⟩ (1 : Fin 2) * 64 ≤ (i 1).val ∧ (i 1).val < win1_4.index ⟨(i 0).val / 10000, ht⟩ (1 : Fin 2) * 64 + 64
    rw [e1]; omega

theorem array1 : (dat1 (F := Ideal) V c).arrAt 4 cfg1.N = Cert.Spec.relu (Cert.Spec.finK (F := Ideal) (V c main_v39) (V c main_v4) (V c main_v41) (V c main_v42)) :=
  (dat1 (F := Ideal) V c).arrAt_eq_of_cover 4 _ (fun t _ => written1 V c t) tiled1

/-! ## Call 3: the second layer's finalize -/

/-- The index maps over the ten grid points: the three row-blocked operands and the result sit at row block t, column
    block 0; the bias row is whole at every point. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem lt3 (t : Fin cfg3.N) : t.val < 10 := t.isLt

/-- Entry (p, q) of the neighbour term's block at point t is entry (10000 t + p, q) of the array. -/
theorem agg3_apply (t : Fin cfg3.N) (p : Fin 10000) (q : Fin 64) :
    (iblk3 V c 0 t : Vec Ideal S10000x64 .f32) (ix2 p q)
      = (V c main_v79 : S100000x64.Idx → Elt Ideal .f32) (ix2 ⟨t.val * 10000 + p.val, by have := lt3 t; omega⟩ q) := by
  obtain ⟨e0, e1, -⟩ := idx3 t
  unfold iblk3
  show (V c main_v79 : S100000x64.Idx → Elt Ideal .f32) _ = _
  congr 1
  funext a
  apply Fin.ext
  match a with
  | ⟨0, _⟩ => show win3_0.index t (0 : Fin 2) * 10000 + 1 * p.val = t.val * 10000 + p.val; rw [e0]; omega
  | ⟨1, _⟩ => show win3_0.index t (1 : Fin 2) * 64 + 1 * q.val = q.val; rw [e1]; omega

/-- The same for the projected features' block. -/
theorem feat3_apply (t : Fin cfg3.N) (p : Fin 10000) (q : Fin 64) :
    (iblk3 V c 1 t : Vec Ideal S10000x64 .f32) (ix2 p q)
      = (V c main_v44 : S100000x64.Idx → Elt Ideal .f32) (ix2 ⟨t.val * 10000 + p.val, by have := lt3 t; omega⟩ q) := by
  obtain ⟨-, -, e0, e1, -⟩ := idx3 t
  unfold iblk3
  show (V c main_v44 : S100000x64.Idx → Elt Ideal .f32) _ = _
  congr 1
  funext a
  apply Fin.ext
  match a with
  | ⟨0, _⟩ => show win3_1.index t (0 : Fin 2) * 10000 + 1 * p.val = t.val * 10000 + p.val; rw [e0]; omega
  | ⟨1, _⟩ => show win3_1.index t (1 : Fin 2) * 64 + 1 * q.val = q.val; rw [e1]; omega

/-- Row p of the self-loop weights' block at point t is row 10000 t + p of the column. -/
theorem self3_apply (t : Fin cfg3.N) (p : Fin 10000) :
    (iblk3 V c 2 t : Vec Ideal S10000x1 .f32) (ix2 p (0 : Fin 1))
      = (V c main_v81 : S100000x1.Idx → Elt Ideal .f32) (ix2 ⟨t.val * 10000 + p.val, by have := lt3 t; omega⟩ (0 : Fin 1)) := by
  obtain ⟨-, -, -, -, e0, e1, -⟩ := idx3 t
  unfold iblk3
  show (V c main_v81 : S100000x1.Idx → Elt Ideal .f32) _ = _
  congr 1
  funext a
  apply Fin.ext
  match a with
  | ⟨0, _⟩ => show win3_2.index t (0 : Fin 2) * 10000 + 1 * p.val = t.val * 10000 + p.val; rw [e0]; omega
  | ⟨1, _⟩ => show win3_2.index t (1 : Fin 2) * 1 + 1 * 0 = 0; rw [e1]

/-- The bias row's block is the bias row, at every point. -/
theorem bias3_apply (t : Fin cfg3.N) (q : Fin 64) :
    (iblk3 V c 3 t : Vec Ideal S1x64 .f32) (ix2 (0 : Fin 1) q)
      = (V c main_v82 : S1x64.Idx → Elt Ideal .f32) (ix2 (0 : Fin 1) q) := by
  obtain ⟨-, -, -, -, -, -, e0, e1, -⟩ := idx3 t
  unfold iblk3
  show (V c main_v82 : S1x64.Idx → Elt Ideal .f32) _ = _
  congr 1
  funext a
  apply Fin.ext
  match a with
  | ⟨0, _⟩ => show win3_3.index t (0 : Fin 2) * 1 + 1 * 0 = 0; rw [e0]
  | ⟨1, _⟩ => show win3_3.index t (1 : Fin 2) * 64 + 1 * q.val = q.val; rw [e1]; omega

/-- Entry (p, q) of the result's block at point t lands at (10000 t + p, q) of the result array. -/
theorem place3 (t : Fin cfg3.N) (p : Fin 10000) (q : Fin 64) :
    (((cfg3.win 4).blk t).view.emb (ix2 p q) : S100000x64.Idx) = ix2 ⟨t.val * 10000 + p.val, by have := lt3 t; omega⟩ q := by
  obtain ⟨-, -, -, -, -, -, -, -, e0, e1⟩ := idx3 t
  funext a
  apply Fin.ext
  match a with
  | ⟨0, _⟩ => show win3_4.index t (0 : Fin 2) * 10000 + 1 * p.val = t.val * 10000 + p.val; rw [e0]; omega
  | ⟨1, _⟩ => show win3_4.index t (1 : Fin 2) * 64 + 1 * q.val = q.val; rw [e1]; omega

/-- What point t writes back is block t of the whole-array function: the body's value at (p, q) reads the four
    operands exactly where the whole-array function reads them at (10000 t + p, q). -/
theorem written3 (t : Fin cfg3.N) :
    (dat3 (F := Ideal) V c).flushed 4 t = ((cfg3.win 4).blk t).view.read (Elt Ideal)
      (Cert.Spec.finK (F := Ideal) (V c main_v79) (V c main_v44) (V c main_v81) (V c main_v82)) := by
  show (cfg3.win 4).cut (grid3.coords t) ((dat3 V c).after 4 t) = _
  rw [after3_4]
  unfold out3_4
  rw [View.canon_unit_zero zero_offsets]
  simp only [View.ld_unit_zero (S := S10000x64) zero_offsets, View.ld_unit_zero (S := S10000x1) zero_offsets, View.ld_unit_zero (S := S1x64) zero_offsets]
  funext j
  show k3_pay1 (iblk3 V c 0 t) (iblk3 V c 1 t) (iblk3 V c 2 t) (iblk3 V c 3 t) j
    = (Cert.Spec.finK (F := Ideal) (V c main_v79) (V c main_v44) (V c main_v81) (V c main_v82)) (((cfg3.win 4).blk t).view.emb j)
  obtain ⟨p, q, hj⟩ : ∃ (p : Fin 10000) (q : Fin 64), (j : S10000x64.Idx) = ix2 p q := ⟨j 0, j 1, eq_ix2 j⟩
  rw [hj, place3 t, body_apply, finK_apply, agg3_apply V c t, feat3_apply V c t, self3_apply V c t, bias3_apply V c t]

/-- An index of the result array is in point t's block iff, on each axis, it lies in the block's range. -/
theorem in_block3 (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v83).slice (win3_4.rect t)).set ↔ _
  rw [View.set_slice_whole, Rect.mem_set_unit]
  exact Iff.rfl

/-- Every row r of the result lies in the block of point r / 10000, and every point writes its block back. -/
theorem tiled3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have ht : (i 0).val / 10000 < cfg3.N := by show _ < 10; omega
  obtain ⟨-, -, -, -, -, -, -, -, e0, e1⟩ := idx3 ⟨(i 0).val / 10000, ht⟩
  refine ⟨⟨(i 0).val / 10000, ht⟩, flush3_4 _, ?_⟩
  rw [in_block3]
  intro a
  match a with
  | ⟨0, _⟩ =>
    show win3_4.index ⟨(i 0).val / 10000, ht⟩ (0 : Fin 2) * 10000 ≤ (i 0).val ∧ (i 0).val < win3_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win3_4.index ⟨(i 0).val / 10000, ht⟩ (1 : Fin 2) * 64 ≤ (i 1).val ∧ (i 1).val < win3_4.index ⟨(i 0).val / 10000, ht⟩ (1 : Fin 2) * 64 + 64
    rw [e1]; omega

theorem array3 : (dat3 (F := Ideal) V c).arrAt 4 cfg3.N = Cert.Spec.finK (F := Ideal) (V c main_v79) (V c main_v44) (V c main_v81) (V c main_v82) :=
  (dat3 (F := Ideal) V c).arrAt_eq_of_cover 4 _ (fun t _ => written3 V c t) tiled3

/-! ## Call 5: the first layer's finalize, with the relu -/

/-- The index maps over the ten grid points: the three row-blocked operands and the result sit at row block t, column
    block 0; the bias row is whole at every point. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem lt5 (t : Fin cfg5.N) : t.val < 10 := t.isLt

/-- Entry (p, q) of the neighbour term's block at point t is entry (10000 t + p, q) of the array. -/
theorem agg5_apply (t : Fin cfg5.N) (p : Fin 10000) (q : Fin 64) :
    (iblk5 V c 0 t : Vec Ideal S10000x64 .f32) (ix2 p q)
      = (V c main_v123 : S100000x64.Idx → Elt Ideal .f32) (ix2 ⟨t.val * 10000 + p.val, by have := lt5 t; omega⟩ q) := by
  obtain ⟨e0, e1, -⟩ := idx5 t
  unfold iblk5
  show (V c main_v123 : S100000x64.Idx → Elt Ideal .f32) _ = _
  congr 1
  funext a
  apply Fin.ext
  match a with
  | ⟨0, _⟩ => show win5_0.index t (0 : Fin 2) * 10000 + 1 * p.val = t.val * 10000 + p.val; rw [e0]; omega
  | ⟨1, _⟩ => show win5_0.index t (1 : Fin 2) * 64 + 1 * q.val = q.val; rw [e1]; omega

/-- The same for the projected features' block. -/
theorem feat5_apply (t : Fin cfg5.N) (p : Fin 10000) (q : Fin 64) :
    (iblk5 V c 1 t : Vec Ideal S10000x64 .f32) (ix2 p q)
      = (V c main_v88 : S100000x64.Idx → Elt Ideal .f32) (ix2 ⟨t.val * 10000 + p.val, by have := lt5 t; omega⟩ q) := by
  obtain ⟨-, -, e0, e1, -⟩ := idx5 t
  unfold iblk5
  show (V c main_v88 : S100000x64.Idx → Elt Ideal .f32) _ = _
  congr 1
  funext a
  apply Fin.ext
  match a with
  | ⟨0, _⟩ => show win5_1.index t (0 : Fin 2) * 10000 + 1 * p.val = t.val * 10000 + p.val; rw [e0]; omega
  | ⟨1, _⟩ => show win5_1.index t (1 : Fin 2) * 64 + 1 * q.val = q.val; rw [e1]; omega

/-- Row p of the self-loop weights' block at point t is row 10000 t + p of the column. -/
theorem self5_apply (t : Fin cfg5.N) (p : Fin 10000) :
    (iblk5 V c 2 t : Vec Ideal S10000x1 .f32) (ix2 p (0 : Fin 1))
      = (V c main_v125 : S100000x1.Idx → Elt Ideal .f32) (ix2 ⟨t.val * 10000 + p.val, by have := lt5 t; omega⟩ (0 : Fin 1)) := by
  obtain ⟨-, -, -, -, e0, e1, -⟩ := idx5 t
  unfold iblk5
  show (V c main_v125 : S100000x1.Idx → Elt Ideal .f32) _ = _
  congr 1
  funext a
  apply Fin.ext
  match a with
  | ⟨0, _⟩ => show win5_2.index t (0 : Fin 2) * 10000 + 1 * p.val = t.val * 10000 + p.val; rw [e0]; omega
  | ⟨1, _⟩ => show win5_2.index t (1 : Fin 2) * 1 + 1 * 0 = 0; rw [e1]

/-- The bias row's block is the bias row, at every point. -/
theorem bias5_apply (t : Fin cfg5.N) (q : Fin 64) :
    (iblk5 V c 3 t : Vec Ideal S1x64 .f32) (ix2 (0 : Fin 1) q)
      = (V c main_v126 : S1x64.Idx → Elt Ideal .f32) (ix2 (0 : Fin 1) q) := by
  obtain ⟨-, -, -, -, -, -, e0, e1, -⟩ := idx5 t
  unfold iblk5
  show (V c main_v126 : S1x64.Idx → Elt Ideal .f32) _ = _
  congr 1
  funext a
  apply Fin.ext
  match a with
  | ⟨0, _⟩ => show win5_3.index t (0 : Fin 2) * 1 + 1 * 0 = 0; rw [e0]
  | ⟨1, _⟩ => show win5_3.index t (1 : Fin 2) * 64 + 1 * q.val = q.val; rw [e1]; omega

/-- Entry (p, q) of the result's block at point t lands at (10000 t + p, q) of the result array. -/
theorem place5 (t : Fin cfg5.N) (p : Fin 10000) (q : Fin 64) :
    (((cfg5.win 4).blk t).view.emb (ix2 p q) : S100000x64.Idx) = ix2 ⟨t.val * 10000 + p.val, by have := lt5 t; omega⟩ q := by
  obtain ⟨-, -, -, -, -, -, -, -, e0, e1⟩ := idx5 t
  funext a
  apply Fin.ext
  match a with
  | ⟨0, _⟩ => show win5_4.index t (0 : Fin 2) * 10000 + 1 * p.val = t.val * 10000 + p.val; rw [e0]; omega
  | ⟨1, _⟩ => show win5_4.index t (1 : Fin 2) * 64 + 1 * q.val = q.val; rw [e1]; omega

/-- What point t writes back is block t of the whole-array function: the body's value at (p, q) reads the four
    operands exactly where the whole-array function reads them at (10000 t + p, q). -/
theorem written5 (t : Fin cfg5.N) :
    (dat5 (F := Ideal) V c).flushed 4 t = ((cfg5.win 4).blk t).view.read (Elt Ideal)
      (Cert.Spec.relu (Cert.Spec.finK (F := Ideal) (V c main_v123) (V c main_v88) (V c main_v125) (V c main_v126))) := by
  show (cfg5.win 4).cut (grid5.coords t) ((dat5 V c).after 4 t) = _
  rw [after5_4]
  unfold out5_4
  rw [View.canon_unit_zero zero_offsets]
  simp only [View.ld_unit_zero (S := S10000x64) zero_offsets, View.ld_unit_zero (S := S10000x1) zero_offsets, View.ld_unit_zero (S := S1x64) zero_offsets]
  funext j
  show k5_pay1 (iblk5 V c 0 t) (iblk5 V c 1 t) (iblk5 V c 2 t) (iblk5 V c 3 t) j
    = (Cert.Spec.relu (Cert.Spec.finK (F := Ideal) (V c main_v123) (V c main_v88) (V c main_v125) (V c main_v126))) (((cfg5.win 4).blk t).view.emb j)
  obtain ⟨p, q, hj⟩ : ∃ (p : Fin 10000) (q : Fin 64), (j : S10000x64.Idx) = ix2 p q := ⟨j 0, j 1, eq_ix2 j⟩
  rw [hj, place5 t, body5_eq, body_relu_apply, relu_apply, finK_apply, agg5_apply V c t, feat5_apply V c t, self5_apply V c t, bias5_apply V c t]

/-- An index of the result array is in point t's block iff, on each axis, it lies in the block's range. -/
theorem in_block5 (t : Fin cfg5.N) (i : S100000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v127).slice (win5_4.rect t)).set ↔ _
  rw [View.set_slice_whole, Rect.mem_set_unit]
  exact Iff.rfl

/-- Every row r of the result lies in the block of point r / 10000, and every point writes its block back. -/
theorem tiled5 (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have ht : (i 0).val / 10000 < cfg5.N := by show _ < 10; omega
  obtain ⟨-, -, -, -, -, -, -, -, e0, e1⟩ := idx5 ⟨(i 0).val / 10000, ht⟩
  refine ⟨⟨(i 0).val / 10000, ht⟩, flush5_4 _, ?_⟩
  rw [in_block5]
  intro a
  match a with
  | ⟨0, _⟩ =>
    show win5_4.index ⟨(i 0).val / 10000, ht⟩ (0 : Fin 2) * 10000 ≤ (i 0).val ∧ (i 0).val < win5_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win5_4.index ⟨(i 0).val / 10000, ht⟩ (1 : Fin 2) * 64 ≤ (i 1).val ∧ (i 1).val < win5_4.index ⟨(i 0).val / 10000, ht⟩ (1 : Fin 2) * 64 + 64
    rw [e1]; omega

theorem array5 : (dat5 (F := Ideal) V c).arrAt 4 cfg5.N = Cert.Spec.relu (Cert.Spec.finK (F := Ideal) (V c main_v123) (V c main_v88) (V c main_v125) (V c main_v126)) :=
  (dat5 (F := Ideal) V c).arrAt_eq_of_cover 4 _ (fun t _ => written5 V c t) tiled5

/-! ## Call 7: the second layer's finalize -/

/-- The index maps over the ten grid points: the three row-blocked operands and the result sit at row block t, column
    block 0; the bias row is whole at every point. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

theorem lt7 (t : Fin cfg7.N) : t.val < 10 := t.isLt

/-- Entry (p, q) of the neighbour term's block at point t is entry (10000 t + p, q) of the array. -/
theorem agg7_apply (t : Fin cfg7.N) (p : Fin 10000) (q : Fin 64) :
    (iblk7 V c 0 t : Vec Ideal S10000x64 .f32) (ix2 p q)
      = (V c main_v163 : S100000x64.Idx → Elt Ideal .f32) (ix2 ⟨t.val * 10000 + p.val, by have := lt7 t; omega⟩ q) := by
  obtain ⟨e0, e1, -⟩ := idx7 t
  unfold iblk7
  show (V c main_v163 : S100000x64.Idx → Elt Ideal .f32) _ = _
  congr 1
  funext a
  apply Fin.ext
  match a with
  | ⟨0, _⟩ => show win7_0.index t (0 : Fin 2) * 10000 + 1 * p.val = t.val * 10000 + p.val; rw [e0]; omega
  | ⟨1, _⟩ => show win7_0.index t (1 : Fin 2) * 64 + 1 * q.val = q.val; rw [e1]; omega

/-- The same for the projected features' block. -/
theorem feat7_apply (t : Fin cfg7.N) (p : Fin 10000) (q : Fin 64) :
    (iblk7 V c 1 t : Vec Ideal S10000x64 .f32) (ix2 p q)
      = (V c main_v128 : S100000x64.Idx → Elt Ideal .f32) (ix2 ⟨t.val * 10000 + p.val, by have := lt7 t; omega⟩ q) := by
  obtain ⟨-, -, e0, e1, -⟩ := idx7 t
  unfold iblk7
  show (V c main_v128 : S100000x64.Idx → Elt Ideal .f32) _ = _
  congr 1
  funext a
  apply Fin.ext
  match a with
  | ⟨0, _⟩ => show win7_1.index t (0 : Fin 2) * 10000 + 1 * p.val = t.val * 10000 + p.val; rw [e0]; omega
  | ⟨1, _⟩ => show win7_1.index t (1 : Fin 2) * 64 + 1 * q.val = q.val; rw [e1]; omega

/-- Row p of the self-loop weights' block at point t is row 10000 t + p of the column. -/
theorem self7_apply (t : Fin cfg7.N) (p : Fin 10000) :
    (iblk7 V c 2 t : Vec Ideal S10000x1 .f32) (ix2 p (0 : Fin 1))
      = (V c main_v165 : S100000x1.Idx → Elt Ideal .f32) (ix2 ⟨t.val * 10000 + p.val, by have := lt7 t; omega⟩ (0 : Fin 1)) := by
  obtain ⟨-, -, -, -, e0, e1, -⟩ := idx7 t
  unfold iblk7
  show (V c main_v165 : S100000x1.Idx → Elt Ideal .f32) _ = _
  congr 1
  funext a
  apply Fin.ext
  match a with
  | ⟨0, _⟩ => show win7_2.index t (0 : Fin 2) * 10000 + 1 * p.val = t.val * 10000 + p.val; rw [e0]; omega
  | ⟨1, _⟩ => show win7_2.index t (1 : Fin 2) * 1 + 1 * 0 = 0; rw [e1]

/-- The bias row's block is the bias row, at every point. -/
theorem bias7_apply (t : Fin cfg7.N) (q : Fin 64) :
    (iblk7 V c 3 t : Vec Ideal S1x64 .f32) (ix2 (0 : Fin 1) q)
      = (V c main_v166 : S1x64.Idx → Elt Ideal .f32) (ix2 (0 : Fin 1) q) := by
  obtain ⟨-, -, -, -, -, -, e0, e1, -⟩ := idx7 t
  unfold iblk7
  show (V c main_v166 : S1x64.Idx → Elt Ideal .f32) _ = _
  congr 1
  funext a
  apply Fin.ext
  match a with
  | ⟨0, _⟩ => show win7_3.index t (0 : Fin 2) * 1 + 1 * 0 = 0; rw [e0]
  | ⟨1, _⟩ => show win7_3.index t (1 : Fin 2) * 64 + 1 * q.val = q.val; rw [e1]; omega

/-- Entry (p, q) of the result's block at point t lands at (10000 t + p, q) of the result array. -/
theorem place7 (t : Fin cfg7.N) (p : Fin 10000) (q : Fin 64) :
    (((cfg7.win 4).blk t).view.emb (ix2 p q) : S100000x64.Idx) = ix2 ⟨t.val * 10000 + p.val, by have := lt7 t; omega⟩ q := by
  obtain ⟨-, -, -, -, -, -, -, -, e0, e1⟩ := idx7 t
  funext a
  apply Fin.ext
  match a with
  | ⟨0, _⟩ => show win7_4.index t (0 : Fin 2) * 10000 + 1 * p.val = t.val * 10000 + p.val; rw [e0]; omega
  | ⟨1, _⟩ => show win7_4.index t (1 : Fin 2) * 64 + 1 * q.val = q.val; rw [e1]; omega

/-- What point t writes back is block t of the whole-array function: the body's value at (p, q) reads the four
    operands exactly where the whole-array function reads them at (10000 t + p, q). -/
theorem written7 (t : Fin cfg7.N) :
    (dat7 (F := Ideal) V c).flushed 4 t = ((cfg7.win 4).blk t).view.read (Elt Ideal)
      (Cert.Spec.finK (F := Ideal) (V c main_v163) (V c main_v128) (V c main_v165) (V c main_v166)) := by
  show (cfg7.win 4).cut (grid7.coords t) ((dat7 V c).after 4 t) = _
  rw [after7_4]
  unfold out7_4
  rw [View.canon_unit_zero zero_offsets]
  simp only [View.ld_unit_zero (S := S10000x64) zero_offsets, View.ld_unit_zero (S := S10000x1) zero_offsets, View.ld_unit_zero (S := S1x64) zero_offsets]
  funext j
  show k7_pay1 (iblk7 V c 0 t) (iblk7 V c 1 t) (iblk7 V c 2 t) (iblk7 V c 3 t) j
    = (Cert.Spec.finK (F := Ideal) (V c main_v163) (V c main_v128) (V c main_v165) (V c main_v166)) (((cfg7.win 4).blk t).view.emb j)
  obtain ⟨p, q, hj⟩ : ∃ (p : Fin 10000) (q : Fin 64), (j : S10000x64.Idx) = ix2 p q := ⟨j 0, j 1, eq_ix2 j⟩
  rw [hj, place7 t, body7_eq, body_apply, finK_apply, agg7_apply V c t, feat7_apply V c t, self7_apply V c t, bias7_apply V c t]

/-- An index of the result array is in point t's block iff, on each axis, it lies in the block's range. -/
theorem in_block7 (t : Fin cfg7.N) (i : S100000x64.Idx) :
    i ∈ ((cfg7.win 4).blk t).view.set ↔ ∀ a : Fin 2, win7_4.index t a * S10000x64.size a ≤ (i a).val ∧ (i a).val < win7_4.index t a * S10000x64.size a + S10000x64.size a := by
  show i ∈ ((View.whole main_v167).slice (win7_4.rect t)).set ↔ _
  rw [View.set_slice_whole, Rect.mem_set_unit]
  exact Iff.rfl

/-- Every row r of the result lies in the block of point r / 10000, and every point writes its block back. -/
theorem tiled7 (i : S100000x64.Idx) : ∃ t : Fin cfg7.N, (cfg7.win 4).flush t = true ∧ i ∈ ((cfg7.win 4).blk t).view.set := by
  have hi0 : (i 0).val < 100000 := (i 0).isLt
  have hi1 : (i 1).val < 64 := (i 1).isLt
  have ht : (i 0).val / 10000 < cfg7.N := by show _ < 10; omega
  obtain ⟨-, -, -, -, -, -, -, -, e0, e1⟩ := idx7 ⟨(i 0).val / 10000, ht⟩
  refine ⟨⟨(i 0).val / 10000, ht⟩, flush7_4 _, ?_⟩
  rw [in_block7]
  intro a
  match a with
  | ⟨0, _⟩ =>
    show win7_4.index ⟨(i 0).val / 10000, ht⟩ (0 : Fin 2) * 10000 ≤ (i 0).val ∧ (i 0).val < win7_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win7_4.index ⟨(i 0).val / 10000, ht⟩ (1 : Fin 2) * 64 ≤ (i 1).val ∧ (i 1).val < win7_4.index ⟨(i 0).val / 10000, ht⟩ (1 : Fin 2) * 64 + 64
    rw [e1]; omega

theorem array7 : (dat7 (F := Ideal) V c).arrAt 4 cfg7.N = Cert.Spec.finK (F := Ideal) (V c main_v163) (V c main_v128) (V c main_v165) (V c main_v166) :=
  (dat7 (F := Ideal) V c).arrAt_eq_of_cover 4 _ (fun t _ => written7 V c t) tiled7

end Finalize

/-! ## The four result arrays, and the reshaped operands -/

/-- The first view's first-layer finalize leaves max ((a + h * d) + b, 0) in its result array. -/
theorem arr1 : (dat1 (F := Ideal) V c).arrAt 4 cfg1.N = Cert.Spec.relu (Cert.Spec.finK (F := Ideal) (V c main_v39) (V c main_v4) (V c main_v41) (V c main_v42)) :=
  Finalize.array1 V c
/-- The first view's second-layer finalize leaves (a + h * d) + b. -/
theorem arr3 : (dat3 (F := Ideal) V c).arrAt 4 cfg3.N = Cert.Spec.finK (F := Ideal) (V c main_v79) (V c main_v44) (V c main_v81) (V c main_v82) :=
  Finalize.array3 V c
/-- The second view's first-layer finalize. -/
theorem arr5 : (dat5 (F := Ideal) V c).arrAt 4 cfg5.N = Cert.Spec.relu (Cert.Spec.finK (F := Ideal) (V c main_v123) (V c main_v88) (V c main_v125) (V c main_v126)) :=
  Finalize.array5 V c
/-- The second view's second-layer finalize. -/
theorem arr7 : (dat7 (F := Ideal) V c).arrAt 4 cfg7.N = Cert.Spec.finK (F := Ideal) (V c main_v163) (V c main_v128) (V c main_v165) (V c main_v166) :=
  Finalize.array7 V c

/-- The finalize step over the reshaped self-loop weights and bias is the reference's step over their broadcasts. -/
theorem finK_cast (a h : Cert.Spec.Nodes Ideal) (d2 : FVec Ideal Cert.ReferenceIdeal.S100000 .f32) (b : FVec Ideal Cert.ReferenceIdeal.S64 .f32) :
    Cert.Spec.finK (F := Ideal) a h (shapeCast Cert.ReferenceIdeal.S100000x1 d2 (by decide)) (shapeCast Cert.ReferenceIdeal.S1x64 b (by decide)) = Cert.Spec.selfBias (F := Ideal) a h d2 b := by
  unfold Cert.Spec.finK Cert.Spec.selfBias
  rw [Finalize.column_cast, Finalize.row_cast]

end Cert.KernelIdeal.Val

end
-- ==== Proof.KStats.lean ====
/-
  The two statistics calls' result rows, as whole-array column sums.

  Each call walks the 100000 rows of a view's network output h in ten blocks of 10000 rows and keeps two rows of 64
  numbers: at the first block both rows are set to zero, and at every block the block's column sums are added to the
  first row and the column sums of the squared entries to the second. The two rows stay in place from block to block
  and are written out once, after the last block. So after block n the first row holds, in column q, the sum of
  h (r, q) over the rows r < 10000 (n + 1), and after the last block the sum over all rows; likewise the second row
  with h (r, q)^2. Over the extended reals addition is commutative and associative and zero is neutral, so this running
  sum, block after block, is the one sum over all rows that the column reduction of the whole array takes from its
  zero initial value: no entry needs to be finite.

  The steps: what each case of the body leaves in the two rows (the reset followed by the accumulation at the first
  block, the accumulation alone at the others); the accumulation read at a column; a block's row k as row 10000 t + k
  of the array; the running sum by induction on the block; the one write-back, whose block is the whole row.
-/
import proofs.«417470_j56255481643393_2_alg».proof.Proof.Gen.KernelIdeal.Frame
import proofs.«417470_j56255481643393_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

namespace Cert.KernelIdeal.Val

open Idealize.ShloMosaic Idealize.ShloMosaic.TcCoe Idealize.SL.Sem Idealize.ShloMosaic.StableHlo
open Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b)) (c : Dev nD)

namespace Stats

/-! ## Sums over the rows of a [100000, 64] array, and the two reference rows at a column -/

/-- The offsets of a load or store of a whole buffer. -/
theorem cornerZero : (![0, 0] : Fin 2 → Nat) = fun _ => 0 := funext fun a => by fin_cases a <;> rfl

/-- In a block of 10000 rows, the index that the sum over the rows visits at row `k` for column `q` is `(k, q)`. -/
theorem lift_rows (k : Fin 10000) (q : Fin 64) :
    (reduces_S10000x64_S64.lift (ix1 q) k : S10000x64.Idx) = ix2 k q := by
  funext a
  match a with
  | ⟨0, _⟩ => rfl
  | ⟨1, _⟩ => rfl

/-- Entry `(r, q)` of a node array as a function of the natural number `r`, zero past the last row. -/
def entry (h : S100000x64.Idx → EReal) (q : Fin 64) (r : ℕ) : EReal :=
  if hr : r < 100000 then h (ix2 ⟨r, hr⟩ q) else 0

theorem entry_of_lt (h : S100000x64.Idx → EReal) (q : Fin 64) (r : ℕ) (hr : r < 100000) :
    entry h q r = h (ix2 ⟨r, hr⟩ q) := dif_pos hr

/-- Summed over the first 100000 naturals it is the column's sum over all rows. -/
theorem sum_entry_all (h : S100000x64.Idx → EReal) (q : Fin 64) :
    ∑ r ∈ Finset.range 100000, entry h q r = ∑ r : Fin 100000, h (ix2 r q) := by
  rw [Finset.sum_range]
  exact Finset.sum_congr rfl fun r _ => entry_of_lt h q r.val r.isLt

/-- One more block of 10000 rows: the sum over the rows below `10000 (n + 1)` is the sum over those below `10000 n`
    plus the sum over the next 10000. -/
theorem sum_entry_step (h : S100000x64.Idx → EReal) (q : Fin 64) (n : ℕ) :
    ∑ r ∈ Finset.range (10000 * (n + 1)), entry h q r
      = ∑ r ∈ Finset.range (10000 * n), entry h q r + ∑ k : Fin 10000, entry h q (10000 * n + k.val) := by
  rw [Nat.mul_succ, Finset.sum_range_add, Finset.sum_range fun x => entry h q (10000 * n + x)]

/-- The reference's sum runs over axis 0 of a [100000, 64] array. -/
theorem redR : Cert.ReferenceIdeal.S100000x64.Reduces [0] Cert.ReferenceIdeal.S64 := by decide

/-- The index it visits at row `r` for column `q` is `(r, q)`. -/
theorem lift_rowsR (r : Fin 100000) (q : Fin 64) :
    (redR.lift (ix1 q) r : Cert.ReferenceIdeal.S100000x64.Idx) = ix2 r q := by
  funext a
  match a with
  | ⟨0, _⟩ => rfl
  | ⟨1, _⟩ => rfl

/-- A column's sum as the reference takes it, from the initial value zero, is the sum over all rows. -/
theorem colSum_apply (h : FVec Ideal Cert.ReferenceIdeal.S100000x64 .f32) (q : Fin 64) :
    Cert.Spec.colSum (F := Ideal) h (ix1 q) = ∑ r : Fin 100000, h (ix2 r q) := by
  unfold Cert.Spec.colSum
  refine (hostReduceAdd_apply _ _ _ _ _).trans ?_
  refine (Ideal.hostReduceAdd_single _ redR _ _ (ix1 q)).trans ?_
  refine (congrArg₂ (· + ·) Ideal.ofBits_zero_f32
    (Finset.sum_congr rfl fun r _ => congrArg h (lift_rowsR r q))).trans ?_
  exact zero_add _

/-- A vector of 64 numbers laid out as a row [1, 64] reads, at `(0, q)`, the vector at `q`. -/
theorem row_of_col (v : FVec Ideal Cert.ReferenceIdeal.S64 .f32) (q : Fin 64) :
    broadcastInDim Cert.ReferenceIdeal.S1x64 ![1] Cert.ReferenceIdeal.Facts₀.bcast_S64_S1x64_1 v (ix2 (0 : Fin 1) q)
      = v (ix1 q) :=
  broadcastInDim_apply _ _ _ _ _ fun a => by
    match a with
    | ⟨0, _⟩ => show q.val = if (64 : ℕ) = 1 then 0 else q.val; rw [if_neg (by decide)]

/-- The row of column sums at column `q`. -/
theorem sumRow_apply (h : FVec Ideal Cert.ReferenceIdeal.S100000x64 .f32) (q : Fin 64) :
    Cert.Spec.sumRow (F := Ideal) h (ix2 (0 : Fin 1) q) = ∑ r : Fin 100000, h (ix2 r q) := by
  unfold Cert.Spec.sumRow
  exact (row_of_col _ q).trans (colSum_apply h q)

/-- The row of column sums of squares at column `q`. -/
theorem sqRow_apply (h : FVec Ideal Cert.ReferenceIdeal.S100000x64 .f32) (q : Fin 64) :
    Cert.Spec.sqRow (F := Ideal) h (ix2 (0 : Fin 1) q) = ∑ r : Fin 100000, h (ix2 r q) * h (ix2 r q) := by
  unfold Cert.Spec.sqRow
  exact (row_of_col _ q).trans (colSum_apply (mulf h h) q)

/-! ## The first statistics call (its input: the first view's network output)

What the body leaves in the two row buffers, case by case. At the first grid point both rows are set to zero and the
block's column sums (of the entries, of their squares) are added; at every later point they are added onto what the
point before left. -/

section Pieces8
variable {F : FTy → Type} [FloatOps F]

/-- A later point, first row: the row the point before left plus the block's column sums. -/
theorem out8_B_1_eq (d : Dev nD) (i : grid8.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond8_0 i) (x : Vec F S10000x64 .f32) (xo1 xo2 : Vec F S1x64 .f32) :
    out8_B_1 d i a1 h1 a2 h2 a3 h3 hc x xo1 xo2 = k8_pay4 x xo1 := by
  unfold out8_B_1
  rw [View.read_writes_eq_canon _ _ _ (cover8_B_1 d i a1 h1 a2 h2 a3 h3 hc x xo1 xo2)]
  unfold kernelRun8_B
  dsimp only
  sl_unfold_words
  rw [View.canon_unit_zero cornerZero]
  simp only [View.readAt_eq_ld, h1.read_unread, h2.read_unread, View.ld_unit_zero (S := S10000x64) cornerZero,
    View.ld_unit_zero (S := S1x64) cornerZero]

/-- A later point, second row: the row the point before left plus the block's column sums of squares. -/
theorem out8_B_2_eq (d : Dev nD) (i : grid8.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond8_0 i) (x : Vec F S10000x64 .f32) (xo1 xo2 : Vec F S1x64 .f32) :
    out8_B_2 d i a1 h1 a2 h2 a3 h3 hc x xo1 xo2 = k8_pay5 x xo2 := by
  unfold out8_B_2
  rw [View.read_writes_eq_canon _ _ _ (cover8_B_2 d i a1 h1 a2 h2 a3 h3 hc x xo1 xo2)]
  unfold kernelRun8_B
  dsimp only
  sl_unfold_words
  rw [View.canon_unit_zero cornerZero]
  simp only [View.readAt_eq_ld, h1.read_unread, h3.read_unread, View.ld_unit_zero (S := S10000x64) cornerZero,
    View.ld_unit_zero (S := S1x64) cornerZero]

/-- The first point, first row: the zero row, read back, plus the block's column sums. -/
theorem out8_A_1_eq (d : Dev nD) (i : grid8.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond8_0 i) (x : Vec F S10000x64 .f32) :
    out8_A_1 d i a1 h1 a2 h2 a3 h3 hc x = k8_pay4 x k8_pay1 := by
  unfold out8_A_1
  rw [View.read_writes_eq_canon _ _ _ (cover8_A_1 d i a1 h1 a2 h2 a3 h3 hc x)]
  unfold kernelRun8_A
  dsimp only
  sl_unfold_words
  rw [View.canon_cons_unit_zero (S := S1x64) cornerZero, View.readCov_unit_zero (S := S1x64) _ cornerZero]
  simp only [View.readAt_eq_ld, h1.read_unread, View.ld_unit_zero (S := S10000x64) cornerZero]

/-- The first point, second row: the zero row, read back, plus the block's column sums of squares. -/
theorem out8_A_2_eq (d : Dev nD) (i : grid8.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond8_0 i) (x : Vec F S10000x64 .f32) :
    out8_A_2 d i a1 h1 a2 h2 a3 h3 hc x = k8_pay5 x k8_pay2 := by
  unfold out8_A_2
  rw [View.read_writes_eq_canon _ _ _ (cover8_A_2 d i a1 h1 a2 h2 a3 h3 hc x)]
  unfold kernelRun8_A
  dsimp only
  sl_unfold_words
  rw [View.canon_cons_unit_zero (S := S1x64) cornerZero, View.readCov_unit_zero (S := S1x64) _ cornerZero]
  simp only [View.readAt_eq_ld, h1.read_unread, View.ld_unit_zero (S := S10000x64) cornerZero]

end Pieces8

/-- The row the first point starts from is zero everywhere. -/
theorem k8_pay1_apply (j : S1x64.Idx) : (k8_pay1 (F := Ideal)) j = 0 := by
  unfold k8_pay1
  exact Ideal.ofBits_zero_f32

/-- So is the second one. -/
theorem k8_pay2_apply (j : S1x64.Idx) : (k8_pay2 (F := Ideal)) j = 0 := by
  unfold k8_pay2
  exact Ideal.ofBits_zero_f32

/-- The accumulation step of the first row at column `q`: the old entry plus the sum of the block's column `q`. -/
theorem k8_pay4_apply (x : FVec Ideal S10000x64 .f32) (y : FVec Ideal S1x64 .f32) (q : Fin 64) :
    k8_pay4 (F := Ideal) x y (ix2 (0 : Fin 1) q) = y (ix2 (0 : Fin 1) q) + ∑ k : Fin 10000, x (ix2 k q) := by
  unfold k8_pay4 k8_pay3
  refine (addf_apply _ _ _).trans ?_
  refine congrArg₂ (· + ·) (congrFun (shapeCast_self y _) _) ?_
  refine (shapeCast_a_1a_apply _ _ (0 : Fin 1) q).trans ?_
  refine (Ideal.multiReduction_add_single _ _ reduces_S10000x64_S64 _ _ (ix1 q)).trans ?_
  refine Finset.sum_congr rfl fun k _ => ?_
  refine (congrFun (shapeCast_self x _) _).trans ?_
  exact congrArg x (lift_rows k q)

/-- The accumulation step of the second row at column `q`: the old entry plus the sum of the squares of the block's
    column `q`. -/
theorem k8_pay5_apply (x : FVec Ideal S10000x64 .f32) (y : FVec Ideal S1x64 .f32) (q : Fin 64) :
    k8_pay5 (F := Ideal) x y (ix2 (0 : Fin 1) q)
      = y (ix2 (0 : Fin 1) q) + ∑ k : Fin 10000, x (ix2 k q) * x (ix2 k q) := by
  unfold k8_pay5 k8_pay3
  refine (addf_apply _ _ _).trans ?_
  refine congrArg₂ (· + ·) (congrFun (shapeCast_self y _) _) ?_
  refine (shapeCast_a_1a_apply _ _ (0 : Fin 1) q).trans ?_
  refine (Ideal.multiReduction_add_single _ _ reduces_S10000x64_S64 _ _ (ix1 q)).trans ?_
  refine Finset.sum_congr rfl fun k _ => ?_
  refine (mulf_apply _ _ _).trans ?_
  have e : shapeCast S10000x64 x shapeCasts_S10000x64_S10000x64 (reduces_S10000x64_S64.lift (ix1 q) k) = x (ix2 k q) :=
    (congrFun (shapeCast_self x _) _).trans (congrArg x (lift_rows k q))
  exact congrArg₂ (· * ·) e e

/-- Where the windows' blocks lie: the input's block at point `t` is block `t` of the rows; each output row is its
    whole array at every point. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_1.xsize (grid8.coords t) (0 : Fin 2) = 1 ∧ win8_1.xsize (grid8.coords t) (1 : Fin 2) = 64
    ∧ win8_2.xsize (grid8.coords t) (0 : Fin 2) = 1 ∧ win8_2.xsize (grid8.coords t) (1 : Fin 2) = 64 :=
  (by decide +kernel : ∀ t : Fin grid8.N, _)

/-- The call's input array. -/
abbrev hin8 : FVec Ideal S100000x64 .f32 := V c main_v83
/-- Its block of 10000 rows at a grid point. -/
abbrev xblk8 (t : Fin cfg8.N) : FVec Ideal S10000x64 .f32 := iblk8 V c 0 t

/-- Row `k` of the block at point `t` is row `10000 t + k` of the array. -/
theorem xblk8_apply (t : Fin cfg8.N) (k : Fin 10000) (q : Fin 64) :
    xblk8 V c t (ix2 k q) = entry (hin8 V c) q (10000 * t.val + k.val) := by
  obtain ⟨e0, e1, -⟩ := idx8 t
  have hN : t.val < 10 := lt_of_lt_of_eq t.isLt (show cfg8.N = 10 from N_8)
  have hr : 10000 * t.val + k.val < 100000 := by have := k.isLt; omega
  rw [entry_of_lt _ _ _ hr]
  show ((cfg8.win 0).blk t).view.read (Elt Ideal) (V c main_v83) (ix2 k q) = V c main_v83 _
  rw [View.read_apply]
  refine congrArg (V c main_v83) (funext fun a => Fin.ext ?_)
  match a with
  | ⟨0, _⟩ => show win8_0.index t (0 : Fin 2) * 10000 + 1 * k.val = 10000 * t.val + k.val; omega
  | ⟨1, _⟩ => show win8_0.index t (1 : Fin 2) * 64 + 1 * q.val = q.val; omega

/-- The same for the squares. -/
theorem xblk8_sq (t : Fin cfg8.N) (k : Fin 10000) (q : Fin 64) :
    xblk8 V c t (ix2 k q) * xblk8 V c t (ix2 k q)
      = entry (mulf (hin8 V c) (hin8 V c)) q (10000 * t.val + k.val) := by
  have hN : t.val < 10 := lt_of_lt_of_eq t.isLt (show cfg8.N = 10 from N_8)
  have hr : 10000 * t.val + k.val < 100000 := by have := k.isLt; omega
  have e := xblk8_apply V c t k q
  rw [entry_of_lt _ _ _ hr] at e
  rw [entry_of_lt _ _ _ hr, e]
  rfl

/-- THE RUNNING SUM. After point `n` the first row holds, at column `q`, the sum of that column over the first
    `10000 (n + 1)` rows: at point 0 zero plus the first block's sum, at each later point the sum so far plus the next
    block's. -/
theorem outs8_1 (q : Fin 64) : ∀ (n : ℕ) (hn : n < cfg8.N),
    (outsAt8 V c n hn).1 (ix2 (0 : Fin 1) q) = ∑ r ∈ Finset.range (10000 * (n + 1)), entry (hin8 V c) q r
  | 0, hn => by
    rw [outsAt8_A V c ⟨0, hn⟩ rfl]
    dsimp only
    rw [out8_A_1_eq]
    refine (k8_pay4_apply (xblk8 V c ⟨0, hn⟩) (k8_pay1 (F := Ideal)) q).trans ?_
    rw [k8_pay1_apply, sum_entry_step, Nat.mul_zero, Finset.range_zero, Finset.sum_empty]
    exact congrArg₂ (· + ·) rfl (Finset.sum_congr rfl fun k _ => xblk8_apply V c ⟨0, hn⟩ k q)
  | n + 1, hn => by
    have hN : cfg8.N = 10 := N_8
    have hB : ¬(⟨n + 1, hn⟩ : Fin cfg8.N).val % 10 = 0 := by dsimp only; omega
    rw [outsAt8_B V c ⟨n + 1, hn⟩ hB]
    dsimp only
    rw [out8_B_1_eq]
    refine (k8_pay4_apply (xblk8 V c ⟨n + 1, hn⟩) (outsAt8 V c n (Nat.lt_of_succ_lt hn)).1 q).trans ?_
    rw [outs8_1 q n (Nat.lt_of_succ_lt hn), sum_entry_step _ _ (n + 1)]
    exact congrArg₂ (· + ·) rfl (Finset.sum_congr rfl fun k _ => xblk8_apply V c ⟨n + 1, hn⟩ k q)

/-- The second row likewise holds the running sum of the squares. -/
theorem outs8_2 (q : Fin 64) : ∀ (n : ℕ) (hn : n < cfg8.N),
    (outsAt8 V c n hn).2 (ix2 (0 : Fin 1) q)
      = ∑ r ∈ Finset.range (10000 * (n + 1)), entry (mulf (hin8 V c) (hin8 V c)) q r
  | 0, hn => by
    rw [outsAt8_A V c ⟨0, hn⟩ rfl]
    dsimp only
    rw [out8_A_2_eq]
    refine (k8_pay5_apply (xblk8 V c ⟨0, hn⟩) (k8_pay2 (F := Ideal)) q).trans ?_
    rw [k8_pay2_apply, sum_entry_step, Nat.mul_zero, Finset.range_zero, Finset.sum_empty]
    exact congrArg₂ (· + ·) rfl (Finset.sum_congr rfl fun k _ => xblk8_sq V c ⟨0, hn⟩ k q)
  | n + 1, hn => by
    have hN : cfg8.N = 10 := N_8
    have hB : ¬(⟨n + 1, hn⟩ : Fin cfg8.N).val % 10 = 0 := by dsimp only; omega
    rw [outsAt8_B V c ⟨n + 1, hn⟩ hB]
    dsimp only
    rw [out8_B_2_eq]
    refine (k8_pay5_apply (xblk8 V c ⟨n + 1, hn⟩) (outsAt8 V c n (Nat.lt_of_succ_lt hn)).2 q).trans ?_
    rw [outs8_2 q n (Nat.lt_of_succ_lt hn), sum_entry_step _ _ (n + 1)]
    exact congrArg₂ (· + ·) rfl (Finset.sum_congr rfl fun k _ => xblk8_sq V c ⟨n + 1, hn⟩ k q)

/-- The one write-back of the first row, after the last point, writes the column sums over all 100000 rows: the row's
    block is its whole array, and after point 9 the running sum has reached the last row. -/
theorem flushed8_1 (t : Fin cfg8.N) (hf : (cfg8.win 1).flush t = true) :
    (dat8 V c).flushed 1 t
      = ((cfg8.win 1).blk t).view.read (Elt Ideal) (Cert.Spec.sumRow (F := Ideal) (V c main_v83)) := by
  have hN : cfg8.N = 10 := N_8
  have h9 : t.val = 9 := by have := (flush8_1 t).mp hf; have := t.isLt; omega
  obtain ⟨-, -, e0, e1, -⟩ := idx8 t
  have hz' : (fun a => win8_1.index t a * main_v168_0.ty.shape.size a) = fun _ => 0 := funext fun a => by
    match a with
    | ⟨0, _⟩ => show win8_1.index t (0 : Fin 2) * 1 = 0; omega
    | ⟨1, _⟩ => show win8_1.index t (1 : Fin 2) * 64 = 0; omega
  show (cfg8.win 1).cut (grid8.coords t) ((dat8 V c).after 1 t) = _
  rw [after8_1]
  refine Eq.trans ?_ (Memref.read_access_unit_zero (Elt Ideal) main_v168_0 hz'
    (fun a => by rw [congrFun hz' a]; simp) (Cert.Spec.sumRow (F := Ideal) (V c main_v83))).symm
  funext j
  obtain ⟨u, q, rfl⟩ : ∃ (u : Fin 1) (q : Fin 64), j = ix2 u q := ⟨j 0, j 1, eq_ix2 j⟩
  obtain rfl : u = 0 := Subsingleton.elim _ _
  show (outsAt8 V c t.val t.isLt).1 (ix2 (0 : Fin 1) q) = _
  rw [outs8_1 V c q t.val t.isLt, h9, sumRow_apply]
  exact sum_entry_all (hin8 V c) q

/-- The one write-back of the second row writes the column sums of squares over all rows. -/
theorem flushed8_2 (t : Fin cfg8.N) (hf : (cfg8.win 2).flush t = true) :
    (dat8 V c).flushed 2 t
      = ((cfg8.win 2).blk t).view.read (Elt Ideal) (Cert.Spec.sqRow (F := Ideal) (V c main_v83)) := by
  have hN : cfg8.N = 10 := N_8
  have h9 : t.val = 9 := by have := (flush8_2 t).mp hf; have := t.isLt; omega
  obtain ⟨-, -, -, -, e0, e1, -⟩ := idx8 t
  have hz' : (fun a => win8_2.index t a * main_v168_1.ty.shape.size a) = fun _ => 0 := funext fun a => by
    match a with
    | ⟨0, _⟩ => show win8_2.index t (0 : Fin 2) * 1 = 0; omega
    | ⟨1, _⟩ => show win8_2.index t (1 : Fin 2) * 64 = 0; omega
  show (cfg8.win 2).cut (grid8.coords t) ((dat8 V c).after 2 t) = _
  rw [after8_2]
  refine Eq.trans ?_ (Memref.read_access_unit_zero (Elt Ideal) main_v168_1 hz'
    (fun a => by rw [congrFun hz' a]; simp) (Cert.Spec.sqRow (F := Ideal) (V c main_v83))).symm
  funext j
  obtain ⟨u, q, rfl⟩ : ∃ (u : Fin 1) (q : Fin 64), j = ix2 u q := ⟨j 0, j 1, eq_ix2 j⟩
  obtain rfl : u = 0 := Subsingleton.elim _ _
  show (outsAt8 V c t.val t.isLt).2 (ix2 (0 : Fin 1) q) = _
  rw [outs8_2 V c q t.val t.isLt, h9, sqRow_apply]
  exact sum_entry_all (mulf (hin8 V c) (hin8 V c)) q

/-- The first row's array after the call: the last point's write-back covers all of it. -/
theorem final8_1 : (dat8 (F := Ideal) V c).arrAt 1 cfg8.N = Cert.Spec.sumRow (F := Ideal) (V c main_v83) :=
  (dat8 V c).arrAt_eq_of_cover 1 (Cert.Spec.sumRow (F := Ideal) (V c main_v83)) (flushed8_1 V c) fun i =>
    ⟨t8_9, (flush8_1 t8_9).mpr rfl, by
      obtain ⟨-, -, e0, e1, -, -, s0, s1, -⟩ := idx8 t8_9
      show i ∈ ((View.whole main_v168_0).slice (win8_1.rect t8_9)).set
      rw [View.set_slice_whole, Rect.mem_set_unit]
      intro a
      have h0 : (i 0 : Nat) < 1 := (i 0).isLt
      have h1 : (i 1 : Nat) < 64 := (i 1).isLt
      match a with
      | ⟨0, _⟩ =>
        show win8_1.index t8_9 (0 : Fin 2) * 1 ≤ (i 0 : Nat)
          ∧ (i 0 : Nat) < win8_1.index t8_9 (0 : Fin 2) * 1 + win8_1.xsize (grid8.coords t8_9) (0 : Fin 2)
        rw [e0, s0]; omega
      | ⟨1, _⟩ =>
        show win8_1.index t8_9 (1 : Fin 2) * 64 ≤ (i 1 : Nat)
          ∧ (i 1 : Nat) < win8_1.index t8_9 (1 : Fin 2) * 64 + win8_1.xsize (grid8.coords t8_9) (1 : Fin 2)
        rw [e1, s1]; omega⟩

/-- The second row's array after the call. -/
theorem final8_2 : (dat8 (F := Ideal) V c).arrAt 2 cfg8.N = Cert.Spec.sqRow (F := Ideal) (V c main_v83) :=
  (dat8 V c).arrAt_eq_of_cover 2 (Cert.Spec.sqRow (F := Ideal) (V c main_v83)) (flushed8_2 V c) fun i =>
    ⟨t8_9, (flush8_2 t8_9).mpr rfl, by
      obtain ⟨-, -, -, -, e0, e1, -, -, s0, s1⟩ := idx8 t8_9
      show i ∈ ((View.whole main_v168_1).slice (win8_2.rect t8_9)).set
      rw [View.set_slice_whole, Rect.mem_set_unit]
      intro a
      have h0 : (i 0 : Nat) < 1 := (i 0).isLt
      have h1 : (i 1 : Nat) < 64 := (i 1).isLt
      match a with
      | ⟨0, _⟩ =>
        show win8_2.index t8_9 (0 : Fin 2) * 1 ≤ (i 0 : Nat)
          ∧ (i 0 : Nat) < win8_2.index t8_9 (0 : Fin 2) * 1 + win8_2.xsize (grid8.coords t8_9) (0 : Fin 2)
        rw [e0, s0]; omega
      | ⟨1, _⟩ =>
        show win8_2.index t8_9 (1 : Fin 2) * 64 ≤ (i 1 : Nat)
          ∧ (i 1 : Nat) < win8_2.index t8_9 (1 : Fin 2) * 64 + win8_2.xsize (grid8.coords t8_9) (1 : Fin 2)
        rw [e1, s1]; omega⟩

/-! ## The second statistics call (its input: the second view's network output): the same, name for name

What the body leaves in the two row buffers, case by case. At the first grid point both rows are set to zero and the
block's column sums (of the entries, of their squares) are added; at every later point they are added onto what the
point before left. -/

section Pieces10
variable {F : FTy → Type} [FloatOps F]

/-- A later point, first row: the row the point before left plus the block's column sums. -/
theorem out10_B_1_eq (d : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond10_0 i) (x : Vec F S10000x64 .f32) (xo1 xo2 : Vec F S1x64 .f32) :
    out10_B_1 d i a1 h1 a2 h2 a3 h3 hc x xo1 xo2 = k10_pay4 x xo1 := by
  unfold out10_B_1
  rw [View.read_writes_eq_canon _ _ _ (cover10_B_1 d i a1 h1 a2 h2 a3 h3 hc x xo1 xo2)]
  unfold kernelRun10_B
  dsimp only
  sl_unfold_words
  rw [View.canon_unit_zero cornerZero]
  simp only [View.readAt_eq_ld, h1.read_unread, h2.read_unread, View.ld_unit_zero (S := S10000x64) cornerZero,
    View.ld_unit_zero (S := S1x64) cornerZero]

/-- A later point, second row: the row the point before left plus the block's column sums of squares. -/
theorem out10_B_2_eq (d : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond10_0 i) (x : Vec F S10000x64 .f32) (xo1 xo2 : Vec F S1x64 .f32) :
    out10_B_2 d i a1 h1 a2 h2 a3 h3 hc x xo1 xo2 = k10_pay5 x xo2 := by
  unfold out10_B_2
  rw [View.read_writes_eq_canon _ _ _ (cover10_B_2 d i a1 h1 a2 h2 a3 h3 hc x xo1 xo2)]
  unfold kernelRun10_B
  dsimp only
  sl_unfold_words
  rw [View.canon_unit_zero cornerZero]
  simp only [View.readAt_eq_ld, h1.read_unread, h3.read_unread, View.ld_unit_zero (S := S10000x64) cornerZero,
    View.ld_unit_zero (S := S1x64) cornerZero]

/-- The first point, first row: the zero row, read back, plus the block's column sums. -/
theorem out10_A_1_eq (d : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond10_0 i) (x : Vec F S10000x64 .f32) :
    out10_A_1 d i a1 h1 a2 h2 a3 h3 hc x = k10_pay4 x k10_pay1 := by
  unfold out10_A_1
  rw [View.read_writes_eq_canon _ _ _ (cover10_A_1 d i a1 h1 a2 h2 a3 h3 hc x)]
  unfold kernelRun10_A
  dsimp only
  sl_unfold_words
  rw [View.canon_cons_unit_zero (S := S1x64) cornerZero, View.readCov_unit_zero (S := S1x64) _ cornerZero]
  simp only [View.readAt_eq_ld, h1.read_unread, View.ld_unit_zero (S := S10000x64) cornerZero]

/-- The first point, second row: the zero row, read back, plus the block's column sums of squares. -/
theorem out10_A_2_eq (d : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond10_0 i) (x : Vec F S10000x64 .f32) :
    out10_A_2 d i a1 h1 a2 h2 a3 h3 hc x = k10_pay5 x k10_pay2 := by
  unfold out10_A_2
  rw [View.read_writes_eq_canon _ _ _ (cover10_A_2 d i a1 h1 a2 h2 a3 h3 hc x)]
  unfold kernelRun10_A
  dsimp only
  sl_unfold_words
  rw [View.canon_cons_unit_zero (S := S1x64) cornerZero, View.readCov_unit_zero (S := S1x64) _ cornerZero]
  simp only [View.readAt_eq_ld, h1.read_unread, View.ld_unit_zero (S := S10000x64) cornerZero]

end Pieces10

/-- The row the first point starts from is zero everywhere. -/
theorem k10_pay1_apply (j : S1x64.Idx) : (k10_pay1 (F := Ideal)) j = 0 := by
  unfold k10_pay1
  exact Ideal.ofBits_zero_f32

/-- So is the second one. -/
theorem k10_pay2_apply (j : S1x64.Idx) : (k10_pay2 (F := Ideal)) j = 0 := by
  unfold k10_pay2
  exact Ideal.ofBits_zero_f32

/-- The accumulation step of the first row at column `q`: the old entry plus the sum of the block's column `q`. -/
theorem k10_pay4_apply (x : FVec Ideal S10000x64 .f32) (y : FVec Ideal S1x64 .f32) (q : Fin 64) :
    k10_pay4 (F := Ideal) x y (ix2 (0 : Fin 1) q) = y (ix2 (0 : Fin 1) q) + ∑ k : Fin 10000, x (ix2 k q) := by
  unfold k10_pay4 k10_pay3
  refine (addf_apply _ _ _).trans ?_
  refine congrArg₂ (· + ·) (congrFun (shapeCast_self y _) _) ?_
  refine (shapeCast_a_1a_apply _ _ (0 : Fin 1) q).trans ?_
  refine (Ideal.multiReduction_add_single _ _ reduces_S10000x64_S64 _ _ (ix1 q)).trans ?_
  refine Finset.sum_congr rfl fun k _ => ?_
  refine (congrFun (shapeCast_self x _) _).trans ?_
  exact congrArg x (lift_rows k q)

/-- The accumulation step of the second row at column `q`: the old entry plus the sum of the squares of the block's
    column `q`. -/
theorem k10_pay5_apply (x : FVec Ideal S10000x64 .f32) (y : FVec Ideal S1x64 .f32) (q : Fin 64) :
    k10_pay5 (F := Ideal) x y (ix2 (0 : Fin 1) q)
      = y (ix2 (0 : Fin 1) q) + ∑ k : Fin 10000, x (ix2 k q) * x (ix2 k q) := by
  unfold k10_pay5 k10_pay3
  refine (addf_apply _ _ _).trans ?_
  refine congrArg₂ (· + ·) (congrFun (shapeCast_self y _) _) ?_
  refine (shapeCast_a_1a_apply _ _ (0 : Fin 1) q).trans ?_
  refine (Ideal.multiReduction_add_single _ _ reduces_S10000x64_S64 _ _ (ix1 q)).trans ?_
  refine Finset.sum_congr rfl fun k _ => ?_
  refine (mulf_apply _ _ _).trans ?_
  have e : shapeCast S10000x64 x shapeCasts_S10000x64_S10000x64 (reduces_S10000x64_S64.lift (ix1 q) k) = x (ix2 k q) :=
    (congrFun (shapeCast_self x _) _).trans (congrArg x (lift_rows k q))
  exact congrArg₂ (· * ·) e e

/-- Where the windows' blocks lie: the input's block at point `t` is block `t` of the rows; each output row is its
    whole array at every point. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_1.xsize (grid10.coords t) (0 : Fin 2) = 1 ∧ win10_1.xsize (grid10.coords t) (1 : Fin 2) = 64
    ∧ win10_2.xsize (grid10.coords t) (0 : Fin 2) = 1 ∧ win10_2.xsize (grid10.coords t) (1 : Fin 2) = 64 :=
  (by decide +kernel : ∀ t : Fin grid10.N, _)

/-- The call's input array. -/
abbrev hin10 : FVec Ideal S100000x64 .f32 := V c main_v167
/-- Its block of 10000 rows at a grid point. -/
abbrev xblk10 (t : Fin cfg10.N) : FVec Ideal S10000x64 .f32 := iblk10 V c 0 t

/-- Row `k` of the block at point `t` is row `10000 t + k` of the array. -/
theorem xblk10_apply (t : Fin cfg10.N) (k : Fin 10000) (q : Fin 64) :
    xblk10 V c t (ix2 k q) = entry (hin10 V c) q (10000 * t.val + k.val) := by
  obtain ⟨e0, e1, -⟩ := idx10 t
  have hN : t.val < 10 := lt_of_lt_of_eq t.isLt (show cfg10.N = 10 from N_10)
  have hr : 10000 * t.val + k.val < 100000 := by have := k.isLt; omega
  rw [entry_of_lt _ _ _ hr]
  show ((cfg10.win 0).blk t).view.read (Elt Ideal) (V c main_v167) (ix2 k q) = V c main_v167 _
  rw [View.read_apply]
  refine congrArg (V c main_v167) (funext fun a => Fin.ext ?_)
  match a with
  | ⟨0, _⟩ => show win10_0.index t (0 : Fin 2) * 10000 + 1 * k.val = 10000 * t.val + k.val; omega
  | ⟨1, _⟩ => show win10_0.index t (1 : Fin 2) * 64 + 1 * q.val = q.val; omega

/-- The same for the squares. -/
theorem xblk10_sq (t : Fin cfg10.N) (k : Fin 10000) (q : Fin 64) :
    xblk10 V c t (ix2 k q) * xblk10 V c t (ix2 k q)
      = entry (mulf (hin10 V c) (hin10 V c)) q (10000 * t.val + k.val) := by
  have hN : t.val < 10 := lt_of_lt_of_eq t.isLt (show cfg10.N = 10 from N_10)
  have hr : 10000 * t.val + k.val < 100000 := by have := k.isLt; omega
  have e := xblk10_apply V c t k q
  rw [entry_of_lt _ _ _ hr] at e
  rw [entry_of_lt _ _ _ hr, e]
  rfl

/-- THE RUNNING SUM. After point `n` the first row holds, at column `q`, the sum of that column over the first
    `10000 (n + 1)` rows: at point 0 zero plus the first block's sum, at each later point the sum so far plus the next
    block's. -/
theorem outs10_1 (q : Fin 64) : ∀ (n : ℕ) (hn : n < cfg10.N),
    (outsAt10 V c n hn).1 (ix2 (0 : Fin 1) q) = ∑ r ∈ Finset.range (10000 * (n + 1)), entry (hin10 V c) q r
  | 0, hn => by
    rw [outsAt10_A V c ⟨0, hn⟩ rfl]
    dsimp only
    rw [out10_A_1_eq]
    refine (k10_pay4_apply (xblk10 V c ⟨0, hn⟩) (k10_pay1 (F := Ideal)) q).trans ?_
    rw [k10_pay1_apply, sum_entry_step, Nat.mul_zero, Finset.range_zero, Finset.sum_empty]
    exact congrArg₂ (· + ·) rfl (Finset.sum_congr rfl fun k _ => xblk10_apply V c ⟨0, hn⟩ k q)
  | n + 1, hn => by
    have hN : cfg10.N = 10 := N_10
    have hB : ¬(⟨n + 1, hn⟩ : Fin cfg10.N).val % 10 = 0 := by dsimp only; omega
    rw [outsAt10_B V c ⟨n + 1, hn⟩ hB]
    dsimp only
    rw [out10_B_1_eq]
    refine (k10_pay4_apply (xblk10 V c ⟨n + 1, hn⟩) (outsAt10 V c n (Nat.lt_of_succ_lt hn)).1 q).trans ?_
    rw [outs10_1 q n (Nat.lt_of_succ_lt hn), sum_entry_step _ _ (n + 1)]
    exact congrArg₂ (· + ·) rfl (Finset.sum_congr rfl fun k _ => xblk10_apply V c ⟨n + 1, hn⟩ k q)

/-- The second row likewise holds the running sum of the squares. -/
theorem outs10_2 (q : Fin 64) : ∀ (n : ℕ) (hn : n < cfg10.N),
    (outsAt10 V c n hn).2 (ix2 (0 : Fin 1) q)
      = ∑ r ∈ Finset.range (10000 * (n + 1)), entry (mulf (hin10 V c) (hin10 V c)) q r
  | 0, hn => by
    rw [outsAt10_A V c ⟨0, hn⟩ rfl]
    dsimp only
    rw [out10_A_2_eq]
    refine (k10_pay5_apply (xblk10 V c ⟨0, hn⟩) (k10_pay2 (F := Ideal)) q).trans ?_
    rw [k10_pay2_apply, sum_entry_step, Nat.mul_zero, Finset.range_zero, Finset.sum_empty]
    exact congrArg₂ (· + ·) rfl (Finset.sum_congr rfl fun k _ => xblk10_sq V c ⟨0, hn⟩ k q)
  | n + 1, hn => by
    have hN : cfg10.N = 10 := N_10
    have hB : ¬(⟨n + 1, hn⟩ : Fin cfg10.N).val % 10 = 0 := by dsimp only; omega
    rw [outsAt10_B V c ⟨n + 1, hn⟩ hB]
    dsimp only
    rw [out10_B_2_eq]
    refine (k10_pay5_apply (xblk10 V c ⟨n + 1, hn⟩) (outsAt10 V c n (Nat.lt_of_succ_lt hn)).2 q).trans ?_
    rw [outs10_2 q n (Nat.lt_of_succ_lt hn), sum_entry_step _ _ (n + 1)]
    exact congrArg₂ (· + ·) rfl (Finset.sum_congr rfl fun k _ => xblk10_sq V c ⟨n + 1, hn⟩ k q)

/-- The one write-back of the first row, after the last point, writes the column sums over all 100000 rows: the row's
    block is its whole array, and after point 9 the running sum has reached the last row. -/
theorem flushed10_1 (t : Fin cfg10.N) (hf : (cfg10.win 1).flush t = true) :
    (dat10 V c).flushed 1 t
      = ((cfg10.win 1).blk t).view.read (Elt Ideal) (Cert.Spec.sumRow (F := Ideal) (V c main_v167)) := by
  have hN : cfg10.N = 10 := N_10
  have h9 : t.val = 9 := by have := (flush10_1 t).mp hf; have := t.isLt; omega
  obtain ⟨-, -, e0, e1, -⟩ := idx10 t
  have hz' : (fun a => win10_1.index t a * main_v179_0.ty.shape.size a) = fun _ => 0 := funext fun a => by
    match a with
    | ⟨0, _⟩ => show win10_1.index t (0 : Fin 2) * 1 = 0; omega
    | ⟨1, _⟩ => show win10_1.index t (1 : Fin 2) * 64 = 0; omega
  show (cfg10.win 1).cut (grid10.coords t) ((dat10 V c).after 1 t) = _
  rw [after10_1]
  refine Eq.trans ?_ (Memref.read_access_unit_zero (Elt Ideal) main_v179_0 hz'
    (fun a => by rw [congrFun hz' a]; simp) (Cert.Spec.sumRow (F := Ideal) (V c main_v167))).symm
  funext j
  obtain ⟨u, q, rfl⟩ : ∃ (u : Fin 1) (q : Fin 64), j = ix2 u q := ⟨j 0, j 1, eq_ix2 j⟩
  obtain rfl : u = 0 := Subsingleton.elim _ _
  show (outsAt10 V c t.val t.isLt).1 (ix2 (0 : Fin 1) q) = _
  rw [outs10_1 V c q t.val t.isLt, h9, sumRow_apply]
  exact sum_entry_all (hin10 V c) q

/-- The one write-back of the second row writes the column sums of squares over all rows. -/
theorem flushed10_2 (t : Fin cfg10.N) (hf : (cfg10.win 2).flush t = true) :
    (dat10 V c).flushed 2 t
      = ((cfg10.win 2).blk t).view.read (Elt Ideal) (Cert.Spec.sqRow (F := Ideal) (V c main_v167)) := by
  have hN : cfg10.N = 10 := N_10
  have h9 : t.val = 9 := by have := (flush10_2 t).mp hf; have := t.isLt; omega
  obtain ⟨-, -, -, -, e0, e1, -⟩ := idx10 t
  have hz' : (fun a => win10_2.index t a * main_v179_1.ty.shape.size a) = fun _ => 0 := funext fun a => by
    match a with
    | ⟨0, _⟩ => show win10_2.index t (0 : Fin 2) * 1 = 0; omega
    | ⟨1, _⟩ => show win10_2.index t (1 : Fin 2) * 64 = 0; omega
  show (cfg10.win 2).cut (grid10.coords t) ((dat10 V c).after 2 t) = _
  rw [after10_2]
  refine Eq.trans ?_ (Memref.read_access_unit_zero (Elt Ideal) main_v179_1 hz'
    (fun a => by rw [congrFun hz' a]; simp) (Cert.Spec.sqRow (F := Ideal) (V c main_v167))).symm
  funext j
  obtain ⟨u, q, rfl⟩ : ∃ (u : Fin 1) (q : Fin 64), j = ix2 u q := ⟨j 0, j 1, eq_ix2 j⟩
  obtain rfl : u = 0 := Subsingleton.elim _ _
  show (outsAt10 V c t.val t.isLt).2 (ix2 (0 : Fin 1) q) = _
  rw [outs10_2 V c q t.val t.isLt, h9, sqRow_apply]
  exact sum_entry_all (mulf (hin10 V c) (hin10 V c)) q

/-- The first row's array after the call: the last point's write-back covers all of it. -/
theorem final10_1 : (dat10 (F := Ideal) V c).arrAt 1 cfg10.N = Cert.Spec.sumRow (F := Ideal) (V c main_v167) :=
  (dat10 V c).arrAt_eq_of_cover 1 (Cert.Spec.sumRow (F := Ideal) (V c main_v167)) (flushed10_1 V c) fun i =>
    ⟨t10_9, (flush10_1 t10_9).mpr rfl, by
      obtain ⟨-, -, e0, e1, -, -, s0, s1, -⟩ := idx10 t10_9
      show i ∈ ((View.whole main_v179_0).slice (win10_1.rect t10_9)).set
      rw [View.set_slice_whole, Rect.mem_set_unit]
      intro a
      have h0 : (i 0 : Nat) < 1 := (i 0).isLt
      have h1 : (i 1 : Nat) < 64 := (i 1).isLt
      match a with
      | ⟨0, _⟩ =>
        show win10_1.index t10_9 (0 : Fin 2) * 1 ≤ (i 0 : Nat)
          ∧ (i 0 : Nat) < win10_1.index t10_9 (0 : Fin 2) * 1 + win10_1.xsize (grid10.coords t10_9) (0 : Fin 2)
        rw [e0, s0]; omega
      | ⟨1, _⟩ =>
        show win10_1.index t10_9 (1 : Fin 2) * 64 ≤ (i 1 : Nat)
          ∧ (i 1 : Nat) < win10_1.index t10_9 (1 : Fin 2) * 64 + win10_1.xsize (grid10.coords t10_9) (1 : Fin 2)
        rw [e1, s1]; omega⟩

/-- The second row's array after the call. -/
theorem final10_2 : (dat10 (F := Ideal) V c).arrAt 2 cfg10.N = Cert.Spec.sqRow (F := Ideal) (V c main_v167) :=
  (dat10 V c).arrAt_eq_of_cover 2 (Cert.Spec.sqRow (F := Ideal) (V c main_v167)) (flushed10_2 V c) fun i =>
    ⟨t10_9, (flush10_2 t10_9).mpr rfl, by
      obtain ⟨-, -, -, -, e0, e1, -, -, s0, s1⟩ := idx10 t10_9
      show i ∈ ((View.whole main_v179_1).slice (win10_2.rect t10_9)).set
      rw [View.set_slice_whole, Rect.mem_set_unit]
      intro a
      have h0 : (i 0 : Nat) < 1 := (i 0).isLt
      have h1 : (i 1 : Nat) < 64 := (i 1).isLt
      match a with
      | ⟨0, _⟩ =>
        show win10_2.index t10_9 (0 : Fin 2) * 1 ≤ (i 0 : Nat)
          ∧ (i 0 : Nat) < win10_2.index t10_9 (0 : Fin 2) * 1 + win10_2.xsize (grid10.coords t10_9) (0 : Fin 2)
        rw [e0, s0]; omega
      | ⟨1, _⟩ =>
        show win10_2.index t10_9 (1 : Fin 2) * 64 ≤ (i 1 : Nat)
          ∧ (i 1 : Nat) < win10_2.index t10_9 (1 : Fin 2) * 64 + win10_2.xsize (grid10.coords t10_9) (1 : Fin 2)
        rw [e1, s1]; omega⟩

end Stats

theorem arr8_1 : (dat8 (F := Ideal) V c).arrAt 1 cfg8.N = Cert.Spec.sumRow (F := Ideal) (V c main_v83) :=
  Stats.final8_1 V c
theorem arr8_2 : (dat8 (F := Ideal) V c).arrAt 2 cfg8.N = Cert.Spec.sqRow (F := Ideal) (V c main_v83) :=
  Stats.final8_2 V c
theorem arr10_1 : (dat10 (F := Ideal) V c).arrAt 1 cfg10.N = Cert.Spec.sumRow (F := Ideal) (V c main_v167) :=
  Stats.final10_1 V c
theorem arr10_2 : (dat10 (F := Ideal) V c).arrAt 2 cfg10.N = Cert.Spec.sqRow (F := Ideal) (V c main_v167) :=
  Stats.final10_2 V c

end Cert.KernelIdeal.Val

end
-- ==== Proof.KNormalize.lean ====
/-
  The normalize calls' result arrays.

  Each normalize call walks the 100000 node rows in ten blocks of 10000.  At block t it is handed rows
  10000 t … 10000 t + 9999 of the feature array h (all 64 columns) and, whole, two one-row arrays: the column
  means mu and the reciprocal column deviations s.  It lays each row statistic along all 10000 rows of the
  block and writes  (h - mu) * s  into the same rows of the result.  So entry (10000 t + p, q) of the result is
      (h (10000 t + p, q) - mu (0, q)) * s (0, q),
  and since every row r lies in block r / 10000, the ten blocks together give that formula at every (r, q).
  The shared vocabulary's `normK h mu s` is the same formula on the whole array: the two rows are laid along all
  100000 rows, and entry (r, q) reads them at (0, q).  No law of arithmetic is used: the two sides are the same
  difference and the same product, entry by entry.
-/
import proofs.«417470_j56255481643393_2_alg».proof.Proof.Gen.KernelIdeal.Frame
import proofs.«417470_j56255481643393_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Val

open Idealize.ShloMosaic Idealize.ShloMosaic.TcCoe Idealize.SL.Sem Idealize.ShloMosaic.StableHlo
open Cert.KernelIdeal Cert.KernelIdeal.Gen
open Idealize.ShloMosaic.Pipeline (Dat)

variable (V : (c : Dev nD) → (b : Ref sig .tc) → Buf (Elt Ideal) ((c : Thread nD τ).loc b)) (c : Dev nD)

/-! ## What both calls share -/

/-- The body's one load per operand and its one store start at the block's corner. -/
theorem cornerOffsets : (![0, 0] : Fin 2 → Nat) = fun _ => 0 := funext fun a => by fin_cases a <;> rfl

/-- The whole-array formula at an entry: the row statistics are read at row 0 of the entry's column. -/
theorem normK_at (h : Cert.Spec.Nodes Ideal) (mu is : FVec Ideal S1x64 .f32) (r : Fin 100000) (q : Fin 64) :
    Cert.Spec.normK (F := Ideal) h mu is (ValueIdx.ix2 r q)
      = (h (ValueIdx.ix2 r q) - mu (ValueIdx.ix2 (0 : Fin 1) q)) * is (ValueIdx.ix2 (0 : Fin 1) q) := by
  unfold Cert.Spec.normK
  rw [ValueIdx.mulf_apply, ValueIdx.subf_apply, broadcastInDim_oneRow_apply, broadcastInDim_oneRow_apply]

/-! ## The first view's call -/

/-- The body's arithmetic at entry (p, q) of a block: the casts to the same shape change nothing, and a one-row
    operand laid along the block's rows is read at row 0. -/
theorem pay9_at (x0 : Vec Ideal S10000x64 .f32) (x1 x2 : Vec Ideal S1x64 .f32) (p : Fin 10000) (q : Fin 64) :
    k9_pay1 (F := Ideal) x0 x1 x2 (ValueIdx.ix2 p q)
      = (x0 (ValueIdx.ix2 p q) - x1 (ValueIdx.ix2 (0 : Fin 1) q)) * x2 (ValueIdx.ix2 (0 : Fin 1) q) := by
  unfold k9_pay1
  rw [ValueIdx.mulf_apply, ValueIdx.subf_apply, shapeCast_self, shapeCast_self, shapeCast_self,
    ValueIdx.broadcastTo_1b_ab_apply, ValueIdx.broadcastTo_1b_ab_apply]

/-- The block positions over the ten grid points: the feature block and the result block are block row t, column
    block 0; the two statistics rows are block (0, 0) at every point. -/
theorem blockIdx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- What point t writes back is block t of the whole-array formula: entry (p, q) of the block is entry
    (10000 t + p, q) of the feature array and of the result, and entry (0, q) of either statistics row. -/
theorem flushed9 (t : Fin cfg9.N) :
    (dat9 (F := Ideal) V c).flushed 3 t
      = ((cfg9.win 3).blk t).view.read (Elt Ideal) (Cert.Spec.normK (F := Ideal) (V c main_v83) (V c main_v170) (V c main_v177)) := by
  show (cfg9.win 3).cut (grid9.coords t) ((dat9 (F := Ideal) V c).after 3 t) = _
  rw [after9_3]
  unfold out9_3
  rw [View.canon_unit_zero cornerOffsets]
  simp only [View.ld_unit_zero (S := S10000x64) cornerOffsets, View.ld_unit_zero (S := S1x64) cornerOffsets]
  obtain ⟨e00, e01, e10, e11, e20, e21, e30, e31⟩ := blockIdx9 t
  have ht : t.val < 10 := t.isLt
  funext j
  obtain ⟨p, q, rfl⟩ : ∃ (p : Fin 10000) (q : Fin 64), j = ValueIdx.ix2 p q := ⟨j 0, j 1, ValueIdx.eq_ix2 j⟩
  show k9_pay1 (F := Ideal) (iblk9 V c 0 t) (iblk9 V c 1 t) (iblk9 V c 2 t) (ValueIdx.ix2 p q)
     = Cert.Spec.normK (F := Ideal) (V c main_v83) (V c main_v170) (V c main_v177) (((cfg9.win 3).blk t).view.emb (ValueIdx.ix2 p q))
  refine (pay9_at _ _ _ p q).trans ?_
  have hp : p.val < 10000 := p.isLt
  -- a block's coordinate on an axis is (block position) * (block extent) + the coordinate inside the block
  have hout : ((cfg9.win 3).blk t).view.emb (ValueIdx.ix2 p q) = ValueIdx.ix2 (⟨t.val * 10000 + p.val, by omega⟩ : Fin 100000) q := by
    funext a; apply Fin.ext
    match a with
    | ⟨0, _⟩ => show win9_3.index t (0 : Fin 2) * 10000 + 1 * p.val = t.val * 10000 + p.val; omega
    | ⟨1, _⟩ => show win9_3.index t (1 : Fin 2) * 64 + 1 * q.val = q.val; omega
  have h0 : iblk9 V c 0 t (ValueIdx.ix2 p q) = (V c main_v83 : S100000x64.Idx → EReal) (ValueIdx.ix2 (⟨t.val * 10000 + p.val, by omega⟩ : Fin 100000) q) := by
    show (V c main_v83 : S100000x64.Idx → EReal) (((cfg9.win 0).blk t).view.emb (ValueIdx.ix2 p q)) = _
    refine congrArg _ (funext fun a => Fin.ext ?_)
    match a with
    | ⟨0, _⟩ => show win9_0.index t (0 : Fin 2) * 10000 + 1 * p.val = t.val * 10000 + p.val; omega
    | ⟨1, _⟩ => show win9_0.index t (1 : Fin 2) * 64 + 1 * q.val = q.val; omega
  have h1 : iblk9 V c 1 t (ValueIdx.ix2 (0 : Fin 1) q) = (V c main_v170 : S1x64.Idx → EReal) (ValueIdx.ix2 (0 : Fin 1) q) := by
    show (V c main_v170 : S1x64.Idx → EReal) (((cfg9.win 1).blk t).view.emb (ValueIdx.ix2 (0 : Fin 1) q)) = _
    refine congrArg _ (funext fun a => Fin.ext ?_)
    match a with
    | ⟨0, _⟩ => show win9_1.index t (0 : Fin 2) * 1 + 1 * 0 = 0; omega
    | ⟨1, _⟩ => show win9_1.index t (1 : Fin 2) * 64 + 1 * q.val = q.val; omega
  have h2 : iblk9 V c 2 t (ValueIdx.ix2 (0 : Fin 1) q) = (V c main_v177 : S1x64.Idx → EReal) (ValueIdx.ix2 (0 : Fin 1) q) := by
    show (V c main_v177 : S1x64.Idx → EReal) (((cfg9.win 2).blk t).view.emb (ValueIdx.ix2 (0 : Fin 1) q)) = _
    refine congrArg _ (funext fun a => Fin.ext ?_)
    match a with
    | ⟨0, _⟩ => show win9_2.index t (0 : Fin 2) * 1 + 1 * 0 = 0; omega
    | ⟨1, _⟩ => show win9_2.index t (1 : Fin 2) * 64 + 1 * q.val = q.val; omega
  rw [hout, normK_at, h0, h1, h2]

/-- An entry lies in point t's result block iff, axis by axis, its coordinate is within the block's range. -/
theorem mem_outBlock9 (t : Fin cfg9.N) (i : S100000x64.Idx) :
    i ∈ ((cfg9.win 3).blk t).view.set ↔ ∀ a : Fin 2, win9_3.index t a * S10000x64.size a ≤ (i a).val ∧ (i a).val < win9_3.index t a * S10000x64.size a + S10000x64.size a := by
  show i ∈ ((View.whole main_v178).slice (win9_3.rect t)).set ↔ _
  rw [View.set_slice_whole, Rect.mem_set_unit]
  exact Iff.rfl

/-- Row r lies in the block of point r / 10000: ten blocks of 10000 rows fill the 100000 rows, all 64 columns each. -/
theorem covered9 (i : S100000x64.Idx) :
    ∃ t : Fin cfg9.N, (cfg9.win 3).flush t = true ∧ i ∈ ((cfg9.win 3).blk t).view.set := by
  have hi0 : (i 0).val < 100000 := (i 0).isLt
  have hi1 : (i 1).val < 64 := (i 1).isLt
  let t : Fin cfg9.N := ⟨(i 0).val / 10000, by show _ < 10; omega⟩
  obtain ⟨-, -, -, -, -, -, e30, e31⟩ := blockIdx9 t
  have tv : t.val = (i 0).val / 10000 := rfl
  refine ⟨t, flush9_3 t, ?_⟩
  rw [mem_outBlock9]
  intro a
  match a with
  | ⟨0, _⟩ => show win9_3.index t (0 : Fin 2) * 10000 ≤ (i 0).val ∧ (i 0).val < win9_3.index t (0 : Fin 2) * 10000 + 10000; omega
  | ⟨1, _⟩ => show win9_3.index t (1 : Fin 2) * 64 ≤ (i 1).val ∧ (i 1).val < win9_3.index t (1 : Fin 2) * 64 + 64; omega

/-- The first view's result array after all ten points is the whole-array formula of the arrays the call was handed. -/
theorem arr9 : (dat9 (F := Ideal) V c).arrAt 3 cfg9.N = Cert.Spec.normK (F := Ideal) (V c main_v83) (V c main_v170) (V c main_v177) :=
  (dat9 (F := Ideal) V c).arrAt_eq_of_cover 3 (Cert.Spec.normK (F := Ideal) (V c main_v83) (V c main_v170) (V c main_v177))
    (fun t _ => flushed9 V c t) covered9

/-! ## The second view's call (the same argument with the second call's names) -/

/-- The body's arithmetic at entry (p, q) of a block: the casts to the same shape change nothing, and a one-row
    operand laid along the block's rows is read at row 0. -/
theorem pay11_at (x0 : Vec Ideal S10000x64 .f32) (x1 x2 : Vec Ideal S1x64 .f32) (p : Fin 10000) (q : Fin 64) :
    k11_pay1 (F := Ideal) x0 x1 x2 (ValueIdx.ix2 p q)
      = (x0 (ValueIdx.ix2 p q) - x1 (ValueIdx.ix2 (0 : Fin 1) q)) * x2 (ValueIdx.ix2 (0 : Fin 1) q) := by
  unfold k11_pay1
  rw [ValueIdx.mulf_apply, ValueIdx.subf_apply, shapeCast_self, shapeCast_self, shapeCast_self,
    ValueIdx.broadcastTo_1b_ab_apply, ValueIdx.broadcastTo_1b_ab_apply]

/-- The block positions over the ten grid points: the feature block and the result block are block row t, column
    block 0; the two statistics rows are block (0, 0) at every point. -/
theorem blockIdx11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- What point t writes back is block t of the whole-array formula: entry (p, q) of the block is entry
    (10000 t + p, q) of the feature array and of the result, and entry (0, q) of either statistics row. -/
theorem flushed11 (t : Fin cfg11.N) :
    (dat11 (F := Ideal) V c).flushed 3 t
      = ((cfg11.win 3).blk t).view.read (Elt Ideal) (Cert.Spec.normK (F := Ideal) (V c main_v167) (V c main_v181) (V c main_v188)) := by
  show (cfg11.win 3).cut (grid11.coords t) ((dat11 (F := Ideal) V c).after 3 t) = _
  rw [after11_3]
  unfold out11_3
  rw [View.canon_unit_zero cornerOffsets]
  simp only [View.ld_unit_zero (S := S10000x64) cornerOffsets, View.ld_unit_zero (S := S1x64) cornerOffsets]
  obtain ⟨e00, e01, e10, e11, e20, e21, e30, e31⟩ := blockIdx11 t
  have ht : t.val < 10 := t.isLt
  funext j
  obtain ⟨p, q, rfl⟩ : ∃ (p : Fin 10000) (q : Fin 64), j = ValueIdx.ix2 p q := ⟨j 0, j 1, ValueIdx.eq_ix2 j⟩
  show k11_pay1 (F := Ideal) (iblk11 V c 0 t) (iblk11 V c 1 t) (iblk11 V c 2 t) (ValueIdx.ix2 p q)
     = Cert.Spec.normK (F := Ideal) (V c main_v167) (V c main_v181) (V c main_v188) (((cfg11.win 3).blk t).view.emb (ValueIdx.ix2 p q))
  refine (pay11_at _ _ _ p q).trans ?_
  have hp : p.val < 10000 := p.isLt
  -- a block's coordinate on an axis is (block position) * (block extent) + the coordinate inside the block
  have hout : ((cfg11.win 3).blk t).view.emb (ValueIdx.ix2 p q) = ValueIdx.ix2 (⟨t.val * 10000 + p.val, by omega⟩ : Fin 100000) q := by
    funext a; apply Fin.ext
    match a with
    | ⟨0, _⟩ => show win11_3.index t (0 : Fin 2) * 10000 + 1 * p.val = t.val * 10000 + p.val; omega
    | ⟨1, _⟩ => show win11_3.index t (1 : Fin 2) * 64 + 1 * q.val = q.val; omega
  have h0 : iblk11 V c 0 t (ValueIdx.ix2 p q) = (V c main_v167 : S100000x64.Idx → EReal) (ValueIdx.ix2 (⟨t.val * 10000 + p.val, by omega⟩ : Fin 100000) q) := by
    show (V c main_v167 : S100000x64.Idx → EReal) (((cfg11.win 0).blk t).view.emb (ValueIdx.ix2 p q)) = _
    refine congrArg _ (funext fun a => Fin.ext ?_)
    match a with
    | ⟨0, _⟩ => show win11_0.index t (0 : Fin 2) * 10000 + 1 * p.val = t.val * 10000 + p.val; omega
    | ⟨1, _⟩ => show win11_0.index t (1 : Fin 2) * 64 + 1 * q.val = q.val; omega
  have h1 : iblk11 V c 1 t (ValueIdx.ix2 (0 : Fin 1) q) = (V c main_v181 : S1x64.Idx → EReal) (ValueIdx.ix2 (0 : Fin 1) q) := by
    show (V c main_v181 : S1x64.Idx → EReal) (((cfg11.win 1).blk t).view.emb (ValueIdx.ix2 (0 : Fin 1) q)) = _
    refine congrArg _ (funext fun a => Fin.ext ?_)
    match a with
    | ⟨0, _⟩ => show win11_1.index t (0 : Fin 2) * 1 + 1 * 0 = 0; omega
    | ⟨1, _⟩ => show win11_1.index t (1 : Fin 2) * 64 + 1 * q.val = q.val; omega
  have h2 : iblk11 V c 2 t (ValueIdx.ix2 (0 : Fin 1) q) = (V c main_v188 : S1x64.Idx → EReal) (ValueIdx.ix2 (0 : Fin 1) q) := by
    show (V c main_v188 : S1x64.Idx → EReal) (((cfg11.win 2).blk t).view.emb (ValueIdx.ix2 (0 : Fin 1) q)) = _
    refine congrArg _ (funext fun a => Fin.ext ?_)
    match a with
    | ⟨0, _⟩ => show win11_2.index t (0 : Fin 2) * 1 + 1 * 0 = 0; omega
    | ⟨1, _⟩ => show win11_2.index t (1 : Fin 2) * 64 + 1 * q.val = q.val; omega
  rw [hout, normK_at, h0, h1, h2]

/-- An entry lies in point t's result block iff, axis by axis, its coordinate is within the block's range. -/
theorem mem_outBlock11 (t : Fin cfg11.N) (i : S100000x64.Idx) :
    i ∈ ((cfg11.win 3).blk t).view.set ↔ ∀ a : Fin 2, win11_3.index t a * S10000x64.size a ≤ (i a).val ∧ (i a).val < win11_3.index t a * S10000x64.size a + S10000x64.size a := by
  show i ∈ ((View.whole main_v189).slice (win11_3.rect t)).set ↔ _
  rw [View.set_slice_whole, Rect.mem_set_unit]
  exact Iff.rfl

/-- Row r lies in the block of point r / 10000: ten blocks of 10000 rows fill the 100000 rows, all 64 columns each. -/
theorem covered11 (i : S100000x64.Idx) :
    ∃ t : Fin cfg11.N, (cfg11.win 3).flush t = true ∧ i ∈ ((cfg11.win 3).blk t).view.set := by
  have hi0 : (i 0).val < 100000 := (i 0).isLt
  have hi1 : (i 1).val < 64 := (i 1).isLt
  let t : Fin cfg11.N := ⟨(i 0).val / 10000, by show _ < 10; omega⟩
  obtain ⟨-, -, -, -, -, -, e30, e31⟩ := blockIdx11 t
  have tv : t.val = (i 0).val / 10000 := rfl
  refine ⟨t, flush11_3 t, ?_⟩
  rw [mem_outBlock11]
  intro a
  match a with
  | ⟨0, _⟩ => show win11_3.index t (0 : Fin 2) * 10000 ≤ (i 0).val ∧ (i 0).val < win11_3.index t (0 : Fin 2) * 10000 + 10000; omega
  | ⟨1, _⟩ => show win11_3.index t (1 : Fin 2) * 64 ≤ (i 1).val ∧ (i 1).val < win11_3.index t (1 : Fin 2) * 64 + 64; omega

/-- The second view's result array after all ten points is the whole-array formula of the arrays the call was handed. -/
theorem arr11 : (dat11 (F := Ideal) V c).arrAt 3 cfg11.N = Cert.Spec.normK (F := Ideal) (V c main_v167) (V c main_v181) (V c main_v188) :=
  (dat11 (F := Ideal) V c).arrAt_eq_of_cover 3 (Cert.Spec.normK (F := Ideal) (V c main_v167) (V c main_v181) (V c main_v188))
    (fun t _ => flushed11 V c t) covered11

end Cert.KernelIdeal.Val

end
-- ==== Proof.KChain.lean ====
/-
  The kernel program's two result arrays as functions of its argument arrays.  The program is a run of twenty
  segments, host stretches and kernel calls in turn, and the contents of its buffers at the twenty-one boundaries
  are a fold through them.  A buffer's contents at a boundary are found by walking back: a kernel call leaves every
  buffer that is not one of its result arrays as it found it (its input arrays included), a host stretch leaves every
  buffer it does not write as it found it, a kernel call's result array is the whole-array function of its input
  arrays at the call's entry, and a host stretch's result is the shared vocabulary's function of what the stretch read.
  Walking back from the first result: it is the normalize call's (h - mean) * invstd, whose mean and reciprocal
  standard deviation rows the host computed from the statistics call's column sums and sums of squares of h, and h is
  the second finalize call's (a + q * d) + b with a the neighbour term of q, d the squared degree factors, b the
  second bias and q the second matmul's product of the first layer's result with the second weights; the first layer's
  result is max (., 0) of the first finalize call's value on the first matmul's product of the features with the first
  weights.  With the self-loop weights handed over as a column and the bias as a row, a finalize call's value is one
  graph convolution, so h is the two-layer network of the view's features and edge table, and the result is its
  z-score the kernel's way.  The second view runs through the later calls the same way, with the shared weights and
  biases carried further along the fold.
-/
import proofs.«417470_j56255481643393_2_alg».proof.Proof.KHost
import proofs.«417470_j56255481643393_2_alg».proof.Proof.KMatmul
import proofs.«417470_j56255481643393_2_alg».proof.Proof.KFinalize
import proofs.«417470_j56255481643393_2_alg».proof.Proof.KStats
import proofs.«417470_j56255481643393_2_alg».proof.Proof.KNormalize

noncomputable section

namespace Cert.KernelIdeal.Val

open Idealize.ShloMosaic Idealize.ShloMosaic.TcCoe Idealize.SL.Sem Idealize.ShloMosaic.StableHlo
open Cert.KernelIdeal Cert.KernelIdeal.Gen
open Idealize.ShloMosaic.Pipeline (Dat)

/-- A stretch of host operations leaves a buffer that none of them writes as it found it: the buffers the stretch
    writes are listed one by one, and each is told apart from the given one. -/
local macro "host_keeps " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! The launch arguments as core `c` holds them: the two views' features and edge tables, and the shared weights and
    biases of the two layers. -/
local notation "x₁" => m (Thread.loc (c : Thread nD τ) main_arg0)
local notation "e₁" => m (Thread.loc (c : Thread nD τ) main_arg1)
local notation "x₂" => m (Thread.loc (c : Thread nD τ) main_arg2)
local notation "e₂" => m (Thread.loc (c : Thread nD τ) main_arg3)
local notation "w₁" => m (Thread.loc (c : Thread nD τ) main_arg4)
local notation "b₁" => m (Thread.loc (c : Thread nD τ) main_arg5)
local notation "w₂" => m (Thread.loc (c : Thread nD τ) main_arg6)
local notation "b₂" => m (Thread.loc (c : Thread nD τ) main_arg7)
/-! Each view's edge sources and targets, its projected features, its first layer's result, that result projected,
    and its network output. -/
local notation "src₁" => Cert.Spec.srcOf e₁
local notation "dst₁" => Cert.Spec.dstOf e₁
local notation "p₁" => Cert.Spec.xw256 (F := Ideal) x₁ w₁
local notation "h₁" => Cert.Spec.relu (Cert.Spec.conv (F := Ideal) p₁ src₁ dst₁ b₁)
local notation "q₁" => Cert.Spec.xw64 (F := Ideal) h₁ w₂
local notation "g₁" => Cert.Spec.gcn (F := Ideal) x₁ e₁ w₁ b₁ w₂ b₂
local notation "src₂" => Cert.Spec.srcOf e₂
local notation "dst₂" => Cert.Spec.dstOf e₂
local notation "p₂" => Cert.Spec.xw256 (F := Ideal) x₂ w₁
local notation "h₂" => Cert.Spec.relu (Cert.Spec.conv (F := Ideal) p₂ src₂ dst₂ b₁)
local notation "q₂" => Cert.Spec.xw64 (F := Ideal) h₂ w₂
local notation "g₂" => Cert.Spec.gcn (F := Ideal) x₂ e₂ w₁ b₁ w₂ b₂

namespace Chain

/-- The self-loop and bias step on the neighbour term of h, with the squared degree factors handed over as a column
    and the bias as a row, is one graph convolution of h. -/
theorem finK_conv (h : Cert.Spec.Nodes Ideal) (src dst : Cert.Spec.Edges) (b : FVec Ideal Cert.ReferenceIdeal.S64 .f32) :
    Cert.Spec.finK (F := Ideal) (Cert.Spec.agg (F := Ideal) h src dst) h
        (shapeCast Cert.ReferenceIdeal.S100000x1 (Cert.Spec.dinv2 (F := Ideal) dst) (by decide))
        (shapeCast Cert.ReferenceIdeal.S1x64 b (by decide))
      = Cert.Spec.conv (F := Ideal) h src dst b :=
  finK_cast _ _ _ _

/-! ## View 1: the calls 0 to 3, 8 and 9

### The arguments, carried from the launch to the boundaries where view 1 reads them -/

theorem W1_arg0 : W1 m ρ c (Proc.devRef .tc main_arg0) = x₁ := host_keeps hostOps0 main_arg0
theorem W1_arg4 : W1 m ρ c (Proc.devRef .tc main_arg4) = w₁ := host_keeps hostOps0 main_arg4
theorem W2_arg5 : W2 m ρ c (Proc.devRef .tc main_arg5) = b₁ :=
  (W2_of_ne m ρ c main_arg5 (by decide)).trans (host_keeps hostOps0 main_arg5)
theorem W4_arg6 : W4 m ρ c (Proc.devRef .tc main_arg6) = w₂ :=
  (W4_of_ne m ρ c main_arg6 (by decide)).trans <| (host_keeps hostOps1 main_arg6).trans <|
    (W2_of_ne m ρ c main_arg6 (by decide)).trans (host_keeps hostOps0 main_arg6)
theorem W5_arg7 : W5 m ρ c (Proc.devRef .tc main_arg7) = b₂ :=
  (W5_of_ne m ρ c main_arg7 (by decide)).trans <| (W4_of_ne m ρ c main_arg7 (by decide)).trans <|
    (host_keeps hostOps1 main_arg7).trans <| (W2_of_ne m ρ c main_arg7 (by decide)).trans
      (host_keeps hostOps0 main_arg7)

/-! ### The edge table's two rows: made by the first host stretch, unchanged from there on -/

theorem W1_v1 : W1 m ρ c (Proc.devRef .tc main_v1) = src₁ := host0_src (W0 m ρ c)
theorem W1_v3 : W1 m ρ c (Proc.devRef .tc main_v3) = dst₁ := host0_dst (W0 m ρ c)
theorem W2_v1 : W2 m ρ c (Proc.devRef .tc main_v1) = src₁ :=
  (W2_of_ne m ρ c main_v1 (by decide)).trans (W1_v1 m ρ c)
theorem W2_v3 : W2 m ρ c (Proc.devRef .tc main_v3) = dst₁ :=
  (W2_of_ne m ρ c main_v3 (by decide)).trans (W1_v3 m ρ c)
theorem W5_v1 : W5 m ρ c (Proc.devRef .tc main_v1) = src₁ :=
  (W5_of_ne m ρ c main_v1 (by decide)).trans <| (W4_of_ne m ρ c main_v1 (by decide)).trans <|
    (host_keeps hostOps1 main_v1).trans (W2_v1 m ρ c)
theorem W5_v3 : W5 m ρ c (Proc.devRef .tc main_v3) = dst₁ :=
  (W5_of_ne m ρ c main_v3 (by decide)).trans <| (W4_of_ne m ρ c main_v3 (by decide)).trans <|
    (host_keeps hostOps1 main_v3).trans (W2_v3 m ρ c)

/-! ### The first layer: matmul, the host's neighbour term, finalize with max (., 0) -/

theorem W2_v4 : W2 m ρ c (Proc.devRef .tc main_v4) = p₁ := by
  rw [show W2 m ρ c (Proc.devRef .tc main_v4)
      = Cert.Spec.xw256 (F := Ideal) (W1 m ρ c (Proc.devRef .tc main_arg0)) (W1 m ρ c (Proc.devRef .tc main_arg4))
      from (W2_arr m ρ c 2).trans (arr0 (V1 m ρ) c), W1_arg0, W1_arg4]
theorem W3_v4 : W3 m ρ c (Proc.devRef .tc main_v4) = p₁ :=
  (host_keeps hostOps1 main_v4).trans (W2_v4 m ρ c)
theorem W3_v39 : W3 m ρ c (Proc.devRef .tc main_v39) = Cert.Spec.agg (F := Ideal) p₁ src₁ dst₁ :=
  (host1_agg (W2 m ρ c)).trans (by rw [W2_v4, W2_v1, W2_v3])
theorem W3_v41 : W3 m ρ c (Proc.devRef .tc main_v41)
    = shapeCast Cert.ReferenceIdeal.S100000x1 (Cert.Spec.dinv2 (F := Ideal) dst₁) (by decide) :=
  (host1_col (W2 m ρ c)).trans (by rw [W2_v3])
theorem W3_v42 : W3 m ρ c (Proc.devRef .tc main_v42)
    = shapeCast (s := Cert.ReferenceIdeal.S64) (α := Ideal .f32) Cert.ReferenceIdeal.S1x64 b₁ (by decide) :=
  (host1_row (W2 m ρ c)).trans
    (congrArg (fun v : FVec Ideal Cert.ReferenceIdeal.S64 .f32 => shapeCast Cert.ReferenceIdeal.S1x64 v (by decide))
      (W2_arg5 m ρ c))
theorem W4_v43 : W4 m ρ c (Proc.devRef .tc main_v43) = h₁ := by
  rw [show W4 m ρ c (Proc.devRef .tc main_v43)
      = Cert.Spec.relu (Cert.Spec.finK (F := Ideal) (W3 m ρ c (Proc.devRef .tc main_v39))
          (W3 m ρ c (Proc.devRef .tc main_v4)) (W3 m ρ c (Proc.devRef .tc main_v41))
          (W3 m ρ c (Proc.devRef .tc main_v42)))
      from (W4_arr m ρ c 4).trans (arr1 (V3 m ρ) c), W3_v39, W3_v4, W3_v41, W3_v42, finK_conv]

/-! ### The second layer: matmul, the host's neighbour term, finalize -/

theorem W5_v44 : W5 m ρ c (Proc.devRef .tc main_v44) = q₁ := by
  rw [show W5 m ρ c (Proc.devRef .tc main_v44)
      = Cert.Spec.xw64 (F := Ideal) (W4 m ρ c (Proc.devRef .tc main_v43)) (W4 m ρ c (Proc.devRef .tc main_arg6))
      from (W5_arr m ρ c 2).trans (arr2 (V4 m ρ) c), W4_v43, W4_arg6]
theorem W6_v44 : W6 m ρ c (Proc.devRef .tc main_v44) = q₁ :=
  (host_keeps hostOps3 main_v44).trans (W5_v44 m ρ c)
theorem W6_v79 : W6 m ρ c (Proc.devRef .tc main_v79) = Cert.Spec.agg (F := Ideal) q₁ src₁ dst₁ :=
  (host3_agg (W5 m ρ c)).trans (by rw [W5_v44, W5_v1, W5_v3])
theorem W6_v81 : W6 m ρ c (Proc.devRef .tc main_v81)
    = shapeCast Cert.ReferenceIdeal.S100000x1 (Cert.Spec.dinv2 (F := Ideal) dst₁) (by decide) :=
  (host3_col (W5 m ρ c)).trans (by rw [W5_v3])
theorem W6_v82 : W6 m ρ c (Proc.devRef .tc main_v82)
    = shapeCast (s := Cert.ReferenceIdeal.S64) (α := Ideal .f32) Cert.ReferenceIdeal.S1x64 b₂ (by decide) :=
  (host3_row (W5 m ρ c)).trans
    (congrArg (fun v : FVec Ideal Cert.ReferenceIdeal.S64 .f32 => shapeCast Cert.ReferenceIdeal.S1x64 v (by decide))
      (W5_arg7 m ρ c))
theorem W7_v83_conv : W7 m ρ c (Proc.devRef .tc main_v83) = Cert.Spec.conv (F := Ideal) q₁ src₁ dst₁ b₂ := by
  rw [show W7 m ρ c (Proc.devRef .tc main_v83)
      = Cert.Spec.finK (F := Ideal) (W6 m ρ c (Proc.devRef .tc main_v79))
          (W6 m ρ c (Proc.devRef .tc main_v44)) (W6 m ρ c (Proc.devRef .tc main_v81))
          (W6 m ρ c (Proc.devRef .tc main_v82))
      from (W7_arr m ρ c 4).trans (arr3 (V6 m ρ) c), W6_v79, W6_v44, W6_v81, W6_v82, finK_conv]
/-- The second finalize call's result is the two-layer network on view 1 (the network's definition, unfolded). -/
theorem W7_v83 : W7 m ρ c (Proc.devRef .tc main_v83) = g₁ := W7_v83_conv m ρ c

/-! ### The network output, carried past view 2's calls to the statistics call and through it to the normalize call -/

theorem W14_v83 : W14 m ρ c (Proc.devRef .tc main_v83) = g₁ :=
  (W14_of_ne m ρ c main_v83 (by decide)).trans <| (host_keeps hostOps7 main_v83).trans <|
    (W12_of_ne m ρ c main_v83 (by decide)).trans <| (W11_of_ne m ρ c main_v83 (by decide)).trans <|
    (host_keeps hostOps5 main_v83).trans <| (W9_of_ne m ρ c main_v83 (by decide)).trans <|
    (host_keeps hostOps4 main_v83).trans (W7_v83 m ρ c)
theorem W16_v83 : W16 m ρ c (Proc.devRef .tc main_v83) = g₁ :=
  (host_keeps hostOps9 main_v83).trans <|
    ((W15_arr m ρ c 0).trans (((dat8 (V14 m ρ) c).arrAt_in 0 rfl _).trans (A_eq8 (V14 m ρ) c 0))).trans
      (W14_v83 m ρ c)

/-! ### The z-score: the column sums and sums of squares, the host's mean and reciprocal standard deviation, normalize -/

theorem W15_v168_0 : W15 m ρ c (Proc.devRef .tc main_v168_0) = Cert.Spec.sumRow (F := Ideal) g₁ := by
  rw [show W15 m ρ c (Proc.devRef .tc main_v168_0)
      = Cert.Spec.sumRow (F := Ideal) (W14 m ρ c (Proc.devRef .tc main_v83))
      from (W15_arr m ρ c 1).trans (arr8_1 (V14 m ρ) c), W14_v83]
theorem W15_v168_1 : W15 m ρ c (Proc.devRef .tc main_v168_1) = Cert.Spec.sqRow (F := Ideal) g₁ := by
  rw [show W15 m ρ c (Proc.devRef .tc main_v168_1)
      = Cert.Spec.sqRow (F := Ideal) (W14 m ρ c (Proc.devRef .tc main_v83))
      from (W15_arr m ρ c 2).trans (arr8_2 (V14 m ρ) c), W14_v83]
theorem W16_v170 : W16 m ρ c (Proc.devRef .tc main_v170)
    = Cert.Spec.meanK (F := Ideal) (Cert.Spec.sumRow (F := Ideal) g₁) :=
  (host9_mean (W15 m ρ c)).trans (by rw [W15_v168_0])
theorem W16_v177 : W16 m ρ c (Proc.devRef .tc main_v177)
    = Cert.Spec.invStdK (F := Ideal) (Cert.Spec.sumRow (F := Ideal) g₁) (Cert.Spec.sqRow (F := Ideal) g₁) :=
  (host9_invstd (W15 m ρ c)).trans (by rw [W15_v168_0, W15_v168_1])
theorem W17_v178 : W17 m ρ c (Proc.devRef .tc main_v178)
    = Cert.Spec.normK (F := Ideal) g₁ (Cert.Spec.meanK (F := Ideal) (Cert.Spec.sumRow (F := Ideal) g₁))
        (Cert.Spec.invStdK (F := Ideal) (Cert.Spec.sumRow (F := Ideal) g₁) (Cert.Spec.sqRow (F := Ideal) g₁)) := by
  rw [show W17 m ρ c (Proc.devRef .tc main_v178)
      = Cert.Spec.normK (F := Ideal) (W16 m ρ c (Proc.devRef .tc main_v83))
          (W16 m ρ c (Proc.devRef .tc main_v170)) (W16 m ρ c (Proc.devRef .tc main_v177))
      from (W17_arr m ρ c 3).trans (arr9 (V16 m ρ) c), W16_v83, W16_v170, W16_v177]

/-! ## View 2: the calls 4 to 7, 10 and 11

### The arguments, carried from the launch to the boundaries where view 2 reads them: the shared ones from where
    view 1 read them (two of them through a call of view 1 that reads them too) -/

theorem W7_arg3 : W7 m ρ c (Proc.devRef .tc main_arg3) = e₂ :=
  (W7_of_ne m ρ c main_arg3 (by decide)).trans <| (host_keeps hostOps3 main_arg3).trans <|
    (W5_of_ne m ρ c main_arg3 (by decide)).trans <| (W4_of_ne m ρ c main_arg3 (by decide)).trans <|
    (host_keeps hostOps1 main_arg3).trans <| (W2_of_ne m ρ c main_arg3 (by decide)).trans
      (host_keeps hostOps0 main_arg3)
theorem W8_arg2 : W8 m ρ c (Proc.devRef .tc main_arg2) = x₂ :=
  (host_keeps hostOps4 main_arg2).trans <|
    (W7_of_ne m ρ c main_arg2 (by decide)).trans <| (host_keeps hostOps3 main_arg2).trans <|
    (W5_of_ne m ρ c main_arg2 (by decide)).trans <| (W4_of_ne m ρ c main_arg2 (by decide)).trans <|
    (host_keeps hostOps1 main_arg2).trans <| (W2_of_ne m ρ c main_arg2 (by decide)).trans
      (host_keeps hostOps0 main_arg2)
theorem W8_arg4 : W8 m ρ c (Proc.devRef .tc main_arg4) = w₁ :=
  (host_keeps hostOps4 main_arg4).trans <|
    (W7_of_ne m ρ c main_arg4 (by decide)).trans <| (host_keeps hostOps3 main_arg4).trans <|
    (W5_of_ne m ρ c main_arg4 (by decide)).trans <| (W4_of_ne m ρ c main_arg4 (by decide)).trans <|
    (host_keeps hostOps1 main_arg4).trans <|
    ((W2_arr m ρ c 1).trans (((dat0 (V1 m ρ) c).arrAt_in 1 rfl _).trans (A_eq0 (V1 m ρ) c 1))).trans
      (W1_arg4 m ρ c)
theorem W9_arg5 : W9 m ρ c (Proc.devRef .tc main_arg5) = b₁ :=
  (W9_of_ne m ρ c main_arg5 (by decide)).trans <| (host_keeps hostOps4 main_arg5).trans <|
    (W7_of_ne m ρ c main_arg5 (by decide)).trans <| (host_keeps hostOps3 main_arg5).trans <|
    (W5_of_ne m ρ c main_arg5 (by decide)).trans <| (W4_of_ne m ρ c main_arg5 (by decide)).trans <|
    (host_keeps hostOps1 main_arg5).trans (W2_arg5 m ρ c)
theorem W11_arg6 : W11 m ρ c (Proc.devRef .tc main_arg6) = w₂ :=
  (W11_of_ne m ρ c main_arg6 (by decide)).trans <| (host_keeps hostOps5 main_arg6).trans <|
    (W9_of_ne m ρ c main_arg6 (by decide)).trans <| (host_keeps hostOps4 main_arg6).trans <|
    (W7_of_ne m ρ c main_arg6 (by decide)).trans <| (host_keeps hostOps3 main_arg6).trans <|
    ((W5_arr m ρ c 1).trans (((dat2 (V4 m ρ) c).arrAt_in 1 rfl _).trans (A_eq2 (V4 m ρ) c 1))).trans
      (W4_arg6 m ρ c)
theorem W12_arg7 : W12 m ρ c (Proc.devRef .tc main_arg7) = b₂ :=
  (W12_of_ne m ρ c main_arg7 (by decide)).trans <| (W11_of_ne m ρ c main_arg7 (by decide)).trans <|
    (host_keeps hostOps5 main_arg7).trans <| (W9_of_ne m ρ c main_arg7 (by decide)).trans <|
    (host_keeps hostOps4 main_arg7).trans <| (W7_of_ne m ρ c main_arg7 (by decide)).trans <|
    (host_keeps hostOps3 main_arg7).trans (W5_arg7 m ρ c)

/-! ### The edge table's two rows: made by the host stretch before view 2's first call, unchanged from there on -/

theorem W8_v85 : W8 m ρ c (Proc.devRef .tc main_v85) = src₂ :=
  (host4_src (W7 m ρ c)).trans (by rw [W7_arg3])
theorem W8_v87 : W8 m ρ c (Proc.devRef .tc main_v87) = dst₂ :=
  (host4_dst (W7 m ρ c)).trans (by rw [W7_arg3])
theorem W9_v85 : W9 m ρ c (Proc.devRef .tc main_v85) = src₂ :=
  (W9_of_ne m ρ c main_v85 (by decide)).trans (W8_v85 m ρ c)
theorem W9_v87 : W9 m ρ c (Proc.devRef .tc main_v87) = dst₂ :=
  (W9_of_ne m ρ c main_v87 (by decide)).trans (W8_v87 m ρ c)
theorem W12_v85 : W12 m ρ c (Proc.devRef .tc main_v85) = src₂ :=
  (W12_of_ne m ρ c main_v85 (by decide)).trans <| (W11_of_ne m ρ c main_v85 (by decide)).trans <|
    (host_keeps hostOps5 main_v85).trans (W9_v85 m ρ c)
theorem W12_v87 : W12 m ρ c (Proc.devRef .tc main_v87) = dst₂ :=
  (W12_of_ne m ρ c main_v87 (by decide)).trans <| (W11_of_ne m ρ c main_v87 (by decide)).trans <|
    (host_keeps hostOps5 main_v87).trans (W9_v87 m ρ c)

/-! ### The first layer: matmul, the host's neighbour term, finalize with max (., 0) -/

theorem W9_v88 : W9 m ρ c (Proc.devRef .tc main_v88) = p₂ := by
  rw [show W9 m ρ c (Proc.devRef .tc main_v88)
      = Cert.Spec.xw256 (F := Ideal) (W8 m ρ c (Proc.devRef .tc main_arg2)) (W8 m ρ c (Proc.devRef .tc main_arg4))
      from (W9_arr m ρ c 2).trans (arr4 (V8 m ρ) c), W8_arg2, W8_arg4]
theorem W10_v88 : W10 m ρ c (Proc.devRef .tc main_v88) = p₂ :=
  (host_keeps hostOps5 main_v88).trans (W9_v88 m ρ c)
theorem W10_v123 : W10 m ρ c (Proc.devRef .tc main_v123) = Cert.Spec.agg (F := Ideal) p₂ src₂ dst₂ :=
  (host5_agg (W9 m ρ c)).trans (by rw [W9_v88, W9_v85, W9_v87])
theorem W10_v125 : W10 m ρ c (Proc.devRef .tc main_v125)
    = shapeCast Cert.ReferenceIdeal.S100000x1 (Cert.Spec.dinv2 (F := Ideal) dst₂) (by decide) :=
  (host5_col (W9 m ρ c)).trans (by rw [W9_v87])
theorem W10_v126 : W10 m ρ c (Proc.devRef .tc main_v126)
    = shapeCast (s := Cert.ReferenceIdeal.S64) (α := Ideal .f32) Cert.ReferenceIdeal.S1x64 b₁ (by decide) :=
  (host5_row (W9 m ρ c)).trans
    (congrArg (fun v : FVec Ideal Cert.ReferenceIdeal.S64 .f32 => shapeCast Cert.ReferenceIdeal.S1x64 v (by decide))
      (W9_arg5 m ρ c))
theorem W11_v127 : W11 m ρ c (Proc.devRef .tc main_v127) = h₂ := by
  rw [show W11 m ρ c (Proc.devRef .tc main_v127)
      = Cert.Spec.relu (Cert.Spec.finK (F := Ideal) (W10 m ρ c (Proc.devRef .tc main_v123))
          (W10 m ρ c (Proc.devRef .tc main_v88)) (W10 m ρ c (Proc.devRef .tc main_v125))
          (W10 m ρ c (Proc.devRef .tc main_v126)))
      from (W11_arr m ρ c 4).trans (arr5 (V10 m ρ) c), W10_v123, W10_v88, W10_v125, W10_v126, finK_conv]

/-! ### The second layer: matmul, the host's neighbour term, finalize -/

theorem W12_v128 : W12 m ρ c (Proc.devRef .tc main_v128) = q₂ := by
  rw [show W12 m ρ c (Proc.devRef .tc main_v128)
      = Cert.Spec.xw64 (F := Ideal) (W11 m ρ c (Proc.devRef .tc main_v127)) (W11 m ρ c (Proc.devRef .tc main_arg6))
      from (W12_arr m ρ c 2).trans (arr6 (V11 m ρ) c), W11_v127, W11_arg6]
theorem W13_v128 : W13 m ρ c (Proc.devRef .tc main_v128) = q₂ :=
  (host_keeps hostOps7 main_v128).trans (W12_v128 m ρ c)
theorem W13_v163 : W13 m ρ c (Proc.devRef .tc main_v163) = Cert.Spec.agg (F := Ideal) q₂ src₂ dst₂ :=
  (host7_agg (W12 m ρ c)).trans (by rw [W12_v128, W12_v85, W12_v87])
theorem W13_v165 : W13 m ρ c (Proc.devRef .tc main_v165)
    = shapeCast Cert.ReferenceIdeal.S100000x1 (Cert.Spec.dinv2 (F := Ideal) dst₂) (by decide) :=
  (host7_col (W12 m ρ c)).trans (by rw [W12_v87])
theorem W13_v166 : W13 m ρ c (Proc.devRef .tc main_v166)
    = shapeCast (s := Cert.ReferenceIdeal.S64) (α := Ideal .f32) Cert.ReferenceIdeal.S1x64 b₂ (by decide) :=
  (host7_row (W12 m ρ c)).trans
    (congrArg (fun v : FVec Ideal Cert.ReferenceIdeal.S64 .f32 => shapeCast Cert.ReferenceIdeal.S1x64 v (by decide))
      (W12_arg7 m ρ c))
theorem W14_v167_conv : W14 m ρ c (Proc.devRef .tc main_v167) = Cert.Spec.conv (F := Ideal) q₂ src₂ dst₂ b₂ := by
  rw [show W14 m ρ c (Proc.devRef .tc main_v167)
      = Cert.Spec.finK (F := Ideal) (W13 m ρ c (Proc.devRef .tc main_v163))
          (W13 m ρ c (Proc.devRef .tc main_v128)) (W13 m ρ c (Proc.devRef .tc main_v165))
          (W13 m ρ c (Proc.devRef .tc main_v166))
      from (W14_arr m ρ c 4).trans (arr7 (V13 m ρ) c), W13_v163, W13_v128, W13_v165, W13_v166, finK_conv]
/-- The second finalize call's result is the two-layer network on view 2 (the network's definition, unfolded). -/
theorem W14_v167 : W14 m ρ c (Proc.devRef .tc main_v167) = g₂ := W14_v167_conv m ρ c

/-! ### The network output, carried past view 1's z-score to the statistics call and through it to the normalize call -/

theorem W17_v167 : W17 m ρ c (Proc.devRef .tc main_v167) = g₂ :=
  (W17_of_ne m ρ c main_v167 (by decide)).trans <| (host_keeps hostOps9 main_v167).trans <|
    (W15_of_ne m ρ c main_v167 (by decide)).trans (W14_v167 m ρ c)
theorem W19_v167 : W19 m ρ c (Proc.devRef .tc main_v167) = g₂ :=
  (host_keeps hostOps11 main_v167).trans <|
    ((W18_arr m ρ c 0).trans (((dat10 (V17 m ρ) c).arrAt_in 0 rfl _).trans (A_eq10 (V17 m ρ) c 0))).trans
      (W17_v167 m ρ c)

/-! ### The z-score: the column sums and sums of squares, the host's mean and reciprocal standard deviation, normalize -/

theorem W18_v179_0 : W18 m ρ c (Proc.devRef .tc main_v179_0) = Cert.Spec.sumRow (F := Ideal) g₂ := by
  rw [show W18 m ρ c (Proc.devRef .tc main_v179_0)
      = Cert.Spec.sumRow (F := Ideal) (W17 m ρ c (Proc.devRef .tc main_v167))
      from (W18_arr m ρ c 1).trans (arr10_1 (V17 m ρ) c), W17_v167]
theorem W18_v179_1 : W18 m ρ c (Proc.devRef .tc main_v179_1) = Cert.Spec.sqRow (F := Ideal) g₂ := by
  rw [show W18 m ρ c (Proc.devRef .tc main_v179_1)
      = Cert.Spec.sqRow (F := Ideal) (W17 m ρ c (Proc.devRef .tc main_v167))
      from (W18_arr m ρ c 2).trans (arr10_2 (V17 m ρ) c), W17_v167]
theorem W19_v181 : W19 m ρ c (Proc.devRef .tc main_v181)
    = Cert.Spec.meanK (F := Ideal) (Cert.Spec.sumRow (F := Ideal) g₂) :=
  (host11_mean (W18 m ρ c)).trans (by rw [W18_v179_0])
theorem W19_v188 : W19 m ρ c (Proc.devRef .tc main_v188)
    = Cert.Spec.invStdK (F := Ideal) (Cert.Spec.sumRow (F := Ideal) g₂) (Cert.Spec.sqRow (F := Ideal) g₂) :=
  (host11_invstd (W18 m ρ c)).trans (by rw [W18_v179_0, W18_v179_1])
theorem W20_v189 : W20 m ρ c (Proc.devRef .tc main_v189)
    = Cert.Spec.normK (F := Ideal) g₂ (Cert.Spec.meanK (F := Ideal) (Cert.Spec.sumRow (F := Ideal) g₂))
        (Cert.Spec.invStdK (F := Ideal) (Cert.Spec.sumRow (F := Ideal) g₂) (Cert.Spec.sqRow (F := Ideal) g₂)) := by
  rw [show W20 m ρ c (Proc.devRef .tc main_v189)
      = Cert.Spec.normK (F := Ideal) (W19 m ρ c (Proc.devRef .tc main_v167))
          (W19 m ρ c (Proc.devRef .tc main_v181)) (W19 m ρ c (Proc.devRef .tc main_v188))
      from (W20_arr m ρ c 3).trans (arr11 (V19 m ρ) c), W19_v167, W19_v181, W19_v188]

end Chain

/-- The first result: view 1's network output, z-scored the kernel's way.  The normalize call's result array is not
    touched by the three segments after it. -/
theorem out1 : W20 (F := Ideal) m ρ c (Proc.devRef .tc main_v178) = Cert.Spec.zscoreK (F := Ideal) (Cert.Spec.gcn (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) :=
  (W20_of_ne m ρ c main_v178 (by decide)).trans <| (host_keeps hostOps11 main_v178).trans <|
    (W18_of_ne m ρ c main_v178 (by decide)).trans (Chain.W17_v178 m ρ c)

/-- The second result: view 2's network output, z-scored the kernel's way.  It is the last call's result array. -/
theorem out2 : W20 (F := Ideal) m ρ c (Proc.devRef .tc main_v189) = Cert.Spec.zscoreK (F := Ideal) (Cert.Spec.gcn (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  Chain.W20_v189 m ρ c

end Cert.KernelIdeal.Val

end
-- ==== Proof.RRead.lean ====
/-
  The reference program's two results, read off the fold of its operations.  The operations are folded window
  by window: for each window, which buffers it writes (so every other buffer passes through it unchanged), and
  what each buffer a later window or the result still reads holds at the window's end, as a term of the shared
  vocabulary over the contents at launch.  The last window's ends are the two results: the z-score of the
  two-layer graph convolution of each view, with the arguments untouched.
-/
import proofs.«417470_j56255481643393_2_alg».proof.Proof.RRunOps
import proofs.«417470_j56255481643393_2_alg».proof.Proof.Spec
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Spec

variable {F : FTy → Type} [FloatOps F]

/-! ## Window 0: the first view's edge end points and its first layer, projected for the second -/

/-- The buffers' contents after window 0. -/
def val1 (V0 : Valuation τ sig (Elt F)) : Valuation τ sig (Elt F) := after ops_part0 V0
/-- The buffers the operations of window 0 write. -/
abbrev ops_part0_W : List (Ref sig .tc) := [main_v0, main_v1, main_v2, main_v3, main_v4, main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47, main_call0_cst, main_call0_v0, main_v48, main_v49]
set_option maxRecDepth 8192 in
theorem ops_part0_writes : (ops_part0 : List (HloOp τ sig (Elt F))).Forall fun op => op.writes ⊆ (ops_part0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 0 does not write passes through it unchanged. -/
theorem val1_keep (V0 : Valuation τ sig (Elt F)) (r : Ref sig .tc) (h : r ∉ ops_part0_W) :
    val1 V0 (Proc.devRef .tc r) = V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
theorem val1_main_arg5 (V0 : Valuation τ sig (Elt F)) : val1 V0 (no_index (Proc.devRef .tc main_arg5)) = V0 (Proc.devRef .tc main_arg5) :=
  val1_keep V0 main_arg5 (by decide)
theorem val1_main_arg6 (V0 : Valuation τ sig (Elt F)) : val1 V0 (no_index (Proc.devRef .tc main_arg6)) = V0 (Proc.devRef .tc main_arg6) :=
  val1_keep V0 main_arg6 (by decide)
theorem val1_main_arg7 (V0 : Valuation τ sig (Elt F)) : val1 V0 (no_index (Proc.devRef .tc main_arg7)) = V0 (Proc.devRef .tc main_arg7) :=
  val1_keep V0 main_arg7 (by decide)
set_option maxRecDepth 8192 in
set_option maxHeartbeats 1600000 in
/-- The first view's edge sources. -/
theorem val1_main_v1 (V0 : Valuation τ sig (Elt F)) : val1 V0 (no_index (Proc.devRef .tc main_v1))
    = srcOf (V0 (Proc.devRef .tc main_arg1)) := by
  unfold val1
  simp only [ops_part0]
  after_results_simp
  all_goals rfl
set_option maxRecDepth 8192 in
set_option maxHeartbeats 1600000 in
/-- The first view's edge targets. -/
theorem val1_main_v3 (V0 : Valuation τ sig (Elt F)) : val1 V0 (no_index (Proc.devRef .tc main_v3))
    = dstOf (V0 (Proc.devRef .tc main_arg1)) := by
  unfold val1
  simp only [ops_part0]
  after_results_simp
  all_goals rfl
set_option maxRecDepth 8192 in
set_option maxHeartbeats 1600000 in
/-- The first view's hidden features (first convolution, rectified) times the second layer's weights. -/
theorem val1_main_v49 (V0 : Valuation τ sig (Elt F)) : val1 V0 (no_index (Proc.devRef .tc main_v49))
    = xw64 (relu (conv (xw256 (V0 (Proc.devRef .tc main_arg0)) (V0 (Proc.devRef .tc main_arg4))) (srcOf (V0 (Proc.devRef .tc main_arg1))) (dstOf (V0 (Proc.devRef .tc main_arg1))) (V0 (Proc.devRef .tc main_arg5)))) (V0 (Proc.devRef .tc main_arg6)) := by
  unfold val1
  simp only [ops_part0]
  after_results_simp
  all_goals rfl

/-! ## Window 1: the first view's second layer, and the second view's end points and projection -/

/-- The buffers' contents after windows 0 to 1. -/
def val2 (V0 : Valuation τ sig (Elt F)) : Valuation τ sig (Elt F) := after ops_part1 (val1 V0)
/-- The buffers the operations of window 1 write. -/
abbrev ops_part1_W : List (Ref sig .tc) := [main_cst_8, main_v50, main_cst_9, main_v51, main_v52, main_v53, main_cst_10, main_v54, main_v55, main_v56, main_c_11, main_v57, main_v58, main_c_12, main_v59, main_v60, main_v61, main_v62, main_v63, main_c_13, main_v64, main_v65, main_c_14, main_v66, main_v67, main_v68, main_v69, main_v70, main_v71, main_c_15, main_v72, main_v73, main_c_16, main_v74, main_v75, main_v76, main_v77, main_v78, main_v79, main_v80, main_v81, main_cst_17, main_v82, main_v83, main_v84, main_v85, main_v86, main_v87, main_v88, main_v89, main_v90, main_v91, main_v92, main_v93, main_v94, main_v95, main_v96, main_v97, main_cst_18, main_v98]
set_option maxRecDepth 8192 in
theorem ops_part1_writes : (ops_part1 : List (HloOp τ sig (Elt F))).Forall fun op => op.writes ⊆ (ops_part1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 1 does not write passes through it unchanged. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
set_option maxRecDepth 8192 in
set_option maxHeartbeats 1600000 in
/-- The first view's network output. -/
theorem val2_main_v92 (V0 : Valuation τ sig (Elt F)) : val2 V0 (no_index (Proc.devRef .tc main_v92))
    = gcn (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) := by
  unfold val2
  simp only [ops_part1]
  after_results_simp
  simp only [val1_main_v49, val1_main_v1, val1_main_v3, val1_main_arg7]
  all_goals rfl
set_option maxRecDepth 8192 in
set_option maxHeartbeats 1600000 in
/-- The second view's edge sources. -/
theorem val2_main_v94 (V0 : Valuation τ sig (Elt F)) : val2 V0 (no_index (Proc.devRef .tc main_v94))
    = srcOf (V0 (Proc.devRef .tc main_arg3)) := by
  unfold val2
  simp only [ops_part1]
  after_results_simp
  simp only [val1_main_arg3]
  all_goals rfl
set_option maxRecDepth 8192 in
set_option maxHeartbeats 1600000 in
/-- The second view's edge targets. -/
theorem val2_main_v96 (V0 : Valuation τ sig (Elt F)) : val2 V0 (no_index (Proc.devRef .tc main_v96))
    = dstOf (V0 (Proc.devRef .tc main_arg3)) := by
  unfold val2
  simp only [ops_part1]
  after_results_simp
  simp only [val1_main_arg3]
  all_goals rfl
set_option maxRecDepth 8192 in
set_option maxHeartbeats 1600000 in
/-- The second view's features times the first layer's weights. -/
theorem val2_main_v97 (V0 : Valuation τ sig (Elt F)) : val2 V0 (no_index (Proc.devRef .tc main_v97))
    = xw256 (V0 (Proc.devRef .tc main_arg2)) (V0 (Proc.devRef .tc main_arg4)) := by
  unfold val2
  simp only [ops_part1]
  after_results_simp
  simp only [val1_main_arg2, val1_main_arg4]
  all_goals rfl
set_option maxRecDepth 8192 in
set_option maxHeartbeats 1600000 in
/-- A one per edge: what the degree count adds up (made in this window, summed in the next). -/
theorem val2_main_v98 (V0 : Valuation τ sig (Elt F)) : val2 V0 (no_index (Proc.devRef .tc main_v98))
    = broadcastInDim S1600000 ![] bcast_S_S1600000 (constant (F := F) S_ .f32 0x3F800000#32) := by
  unfold val2
  simp only [ops_part1]
  after_results_simp
  all_goals rfl

/-! ## Window 2: the second view's first layer, and the degree count for its second -/

/-- The buffers' contents after windows 0 to 2. -/
def val3 (V0 : Valuation τ sig (Elt F)) : Valuation τ sig (Elt F) := after ops_part2 (val2 V0)
/-- The buffers the operations of window 2 write. -/
abbrev ops_part2_W : List (Ref sig .tc) := [main_cst_19, main_v99, main_v100, main_v101, main_cst_20, main_v102, main_v103, main_v104, main_c_21, main_v105, main_v106, main_c_22, main_v107, main_v108, main_v109, main_v110, main_v111, main_c_23, main_v112, main_v113, main_c_24, main_v114, main_v115, main_v116, main_v117, main_v118, main_v119, main_c_25, main_v120, main_v121, main_c_26, main_v122, main_v123, main_v124, main_v125, main_v126, main_v127, main_v128, main_v129, main_cst_27, main_v130, main_v131, main_v132, main_v133, main_v134, main_v135, main_v136, main_v137, main_v138, main_v139, main_v140, main_call1_cst, main_call1_v0, main_v141, main_v142, main_cst_28, main_v143, main_cst_29, main_v144, main_v145, main_v146, main_cst_30]
set_option maxRecDepth 8192 in
theorem ops_part2_writes : (ops_part2 : List (HloOp τ sig (Elt F))).Forall fun op => op.writes ⊆ (ops_part2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 2 does not write passes through it unchanged. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_v92 (V0 : Valuation τ sig (Elt F)) : val3 V0 (no_index (Proc.devRef .tc main_v92))
    = gcn (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) :=
  (val3_keep V0 main_v92 (by decide)).trans (val2_main_v92 V0)
theorem val3_main_v94 (V0 : Valuation τ sig (Elt F)) : val3 V0 (no_index (Proc.devRef .tc main_v94))
    = srcOf (V0 (Proc.devRef .tc main_arg3)) :=
  (val3_keep V0 main_v94 (by decide)).trans (val2_main_v94 V0)
theorem val3_main_v96 (V0 : Valuation τ sig (Elt F)) : val3 V0 (no_index (Proc.devRef .tc main_v96))
    = dstOf (V0 (Proc.devRef .tc main_arg3)) :=
  (val3_keep V0 main_v96 (by decide)).trans (val2_main_v96 V0)
set_option maxRecDepth 8192 in
set_option maxHeartbeats 1600000 in
/-- The second view's hidden features times the second layer's weights. -/
theorem val3_main_v142 (V0 : Valuation τ sig (Elt F)) : val3 V0 (no_index (Proc.devRef .tc main_v142))
    = xw64 (relu (conv (xw256 (V0 (Proc.devRef .tc main_arg2)) (V0 (Proc.devRef .tc main_arg4))) (srcOf (V0 (Proc.devRef .tc main_arg3))) (dstOf (V0 (Proc.devRef .tc main_arg3))) (V0 (Proc.devRef .tc main_arg5)))) (V0 (Proc.devRef .tc main_arg6)) := by
  unfold val3
  simp only [ops_part2]
  after_results_simp
  simp only [val2_main_v94, val2_main_v96, val2_main_v97, val2_main_v98, val2_main_arg5, val2_main_arg6]
  all_goals rfl
set_option maxRecDepth 8192 in
set_option maxHeartbeats 1600000 in
/-- The number of edges into each node of the second view (the self loop's one is added in the next window). -/
theorem val3_main_v146 (V0 : Valuation τ sig (Elt F)) : val3 V0 (no_index (Proc.devRef .tc main_v146))
    = Host.scatterAdd scatter_S100000_S1600000x1_S1600000_n_0_0_1
      (broadcastInDim S100000 ![] bcast_S_S100000 (constant (F := F) S_ .f32 0x00000000#32))
      (broadcastInDim S1600000x1 ![0] bcast_S1600000_S1600000x1_0 (dstOf (V0 (Proc.devRef .tc main_arg3))))
      (broadcastInDim S1600000 ![] bcast_S_S1600000 (constant (F := F) S_ .f32 0x3F800000#32)) := by
  unfold val3
  simp only [ops_part2]
  after_results_simp
  simp only [val2_main_v96]
  all_goals rfl
set_option maxRecDepth 8192 in
set_option maxHeartbeats 1600000 in
/-- The self loop's one, still a scalar. -/
theorem val3_main_cst_30 (V0 : Valuation τ sig (Elt F)) : val3 V0 (no_index (Proc.devRef .tc main_cst_30))
    = constant (F := F) S_ .f32 0x3F800000#32 := by
  unfold val3
  simp only [ops_part2]
  after_results_simp
  all_goals rfl

/-! ## Window 3: the second view's second layer, and the first view's z-score -/

/-- The buffers' contents after windows 0 to 3. -/
def val4 (V0 : Valuation τ sig (Elt F)) : Valuation τ sig (Elt F) := after ops_part3 (val3 V0)
/-- The buffers the operations of window 3 write. -/
abbrev ops_part3_W : List (Ref sig .tc) := [main_v147, main_v148, main_v149, main_c_31, main_v150, main_v151, main_c_32, main_v152, main_v153, main_v154, main_v155, main_v156, main_c_33, main_v157, main_v158, main_c_34, main_v159, main_v160, main_v161, main_v162, main_v163, main_v164, main_c_35, main_v165, main_v166, main_c_36, main_v167, main_v168, main_v169, main_v170, main_v171, main_v172, main_v173, main_v174, main_cst_37, main_v175, main_v176, main_v177, main_v178, main_v179, main_v180, main_v181, main_v182, main_v183, main_v184, main_v185, main_cst_38, main_v186, main_cst_39, main_v187, main_v188, main_v189, main_v190, main_v191, main_c_40, main_call2_call0_cst, main_call2_call0_v0, main_call2_call0_v1, main_call2_call0_cst_0, main_call2_call0_v2, main_call2_call0_v3, main_call2_call0_v4, main_call2_call0_v5, main_call2_call0_v6, main_call2_call0_v7, main_call2_call0_cst_1, main_call2_call0_v8, main_call2_call0_cst_2, main_call2_call0_v9, main_call2_call0_v10, main_call2_call0_v11, main_call2_call0_cst_3, main_call2_call0_v12, main_call2_call0_cst_4, main_call2_call0_call0_v0, main_call2_call0_call0_v1, main_call2_v0, main_v192, main_v193, main_v194, main_v195, main_cst_41]
set_option maxRecDepth 8192 in
theorem ops_part3_writes : (ops_part3 : List (HloOp τ sig (Elt F))).Forall fun op => op.writes ⊆ (ops_part3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 3 does not write passes through it unchanged. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
set_option maxRecDepth 8192 in
set_option maxHeartbeats 1600000 in
/-- The second view's network output. -/
theorem val4_main_v185 (V0 : Valuation τ sig (Elt F)) : val4 V0 (no_index (Proc.devRef .tc main_v185))
    = gcn (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val4
  simp only [ops_part3]
  after_results_simp
  simp only [val3_main_v142, val3_main_v146, val3_main_cst_30, val3_main_v94, val3_main_v96, val3_main_arg7]
  all_goals rfl
set_option maxRecDepth 8192 in
set_option maxHeartbeats 1600000 in
/-- The first result: the first view's output, each column less its mean over its standard deviation. -/
theorem val4_main_v195 (V0 : Valuation τ sig (Elt F)) : val4 V0 (no_index (Proc.devRef .tc main_v195))
    = out (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) := by
  unfold val4
  simp only [ops_part3]
  after_results_simp
  simp only [val3_main_v92]
  all_goals rfl
set_option maxRecDepth 8192 in
set_option maxHeartbeats 1600000 in
/-- The zero the next window's column sum starts from. -/
theorem val4_main_cst_41 (V0 : Valuation τ sig (Elt F)) : val4 V0 (no_index (Proc.devRef .tc main_cst_41))
    = constant (F := F) S_ .f32 0x00000000#32 := by
  unfold val4
  simp only [ops_part3]
  after_results_simp
  all_goals rfl

/-! ## Window 4: the second view's z-score -/

/-- The buffers' contents after windows 0 to 4. -/
def val5 (V0 : Valuation τ sig (Elt F)) : Valuation τ sig (Elt F) := after ops_part4 (val4 V0)
/-- The buffers the operations of window 4 write. -/
abbrev ops_part4_W : List (Ref sig .tc) := [main_v196, main_cst_42, main_v197, main_v198, main_v199, main_v200, main_v201, main_c_43, main_call3_call0_cst, main_call3_call0_v0, main_call3_call0_v1, main_call3_call0_cst_0, main_call3_call0_v2, main_call3_call0_v3, main_call3_call0_v4, main_call3_call0_v5, main_call3_call0_v6, main_call3_call0_v7, main_call3_call0_cst_1, main_call3_call0_v8, main_call3_call0_cst_2, main_call3_call0_v9, main_call3_call0_v10, main_call3_call0_v11, main_call3_call0_cst_3, main_call3_call0_v12, main_call3_call0_cst_4, main_call3_call0_call0_v0, main_call3_call0_call0_v1, main_call3_v0, main_v202, main_v203, main_v204, main_v205]
set_option maxRecDepth 8192 in
theorem ops_part4_writes : (ops_part4 : List (HloOp τ sig (Elt F))).Forall fun op => op.writes ⊆ (ops_part4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 4 does not write passes through it unchanged. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_v195 (V0 : Valuation τ sig (Elt F)) : val5 V0 (no_index (Proc.devRef .tc main_v195))
    = out (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) :=
  (val5_keep V0 main_v195 (by decide)).trans (val4_main_v195 V0)
set_option maxRecDepth 8192 in
set_option maxHeartbeats 1600000 in
/-- The second result. -/
theorem val5_main_v205 (V0 : Valuation τ sig (Elt F)) : val5 V0 (no_index (Proc.devRef .tc main_v205))
    = out (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val5
  simp only [ops_part4]
  after_results_simp
  simp only [val4_main_v185, val4_main_cst_41]
  all_goals rfl

/-! ## The whole fold -/

/-- Folding over a concatenation is folding over the first list, then over the second from there. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- The fold over all the operations is the five windows' folds in turn. -/
theorem after_ops (V0 : Valuation τ sig (Elt F)) : after ops V0 = val5 V0 := by
  simp only [ops, after_concat]
  rfl

/-- The first result buffer at the end of the program: the first view's result in the shared vocabulary. -/
theorem res1 (V0 : Valuation τ sig (Elt F)) : StableHlo.after (ops (F := F)) V0 (Proc.devRef .tc main_v195)
    = Cert.Spec.out (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) := by
  rw [after_ops]; exact val5_main_v195 V0

/-- The second result buffer at the end of the program: the second view's result. -/
theorem res2 (V0 : Valuation τ sig (Elt F)) : StableHlo.after (ops (F := F)) V0 (Proc.devRef .tc main_v205)
    = Cert.Spec.out (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [after_ops]; exact val5_main_v205 V0

/-! No operation writes an argument: each holds at the end what it held at launch. -/

theorem keep_arg0 (V0 : Valuation τ sig (Elt F)) : StableHlo.after (ops (F := F)) V0 (Proc.devRef .tc main_arg0) = V0 (Proc.devRef .tc main_arg0) := by
  rw [after_ops]; exact val5_main_arg0 V0
theorem keep_arg1 (V0 : Valuation τ sig (Elt F)) : StableHlo.after (ops (F := F)) V0 (Proc.devRef .tc main_arg1) = V0 (Proc.devRef .tc main_arg1) := by
  rw [after_ops]; exact val5_main_arg1 V0
theorem keep_arg2 (V0 : Valuation τ sig (Elt F)) : StableHlo.after (ops (F := F)) V0 (Proc.devRef .tc main_arg2) = V0 (Proc.devRef .tc main_arg2) := by
  rw [after_ops]; exact val5_main_arg2 V0
theorem keep_arg3 (V0 : Valuation τ sig (Elt F)) : StableHlo.after (ops (F := F)) V0 (Proc.devRef .tc main_arg3) = V0 (Proc.devRef .tc main_arg3) := by
  rw [after_ops]; exact val5_main_arg3 V0
theorem keep_arg4 (V0 : Valuation τ sig (Elt F)) : StableHlo.after (ops (F := F)) V0 (Proc.devRef .tc main_arg4) = V0 (Proc.devRef .tc main_arg4) := by
  rw [after_ops]; exact val5_main_arg4 V0
theorem keep_arg5 (V0 : Valuation τ sig (Elt F)) : StableHlo.after (ops (F := F)) V0 (Proc.devRef .tc main_arg5) = V0 (Proc.devRef .tc main_arg5) := by
  rw [after_ops]; exact val5_main_arg5 V0
theorem keep_arg6 (V0 : Valuation τ sig (Elt F)) : StableHlo.after (ops (F := F)) V0 (Proc.devRef .tc main_arg6) = V0 (Proc.devRef .tc main_arg6) := by
  rw [after_ops]; exact val5_main_arg6 V0
theorem keep_arg7 (V0 : Valuation τ sig (Elt F)) : StableHlo.after (ops (F := F)) V0 (Proc.devRef .tc main_arg7) = V0 (Proc.devRef .tc main_arg7) := by
  rw [after_ops]; exact val5_main_arg7 V0

end Cert.ReferenceIdeal.Value

end
-- ==== Proof.PreDecode.lean ====
/-
  What the precondition says, read back from its printed form.

  The printed predicate is a conjunction of eight one-bit words, nested to the left.  Six of them say of one float
  input that every entry's absolute value is below plus infinity; over the extended reals the absolute value is the
  larger of x and -x, and that is below the top element exactly when x is neither infinity, that is when x is a real
  number.  The other two say of one view that every column of the network's output has a standard deviation above
  zero, with the network and the deviation spelt operation by operation as the reference program spells them, so
  that the spelt term is the shared vocabulary's own by unfolding alone.  A conjunction of one-bit words is one when
  both are; an "all" over an array is one when every entry is.
-/
import proofs.«417470_j56255481643393_2_alg».proof.Pre_finite_inputs
import proofs.«417470_j56255481643393_2_alg».proof.Proof.Gen.Pre_finite_inputs
import proofs.«417470_j56255481643393_2_alg».proof.Proof.Spec
import Idealize.ShloMosaic.Lib.ReduceAll
import Idealize.ShloMosaic.PureOps.Ideal

noncomputable section

namespace Cert.PreDecode

open Idealize.ShloMosaic Cert.Pre_finite_inputs Cert.Pre_finite_inputs.Facts

/-! ## One entry -/

/-- The word of plus infinity is the top element. -/
theorem inf_word : Ideal.ofBits .f32 0x7F800000#32 = ⊤ := by simp [Ideal.ofBits, Ideal.ieee]

/-- The word of zero is zero. -/
theorem zero_word : Ideal.ofBits .f32 0x00000000#32 = 0 := by simp [Ideal.ofBits, Ideal.ieee]

/-- An extended real whose absolute value is below the top element is a real number. -/
theorem real_of_abs_lt (x : EReal) (h : max x (-x) < ⊤) : ∃ r : ℝ, x = (r : EReal) := by
  induction x using EReal.rec with
  | bot => simp at h
  | coe r => exact ⟨r, rfl⟩
  | top => simp at h

/-- A truth value's one-bit word is one exactly when the truth value is true. -/
theorem ofBool_one (b : Bool) : BitVec.ofBool b = 1#1 ↔ b = true := by cases b <;> decide

/-- The scalar shape has one index. -/
instance : Subsingleton S_.Idx := ⟨fun a b => funext fun d => d.elim0⟩

/-! ## The eight conjuncts, named -/

/-- "Every |entry| is below plus infinity", as the precondition prints it. -/
def allFin {s : Shape} {axes : List (Fin s.rank)} (x : FVec Ideal s .f32)
    (bc : S_.BroadcastsInDim s (![] : Fin 0 → Fin s.rank)) (rd : s.ReducesTo axes S_) : IVec S_ 1 :=
  Host.reduce IntOp.andi
    (cmpf .olt (Host.absf x) (broadcastInDim s ![] bc (constant S_ .f32 0x7F800000#32)))
    (constantI S_ 1 1#1) rd h_S_

/-- "Every column's standard deviation is above zero", as the precondition prints it. -/
def posStd (H : Cert.Spec.Nodes Ideal) : IVec S_ 1 :=
  Host.reduce IntOp.andi
    (cmpf .ogt (Cert.Spec.stdP (F := Ideal) H) (broadcastInDim S64 ![] bcast_S_S64 (constant S_ .f32 0x00000000#32)))
    (constantI S_ 1 1#1) reducesTo_S64_S_d0 h_S_

/-- The printed predicate is the left-nested conjunction of the eight: the six inputs' finiteness, then the two
    views' positive deviations, the network and the deviation being the shared vocabulary's by unfolding. -/
theorem fn_eq
    (a0 : FVec Ideal S100000x256 .f32) (a1 : IVec S2x1600000 32)
    (a2 : FVec Ideal S100000x256 .f32) (a3 : IVec S2x1600000 32)
    (a4 : FVec Ideal S256x64 .f32) (a5 : FVec Ideal S64 .f32)
    (a6 : FVec Ideal S64x64 .f32) (a7 : FVec Ideal S64 .f32) :
    fn (F := Ideal) a0 a1 a2 a3 a4 a5 a6 a7 =
      andi (andi (andi (andi (andi (andi (andi
        (allFin a0 bcast_S_S100000x256 reducesTo_S100000x256_S_d0_1)
        (allFin a2 bcast_S_S100000x256 reducesTo_S100000x256_S_d0_1))
        (allFin a4 bcast_S_S256x64 reducesTo_S256x64_S_d0_1))
        (allFin a5 bcast_S_S64 reducesTo_S64_S_d0))
        (allFin a6 bcast_S_S64x64 reducesTo_S64x64_S_d0_1))
        (allFin a7 bcast_S_S64 reducesTo_S64_S_d0))
        (posStd (Cert.Spec.gcn (F := Ideal) a0 a1 a4 a5 a6 a7)))
        (posStd (Cert.Spec.gcn (F := Ideal) a2 a3 a4 a5 a6 a7)) := rfl

/-! ## Each conjunct read back -/

/-- "Every |entry| is below plus infinity" holding, every entry is a real number. -/
theorem allReal_of_allFin {s : Shape} {axes : List (Fin s.rank)} (x : FVec Ideal s .f32)
    (bc : S_.BroadcastsInDim s (![] : Fin 0 → Fin s.rank)) (rd : s.ReducesTo axes S_) (j : S_.Idx)
    (e : allFin x bc rd j = 1#1) : Cert.Spec.AllReal x := by
  intro i
  have hi : Ideal.cmp .olt (max (x i) (-(x i))) (Ideal.ofBits .f32 0x7F800000#32) = 1#1 :=
    Host.reduce_andi_all _ _ rd h_S_ j e i
  rw [inf_word] at hi
  unfold Ideal.cmp at hi
  rw [ofBool_one] at hi
  exact real_of_abs_lt _ (of_decide_eq_true hi)

/-- "Every column's standard deviation is above zero" holding, each one is. -/
theorem pos_of_posStd (H : Cert.Spec.Nodes Ideal) (j : S_.Idx) (e : posStd H j = 1#1) :
    ∀ k, (0 : EReal) < Cert.Spec.stdP (F := Ideal) H k := by
  intro k
  have hk : Ideal.cmp .ogt (Cert.Spec.stdP (F := Ideal) H k) (Ideal.ofBits .f32 0x00000000#32) = 1#1 :=
    Host.reduce_andi_all _ _ reducesTo_S64_S_d0 h_S_ j e k
  rw [zero_word] at hk
  unfold Ideal.cmp at hk
  rw [ofBool_one] at hk
  exact of_decide_eq_true hk

/-- A conjunction of two one-bit arrays read at an index is one exactly when both are. -/
theorem andi_one {s : Shape} (x y : IVec s 1) (j : s.Idx) (e : andi x y j = 1#1) : x j = 1#1 ∧ y j = 1#1 :=
  IntOp.andi_eq_one.1 e

/-! ## The precondition decoded -/

theorem decode
    (a0 : FVec Ideal Cert.Pre_finite_inputs.S100000x256 .f32) (a1 : IVec Cert.Pre_finite_inputs.S2x1600000 32)
    (a2 : FVec Ideal Cert.Pre_finite_inputs.S100000x256 .f32) (a3 : IVec Cert.Pre_finite_inputs.S2x1600000 32)
    (a4 : FVec Ideal Cert.Pre_finite_inputs.S256x64 .f32) (a5 : FVec Ideal Cert.Pre_finite_inputs.S64 .f32)
    (a6 : FVec Ideal Cert.Pre_finite_inputs.S64x64 .f32) (a7 : FVec Ideal Cert.Pre_finite_inputs.S64 .f32)
    (h : Cert.Pre_finite_inputs.fn (F := Ideal) a0 a1 a2 a3 a4 a5 a6 a7 = fun _ => 1#1) :
    Cert.Spec.AllReal a0 ∧ Cert.Spec.AllReal a2 ∧ Cert.Spec.AllReal a4 ∧ Cert.Spec.AllReal a5 ∧ Cert.Spec.AllReal a6 ∧ Cert.Spec.AllReal a7
      ∧ (∀ j, (0 : EReal) < Cert.Spec.stdP (F := Ideal) (Cert.Spec.gcn (F := Ideal) a0 a1 a4 a5 a6 a7) j)
      ∧ (∀ j, (0 : EReal) < Cert.Spec.stdP (F := Ideal) (Cert.Spec.gcn (F := Ideal) a2 a3 a4 a5 a6 a7) j) := by
  rw [fn_eq] at h
  have h0 := congrFun h (fun a => a.elim0 : S_.Idx)
  obtain ⟨h1, s2⟩ := andi_one _ _ _ h0
  obtain ⟨h2, s1⟩ := andi_one _ _ _ h1
  obtain ⟨h3, c7⟩ := andi_one _ _ _ h2
  obtain ⟨h4, c6⟩ := andi_one _ _ _ h3
  obtain ⟨h5, c5⟩ := andi_one _ _ _ h4
  obtain ⟨h6, c4⟩ := andi_one _ _ _ h5
  obtain ⟨c0, c2⟩ := andi_one _ _ _ h6
  exact ⟨allReal_of_allFin a0 _ _ _ c0, allReal_of_allFin a2 _ _ _ c2, allReal_of_allFin a4 _ _ _ c4,
    allReal_of_allFin a5 _ _ _ c5, allReal_of_allFin a6 _ _ _ c6, allReal_of_allFin a7 _ _ _ c7,
    pos_of_posStd _ _ s1, pos_of_posStd _ _ s2⟩

end Cert.PreDecode

end
-- ==== Proof.lean ====
/-
  Two views of a graph go through the same two-layer graph convolution, and each view's output is z-scored column by
  column.  The kernel program does it in twelve tiled calls (per view: project, finalize with the self loop, the bias and the
  maximum with zero, project, finalize; then per view the column sums and sums of squares over ten row blocks, and
  (h - mean) * rsqrt ((sum h^2 - n mean^2) / (n - 1))), with the degree counts, gathers and the scatter-add between the calls;
  the reference does it on whole arrays and divides (h - mean) by the unbiased standard deviation.

  At the exact values the two networks are one function of the arguments, stage by stage: a blocked product is the whole
  product, the finalize step over a column and a row is the reference's over their broadcasts, and the operations between the
  calls are the reference's own.  The two z-scores agree wherever every entry of the network output is a real number, which
  the inputs' finiteness gives (a degree count plus one is at least one, so its reciprocal square root is a positive real;
  sums and products of reals are reals), and every column's variance is positive, which the precondition says: then
  sum (h - mean)^2 = sum h^2 - n mean^2 over the reals, and x * (sqrt v)^-1 = x / sqrt v.  Where a column is constant the two
  differ (0 * rsqrt 0 against 0 / 0), which is why the precondition keeps the reference's divisor off zero.

  The kernel programs' frames are the generated ones; the reference's frame is its run read back with the results dropped;
  the idealization rewrote nothing.
-/
import proofs.«417470_j56255481643393_2_alg».proof.Defs
import proofs.«417470_j56255481643393_2_alg».proof.Proof.Gen.Kernel
import proofs.«417470_j56255481643393_2_alg».proof.Proof.Gen.Kernel.Frame
import proofs.«417470_j56255481643393_2_alg».proof.Proof.Gen.KernelIdeal
import proofs.«417470_j56255481643393_2_alg».proof.Proof.Gen.KernelIdeal.Frame
import proofs.«417470_j56255481643393_2_alg».proof.Proof.Gen.ReferenceIdeal
import proofs.«417470_j56255481643393_2_alg».proof.Proof.Gen.Pre_finite_inputs
import proofs.«417470_j56255481643393_2_alg».proof.Proof.Spec
import proofs.«417470_j56255481643393_2_alg».proof.Proof.KRun
import proofs.«417470_j56255481643393_2_alg».proof.Proof.RRun
import proofs.«417470_j56255481643393_2_alg».proof.Proof.Finite
import proofs.«417470_j56255481643393_2_alg».proof.Proof.ZAlgebra
import proofs.«417470_j56255481643393_2_alg».proof.Proof.KChain
import proofs.«417470_j56255481643393_2_alg».proof.Proof.RRead
import proofs.«417470_j56255481643393_2_alg».proof.Proof.PreDecode
import Idealize.ShloMosaic.Adequacy
import Idealize.ShloMosaic.Init

noncomputable section

open Idealize.ShloMosaic Idealize.ShloMosaic.TcCoe Idealize.SL.Sem Idealize.ShloMosaic.StableHlo

namespace Cert.Proof

/-- Under the precondition the kernel's z-score of a view's network output is the reference's: the output's entries are
    reals because the inputs are, and its columns' standard deviations are positive because the precondition says so. -/
theorem view_eq (x : FVec Ideal Cert.ReferenceIdeal.S100000x256 .f32) (e : IVec Cert.ReferenceIdeal.S2x1600000 32)
    (w1 : FVec Ideal Cert.ReferenceIdeal.S256x64 .f32) (b1 : FVec Ideal Cert.ReferenceIdeal.S64 .f32)
    (w2 : FVec Ideal Cert.ReferenceIdeal.S64x64 .f32) (b2 : FVec Ideal Cert.ReferenceIdeal.S64 .f32)
    (hx : Cert.Spec.AllReal x) (hw1 : Cert.Spec.AllReal w1) (hb1 : Cert.Spec.AllReal b1) (hw2 : Cert.Spec.AllReal w2) (hb2 : Cert.Spec.AllReal b2)
    (hpos : ∀ j, (0 : EReal) < Cert.Spec.stdP (F := Ideal) (Cert.Spec.gcn (F := Ideal) x e w1 b1 w2 b2) j) :
    Cert.Spec.zscoreK (F := Ideal) (Cert.Spec.gcn (F := Ideal) x e w1 b1 w2 b2) = Cert.Spec.out (F := Ideal) x e w1 b1 w2 b2 :=
  Cert.ZAlgebra.zscoreK_eq_zscore _ (Cert.Finite.gcn_allReal x e w1 b1 w2 b2 hx hw1 hb1 hw2 hb2) hpos

/-- The reference runs and leaves its arguments alone: its run read back, the results dropped. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Value.keep_arg0 _),
     (h c Cert.ReferenceIdeal.main_arg1).trans (Cert.ReferenceIdeal.Value.keep_arg1 _),
     (h c Cert.ReferenceIdeal.main_arg2).trans (Cert.ReferenceIdeal.Value.keep_arg2 _),
     (h c Cert.ReferenceIdeal.main_arg3).trans (Cert.ReferenceIdeal.Value.keep_arg3 _),
     (h c Cert.ReferenceIdeal.main_arg4).trans (Cert.ReferenceIdeal.Value.keep_arg4 _),
     (h c Cert.ReferenceIdeal.main_arg5).trans (Cert.ReferenceIdeal.Value.keep_arg5 _),
     (h c Cert.ReferenceIdeal.main_arg6).trans (Cert.ReferenceIdeal.Value.keep_arg6 _),
     (h c Cert.ReferenceIdeal.main_arg7).trans (Cert.ReferenceIdeal.Value.keep_arg7 _)⟩)
    (Cert.ReferenceIdeal.Value.run_all (F := Ideal) m ρ)

/-- Both idealized programs end with each view's result at the reference's z-score of the view's network output. -/
theorem algebraic : Cert.algebraic_KernelIdeal_ReferenceIdeal := by
  intro m ρ m' ρ' hpre hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.out (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Val.run_results (F := Ideal) m ρ)
    obtain ⟨h0, h2, h4, h5, h6, h7, hp1, hp2⟩ := Cert.PreDecode.decode _ _ _ _ _ _ _ _ (hpre c)
    refine ⟨(h c).1.trans ((Cert.KernelIdeal.Val.out1 m ρ c).trans (view_eq _ _ _ _ _ _ h0 h4 h5 h6 h7 hp1)),
      (h c).2.1.trans ((Cert.KernelIdeal.Val.out2 m ρ c).trans (view_eq _ _ _ _ _ _ h2 h4 h5 h6 h7 hp2)), (h c).2.2⟩
  · refine (θ_run Cert.ReferenceIdeal.defs _ _).mono (fun r h c => ?_) (Cert.ReferenceIdeal.Value.run_all (F := Ideal) m' ρ')
    obtain ⟨e0, e1, e2, e3, e4, e5, e6, e7⟩ := hagree c
    refine ⟨(h c Cert.ReferenceIdeal.main_v195).trans ((Cert.ReferenceIdeal.Value.res1 _).trans ?_),
      (h c Cert.ReferenceIdeal.main_v205).trans ((Cert.ReferenceIdeal.Value.res2 _).trans ?_),
      (h c Cert.ReferenceIdeal.main_arg0).trans (Cert.ReferenceIdeal.Value.keep_arg0 _),
      (h c Cert.ReferenceIdeal.main_arg1).trans (Cert.ReferenceIdeal.Value.keep_arg1 _),
      (h c Cert.ReferenceIdeal.main_arg2).trans (Cert.ReferenceIdeal.Value.keep_arg2 _),
      (h c Cert.ReferenceIdeal.main_arg3).trans (Cert.ReferenceIdeal.Value.keep_arg3 _),
      (h c Cert.ReferenceIdeal.main_arg4).trans (Cert.ReferenceIdeal.Value.keep_arg4 _),
      (h c Cert.ReferenceIdeal.main_arg5).trans (Cert.ReferenceIdeal.Value.keep_arg5 _),
      (h c Cert.ReferenceIdeal.main_arg6).trans (Cert.ReferenceIdeal.Value.keep_arg6 _),
      (h c Cert.ReferenceIdeal.main_arg7).trans (Cert.ReferenceIdeal.Value.keep_arg7 _)⟩
    · dsimp only; rw [← e0, ← e1, ← e4, ← e5, ← e6, ← e7]
    · dsimp only; rw [← e2, ← e3, ← e4, ← e5, ← e6, ← e7]

/-- The certificate: the two kernel programs' frames are the generated ones, the reference's its run, the idealization
    rewrote nothing, and the two idealized programs agree. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
